-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S5x1000000x3 : Shape := ⟨3, ![5, 1000000, 3]⟩
abbrev S10x1000000x3 : Shape := ⟨3, ![10, 1000000, 3]⟩
abbrev S6x1000000x3 : Shape := ⟨3, ![6, 1000000, 3]⟩
abbrev S_ : Shape := ⟨0, ![]⟩

class Facts : Prop where
  bcast_S_S5x1000000x3 : S_.BroadcastsInDim S5x1000000x3 (![] : Fin 0 → Fin S5x1000000x3.rank)
  reducesTo_S5x1000000x3_S_d0_1_2 : S5x1000000x3.ReducesTo [0, 1, 2] S_
  h_S_ : 0 < S_.numel
  bcast_S_S10x1000000x3 : S_.BroadcastsInDim S10x1000000x3 (![] : Fin 0 → Fin S10x1000000x3.rank)
  reducesTo_S10x1000000x3_S_d0_1_2 : S10x1000000x3.ReducesTo [0, 1, 2] S_
  bcast_S_S6x1000000x3 : S_.BroadcastsInDim S6x1000000x3 (![] : Fin 0 → Fin S6x1000000x3.rank)
  reducesTo_S6x1000000x3_S_d0_1_2 : S6x1000000x3.ReducesTo [0, 1, 2] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg0 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg0 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : IVec S1000000 32) (main_arg1 : FVec F S5x1000000x3 .f32) (main_arg2 : FVec F S10x1000000x3 .f32) (main_arg3 : FVec F S6x1000000x3 .f32) : IVec S_ 1 :=
  let main_v0 : FVec F S5x1000000x3 .f32 := Host.absf main_arg1
  let main_cst : FVec F S_ .f32 := constant S_ .f32 0x7F800000#32
  let main_v1 : FVec F S5x1000000x3 .f32 := broadcastInDim S5x1000000x3 ![] bcast_S_S5x1000000x3 main_cst
  let main_v2 : IVec S5x1000000x3 1 := cmpf .olt main_v0 main_v1
  let main_c : IVec S_ 1 := constantI S_ 1 1#1
  let main_v3 : IVec S_ 1 := (fun x v => Host.reduce IntOp.andi x v reducesTo_S5x1000000x3_S_d0_1_2 h_S_) main_v2 main_c
  let main_v4 : FVec F S10x1000000x3 .f32 := Host.absf main_arg2
  let main_cst_0 : FVec F S_ .f32 := constant S_ .f32 0x7F800000#32
  let main_v5 : FVec F S10x1000000x3 .f32 := broadcastInDim S10x1000000x3 ![] bcast_S_S10x1000000x3 main_cst_0
  let main_v6 : IVec S10x1000000x3 1 := cmpf .olt main_v4 main_v5
  let main_c_1 : IVec S_ 1 := constantI S_ 1 1#1
  let main_v7 : IVec S_ 1 := (fun x v => Host.reduce IntOp.andi x v reducesTo_S10x1000000x3_S_d0_1_2 h_S_) main_v6 main_c_1
  let main_v8 : IVec S_ 1 := andi main_v3 main_v7
  let main_v9 : FVec F S6x1000000x3 .f32 := Host.absf main_arg3
  let main_cst_2 : FVec F S_ .f32 := constant S_ .f32 0x7F800000#32
  let main_v10 : FVec F S6x1000000x3 .f32 := broadcastInDim S6x1000000x3 ![] bcast_S_S6x1000000x3 main_cst_2
  let main_v11 : IVec S6x1000000x3 1 := cmpf .olt main_v9 main_v10
  let main_c_3 : IVec S_ 1 := constantI S_ 1 1#1
  let main_v12 : IVec S_ 1 := (fun x v => Host.reduce IntOp.andi x v reducesTo_S6x1000000x3_S_d0_1_2 h_S_) main_v11 main_c_3
  let main_v13 : IVec S_ 1 := andi main_v8 main_v12
  let main_c_4 : IVec S_ 32 := constantI S_ 32 4293967296#32
  let main_v14 : IVec S1000000 32 := broadcastInDim S1000000 ![] bcast_S_S1000000 main_c_4
  let main_v15 : IVec S1000000 1 := cmpi .sge main_arg0 main_v14
  let main_c_5 : IVec S_ 32 := constantI S_ 32 1000000#32
  fn_part1 (F := F) main_arg0 main_v13 main_v15 main_c_5
-- ==== Kernel.lean ====
abbrev S1000000 : Shape := ⟨1, ![1000000]⟩
abbrev S5x1000000x3 : Shape := ⟨3, ![5, 1000000, 3]⟩
abbrev S10x1000000x3 : Shape := ⟨3, ![10, 1000000, 3]⟩
abbrev S6x1000000x3 : Shape := ⟨3, ![6, 1000000, 3]⟩
abbrev S_ : Shape := ⟨0, ![]⟩
abbrev S1000000x1 : Shape := ⟨2, ![1000000, 1]⟩
abbrev S1x3 : Shape := ⟨2, ![1, 3]⟩
abbrev S2000x1 : Shape := ⟨2, ![2000, 1]⟩
abbrev S5x2000x3 : Shape := ⟨3, ![5, 2000, 3]⟩
abbrev S2000x3 : Shape := ⟨2, ![2000, 3]⟩
abbrev S3 : Shape := ⟨1, ![3]⟩
abbrev S10x2000x3 : Shape := ⟨3, ![10, 2000, 3]⟩
abbrev S6x2000x3 : Shape := ⟨3, ![6, 2000, 3]⟩
abbrev S3x3 : Shape := ⟨2, ![3, 3]⟩

abbrev nBuf : Space → Nat
  | .hbm => 28
  | .vmem => 15
  | .smem => 0
  | _ => 0

abbrev bufTy : (tb : Table) → Fin (tcTables nBuf tb) → BufTy
  | .hbm, ⟨0, _⟩ => ⟨S1000000, .i32⟩
  | .hbm, ⟨1, _⟩ => ⟨S5x1000000x3, .f32⟩
  | .hbm, ⟨2, _⟩ => ⟨S10x1000000x3, .f32⟩
  | .hbm, ⟨3, _⟩ => ⟨S6x1000000x3, .f32⟩
  | .hbm, ⟨4, _⟩ => ⟨S_, .f32⟩
  | .hbm, ⟨5, _⟩ => ⟨S1000000, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S1000000x1, .f32⟩
  | .hbm, ⟨18, _⟩ => ⟨S1x3, .f32⟩
  | .hbm, ⟨19, _⟩ => ⟨S3, .f32⟩
  | .hbm, ⟨20, _⟩ => ⟨S1x3, .f32⟩
  | .hbm, ⟨21, _⟩ => ⟨S3, .f32⟩
  | .hbm, ⟨22, _⟩ => ⟨S1x3, .f32⟩
  | .hbm, ⟨23, _⟩ => ⟨S3, .f32⟩
  | .hbm, ⟨24, _⟩ => ⟨S1x3, .f32⟩
  | .hbm, ⟨25, _⟩ => ⟨S1x3, .f32⟩
  | .hbm, ⟨26, _⟩ => ⟨S1x3, .f32⟩
  | .hbm, ⟨27, _⟩ => ⟨S3x3, .f32⟩
  | .local _ .vmem, ⟨0, _⟩ => ⟨S2000x1, .f32⟩
  | .local _ .vmem, ⟨1, _⟩ => ⟨S2000x1, .f32⟩
  | .local _ .vmem, ⟨2, _⟩ => ⟨S5x2000x3, .f32⟩
  | .local _ .vmem, ⟨3, _⟩ => ⟨S5x2000x3, .f32⟩
  | .local _ .vmem, ⟨4, _⟩ => ⟨S1x3, .f32⟩
  | .local _ .vmem, ⟨5, _⟩ => ⟨S2000x1, .f32⟩
  | .local _ .vmem, ⟨6, _⟩ => ⟨S2000x1, .f32⟩
  | .local _ .vmem, ⟨7, _⟩ => ⟨S10x2000x3, .f32⟩
  | .local _ .vmem, ⟨8, _⟩ => ⟨S10x2000x3, .f32⟩
  | .local _ .vmem, ⟨9, _⟩ => ⟨S1x3, .f32⟩
  | .local _ .vmem, ⟨10, _⟩ => ⟨S2000x1, .f32⟩
  | .local _ .vmem, ⟨11, _⟩ => ⟨S2000x1, .f32⟩
  | .local _ .vmem, ⟨12, _⟩ => ⟨S6x2000x3, .f32⟩
  | .local _ .vmem, ⟨13, _⟩ => ⟨S6x2000x3, .f32⟩
  | .local _ .vmem, ⟨14, _⟩ => ⟨S1x3, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10x2000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6x2000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S1x3_S1x3_0_0 : ∀ a, (![0, 0] : Fin 2 → Nat) a + S1x3.size a ≤ S1x3.size a
  h_S1x3 : 0 < S1x3.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S5x2000x3_S5x2000x3_0_0_0 : ∀ a, (![0, 0, 0] : Fin 3 → Nat) a + S5x2000x3.size a ≤ S5x2000x3.size a
  h_S5x2000x3 : 0 < S5x2000x3.numel
  reduces_S5x2000x3_S2000x3 : S5x2000x3.Reduces [0] S2000x3
  broadcasts_S2000x1_S2000x3 : S2000x1.Broadcasts S2000x3
  reduces_S2000x3_S3 : S2000x3.Reduces [0] S3
  shapeCasts_S3_S1x3 : S3.ShapeCasts S1x3
  shapeCasts_S1x3_S1x3 : S1x3.ShapeCasts S1x3
  shapeCasts_S1x3_S3 : S1x3.ShapeCasts S3
  inb_S10x2000x3_S10x2000x3_0_0_0 : ∀ a, (![0, 0, 0] : Fin 3 → Nat) a + S10x2000x3.size a ≤ S10x2000x3.size a
  h_S10x2000x3 : 0 < S10x2000x3.numel
  reduces_S10x2000x3_S2000x3 : S10x2000x3.Reduces [0] S2000x3
  inb_S6x2000x3_S6x2000x3_0_0_0 : ∀ a, (![0, 0, 0] : Fin 3 → Nat) a + S6x2000x3.size a ≤ S6x2000x3.size a
  h_S6x2000x3 : 0 < S6x2000x3.numel
  reduces_S6x2000x3_S2000x3 : S6x2000x3.Reduces [0] S2000x3
  bcast_S3_S1x3_1 : S3.BroadcastsInDim S1x3 (![1] : Fin 1 → Fin S1x3.rank)
  concatenates_S1x3_S1x3_S1x3_S3x3_d0 : Shape.Concatenates [S1x3, S1x3, S1x3] S3x3 0
  scatter_S1000000_S1000000x1_S1000000_n_0_0_1_wf : ScatterDims.WF S1000000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1000000x1.size a
  hwx0_0 : ∀ i : grid0.Coords, EltTy.bits .f32 = 32 ∨ (Rect.block (s := S1000000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x2000x3.size a ≤ S5x1000000x3.size a
  hwx0_1 : ∀ i : grid0.Coords, EltTy.bits .f32 = 32 ∨ (Rect.block (s := S5x1000000x3) S5x2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S1000000x1.size a
  hwx1_0 : ∀ i : grid1.Coords, EltTy.bits .f32 = 32 ∨ (Rect.block (s := S1000000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10x2000x3.size a ≤ S10x1000000x3.size a
  hwx1_1 : ∀ i : grid1.Coords, EltTy.bits .f32 = 32 ∨ (Rect.block (s := S10x1000000x3) S10x2000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3.size a ≤ S1x3.size a
  hwx1_2 : ∀ i : grid1.Coords, EltTy.bits .f32 = 32 ∨ (Rect.block (s := S1x3) S1x3.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S1000000x1.size a
  hwx2_0 : ∀ i : grid2.Coords, EltTy.bits .f32 = 32 ∨ (Rect.block (s := S1000000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6x2000x3.size a ≤ S6x1000000x3.size a
  hwx2_1 : ∀ i : grid2.Coords, EltTy.bits .f32 = 32 ∨ (Rect.block (s := S6x1000000x3) S6x2000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3.size a ≤ S1x3.size a
  hwx2_2 : ∀ i : grid2.Coords, EltTy.bits .f32 = 32 ∨ (Rect.block (s := S1x3) S1x3.size (cc2_transform_2 i) (hinb2_2 i)).WholeWords (EltTy.packing .f32)

variable [Facts₀]

def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf

abbrev win0_0 : Pipeline.Window sig grid0 :=
  Pipeline.Window.ofSpec (Memref.whole main_v9) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10x2000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x3.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S6x2000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x3.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000000 : Shape := ⟨1, ![1000000]⟩
abbrev S5x1000000x3 : Shape := ⟨3, ![5, 1000000, 3]⟩
abbrev S10x1000000x3 : Shape := ⟨3, ![10, 1000000, 3]⟩
abbrev S6x1000000x3 : Shape := ⟨3, ![6, 1000000, 3]⟩
abbrev S_ : Shape := ⟨0, ![]⟩
abbrev S1000000x1 : Shape := ⟨2, ![1000000, 1]⟩
abbrev S3 : Shape := ⟨1, ![3]⟩
abbrev S1x3 : Shape := ⟨2, ![1, 3]⟩
abbrev S3x3 : Shape := ⟨2, ![3, 3]⟩

abbrev nBuf : Space → Nat
  | .hbm => 41
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S5x1000000x3, .f32⟩
  | .hbm, ⟨2, _⟩ => ⟨S10x1000000x3, .f32⟩
  | .hbm, ⟨3, _⟩ => ⟨S6x1000000x3, .f32⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S5x1000000x3, .f32⟩
  | .hbm, ⟨13, _⟩ => ⟨S_, .f32⟩
  | .hbm, ⟨14, _⟩ => ⟨S3, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S10x1000000x3, .f32⟩
  | .hbm, ⟨24, _⟩ => ⟨S_, .f32⟩
  | .hbm, ⟨25, _⟩ => ⟨S3, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S6x1000000x3, .f32⟩
  | .hbm, ⟨35, _⟩ => ⟨S_, .f32⟩
  | .hbm, ⟨36, _⟩ => ⟨S3, .f32⟩
  | .hbm, ⟨37, _⟩ => ⟨S1x3, .f32⟩
  | .hbm, ⟨38, _⟩ => ⟨S1x3, .f32⟩
  | .hbm, ⟨39, _⟩ => ⟨S1x3, .f32⟩
  | .hbm, ⟨40, _⟩ => ⟨S3x3, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S5x1000000x3_S3_d0_1 : S5x1000000x3.ReducesTo [0, 1] S3
  h_S_ : 0 < S_.numel
  reducesTo_S10x1000000x3_S3_d0_1 : S10x1000000x3.ReducesTo [0, 1] S3
  reducesTo_S6x1000000x3_S3_d0_1 : S6x1000000x3.ReducesTo [0, 1] S3
  bcast_S3_S1x3_1 : S3.BroadcastsInDim S1x3 (![1] : Fin 1 → Fin S1x3.rank)
  concatenates_S1x3_S1x3_S1x3_S3x3_d0 : Shape.Concatenates [S1x3, S1x3, S1x3] S3x3 0
  gather_S5x1000000x3_S1000000x1_S5x1000000x3_02_1_n_n_1_1_513_wf : GatherDims.WF S5x1000000x3 S1000000x1 S5x1000000x3 [0, 2] [1] [] [1] [] 1 ![5, 1, 3]
  gather_S10x1000000x3_S1000000x1_S10x1000000x3_02_1_n_n_1_1_1013_wf : GatherDims.WF S10x1000000x3 S1000000x1 S10x1000000x3 [0, 2] [1] [] [1] [] 1 ![10, 1, 3]
  gather_S6x1000000x3_S1000000x1_S6x1000000x3_02_1_n_n_1_1_613_wf : GatherDims.WF S6x1000000x3 S1000000x1 S6x1000000x3 [0, 2] [1] [] [1] [] 1 ![6, 1, 3]

variable [Facts₀]

def gather_S5x1000000x3_S1000000x1_S5x1000000x3_02_1_n_n_1_1_513 : GatherDims S5x1000000x3 S1000000x1 S5x1000000x3 where
  offsetDims := [0, 2]
  collapsedSliceDims := [1]
  operandBatchingDims := []
  startIndicesBatchingDims := []
  startIndexMap := [1]
  indexVectorDim := 1
  sliceSizes := ![5, 1, 3]
  wf := gather_S5x1000000x3_S1000000x1_S5x1000000x3_02_1_n_n_1_1_513_wf
def gather_S10x1000000x3_S1000000x1_S10x1000000x3_02_1_n_n_1_1_1013 : GatherDims S10x1000000x3 S1000000x1 S10x1000000x3 where
  offsetDims := [0, 2]
  collapsedSliceDims := [1]
  operandBatchingDims := []
  startIndicesBatchingDims := []
  startIndexMap := [1]
  indexVectorDim := 1
  sliceSizes := ![10, 1, 3]
  wf := gather_S10x1000000x3_S1000000x1_S10x1000000x3_02_1_n_n_1_1_1013_wf
def gather_S6x1000000x3_S1000000x1_S6x1000000x3_02_1_n_n_1_1_613 : GatherDims S6x1000000x3 S1000000x1 S6x1000000x3 where
  offsetDims := [0, 2]
  collapsedSliceDims := [1]
  operandBatchingDims := []
  startIndicesBatchingDims := []
  startIndexMap := [1]
  indexVectorDim := 1
  sliceSizes := ![6, 1, 3]
  wf := gather_S6x1000000x3_S1000000x1_S6x1000000x3_02_1_n_n_1_1_613_wf

class Facts : Prop extends Facts₀ where

variable [Facts]
-- ==== Proof.KPoolBody0.lean ====
/-
  Region 0 of the pooled-embedding program (the pallas_call over table group 0, five tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([5, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.Kernel.Launch
import proofs.«430057_j62277025792621_1_alg».proof.Proof.Gen.Kernel.Skeleton
import proofs.«430057_j62277025792621_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The counts' staging buffer holds the point's tile of counts when the body starts, for any proof data over `V`
    whose body leaves that tile in place. -/
theorem counts_before0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The tables' staging buffer holds the point's tile of the tables when the body starts, likewise. -/
theorem tables_before0_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## The reset branch -/

/-- The body's branch condition, from the grid coordinate: "this is point 0". -/
abbrev isFirst0 (i : grid0.Coords) : Prop := (Scalar.cmpi .ne (Scalar.extui (Scalar.cmpi .eq (BitVec.ofNat 32 (i 0).val) 0#32)) 0#32) = 1#1
/-- It holds at the first point only. -/
theorem isFirst0_iff : ∀ t : Fin cfg0.N, isFirst0 (grid0.coords t) ↔ t.val % 500 = 0 :=
  (by decide +kernel : ∀ t : Fin grid0.N, isFirst0 (grid0.coords t) ↔ t.val % 500 = 0)

/-! ## The staging memrefs the pipeline hands the body -/

/-- The accumulator's one staging buffer, through which its contents are stated. -/
abbrev accView0 : View sig .tc .vmem S1x3 .f32 := (Memref.whole cc0_stg2_0 : Memref sig .tc .vmem S1x3 .f32).view
abbrev mref0_0 (t : Fin cfg0.N) : Memref sig .tc .vmem S2000x1 .f32 := win0_0.stage (cfg0.slots t 0)
abbrev whole0_0 (t : Fin cfg0.N) : (mref0_0 t).IsWhole := hstage0_0 ((cfg0.slots t 0).cast nbuf0_0)
abbrev mref0_1 (t : Fin cfg0.N) : Memref sig .tc .vmem S5x2000x3 .f32 := win0_1.stage (cfg0.slots t 1)
abbrev whole0_1 (t : Fin cfg0.N) : (mref0_1 t).IsWhole := hstage0_1 ((cfg0.slots t 1).cast nbuf0_1)
abbrev mref0_2 (t : Fin cfg0.N) : Memref sig .tc .vmem S1x3 .f32 := win0_2.stage (cfg0.slots t 2)
abbrev whole0_2 (t : Fin cfg0.N) : (mref0_2 t).IsWhole := hstage0_2 ((cfg0.slots t 2).cast nbuf0_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pool_kernel i arg1 harg1 arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pool_kernel i arg1 harg1 arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) (y : S1x3.Idx) :
    ∃ pc ∈ (firstRun0 c i arg1 harg1 arg2 harg2 arg3 harg3 hc0 x0 x1).1, y ∈ pc.1.set :=
  View.cover_of_tiledL (firstRun0 c i arg1 harg1 arg2 harg2 arg3 harg3 hc0 x0 x1).1 S1x3.size (by sl_kernel_rfl) y

/-- The accumulator after the first point: the pieces read back. -/
def firstAcc0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) : Vec F S1x3 .f32 :=
  accView0.read (Elt F) (accView0.writes (Elt F) accView0.junk (firstRun0 c i arg1 harg1 arg2 harg2 arg3 harg3 hc0 x0 x1).1)

/-- A later point's one store writes the whole buffer. -/
theorem laterCover0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) (y : S1x3.Idx) :
    ∃ pc ∈ (laterRun0 c i arg1 harg1 arg2 harg2 arg3 harg3 hc0 x0 x1 acc).1, y ∈ pc.1.set :=
  View.cover_of_tiledL (laterRun0 c i arg1 harg1 arg2 harg2 arg3 harg3 hc0 x0 x1 acc).1 S1x3.size (by sl_kernel_rfl) y

/-- The accumulator after a later point, over what the point before left. -/
def laterAcc0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) : Vec F S1x3 .f32 :=
  accView0.read (Elt F) (accView0.writes (Elt F) accView0.junk (laterRun0 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt0 (c : Dev nD) : (n : ℕ) → n < cfg0.N → Vec F S1x3 .f32
  | 0, hn => firstAcc0 c (grid0.coords ⟨0, hn⟩) (mref0_0 ⟨0, hn⟩) (whole0_0 ⟨0, hn⟩) (mref0_1 ⟨0, hn⟩) (whole0_1 ⟨0, hn⟩) (mref0_2 ⟨0, hn⟩) (whole0_2 ⟨0, hn⟩) ((isFirst0_iff ⟨0, hn⟩).mpr (Nat.zero_mod _)) (tile0 V c 0 ⟨0, hn⟩) (tile0 V c 1 ⟨0, hn⟩)
  | n + 1, hn =>
    if h0 : (n + 1) % 500 = 0 then
      firstAcc0 c (grid0.coords ⟨n + 1, hn⟩) (mref0_0 ⟨n + 1, hn⟩) (whole0_0 ⟨n + 1, hn⟩) (mref0_1 ⟨n + 1, hn⟩) (whole0_1 ⟨n + 1, hn⟩) (mref0_2 ⟨n + 1, hn⟩) (whole0_2 ⟨n + 1, hn⟩) ((isFirst0_iff ⟨n + 1, hn⟩).mpr h0) (tile0 V c 0 ⟨n + 1, hn⟩) (tile0 V c 1 ⟨n + 1, hn⟩)
    else
      laterAcc0 c (grid0.coords ⟨n + 1, hn⟩) (mref0_0 ⟨n + 1, hn⟩) (whole0_0 ⟨n + 1, hn⟩) (mref0_1 ⟨n + 1, hn⟩) (whole0_1 ⟨n + 1, hn⟩) (mref0_2 ⟨n + 1, hn⟩) (whole0_2 ⟨n + 1, hn⟩) (fun h => h0 ((isFirst0_iff ⟨n + 1, hn⟩).mp h)) (tile0 V c 0 ⟨n + 1, hn⟩) (tile0 V c 1 ⟨n + 1, hn⟩) (accAt0 c n (Nat.lt_of_succ_lt hn))

/-- `accAt0` at the first point. -/
theorem accAt0_first (c : Dev nD) (t : Fin cfg0.N) (h0 : t.val % 500 = 0) :
    accAt0 V c t.val t.isLt = firstAcc0 c (grid0.coords t) (mref0_0 t) (whole0_0 t) (mref0_1 t) (whole0_1 t) (mref0_2 t) (whole0_2 t) ((isFirst0_iff t).mpr h0) (tile0 V c 0 t) (tile0 V c 1 t) := by
  obtain ⟨n, hn⟩ := t
  cases n with
  | zero => exact rfl
  | succ n => exact (dif_pos h0).trans rfl

/-- `accAt0` at a later point: over what the point before left. -/
theorem accAt0_later (c : Dev nD) (t : Fin cfg0.N) (h0 : ¬t.val % 500 = 0) :
    accAt0 V c t.val t.isLt = laterAcc0 c (grid0.coords t) (mref0_0 t) (whole0_0 t) (mref0_1 t) (whole0_1 t) (mref0_2 t) (whole0_2 t) (fun h => h0 ((isFirst0_iff t).mp h)) (tile0 V c 0 t) (tile0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t` each
    input's buffer at its tile and the accumulator's at `accAt0`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => (accAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = (accAt0 V c t.val t.isLt) := by dsimp only [dat0]

theorem before0_0 (c : Dev nD) (t : Fin cfg0.N) (d) : (dat0 V c).before 0 t d = tile0 V c 0 t :=
  counts_before0_of V (dat0 V c) (A_eq0 V c 0) (after0_0 V c) t d
theorem before0_1 (c : Dev nD) (t : Fin cfg0.N) (d) : (dat0 V c).before 1 t d = tile0 V c 1 t :=
  tables_before0_of V (dat0 V c) (A_eq0 V c 1) (after0_1 V c) t d
/-- At a later point the accumulator's staging buffer holds what the body left at the point before: the point is not
    the first, and the buffer is written back only after the last point. -/
theorem before0_2_later (c : Dev nD) (t : Fin cfg0.N) (h0 : ¬t.val % 500 = 0) (d) :
    (dat0 V c).before 2 t d = (accAt0 V c (t.val - 1) (Nat.lt_of_le_of_lt (Nat.sub_le _ _) t.isLt)) := by
  have hN : t.val < 500 := lt_of_lt_of_eq t.isLt (show cfg0.N = 500 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mref0_0 t) fullShare ((dat0 V c).before 0 t d))
    ∗ (∃ d, owns (c : Thread nD τ) (mref0_1 t) fullShare ((dat0 V c).before 1 t d))
    ∗ (∃ d, owns (c : Thread nD τ) (mref0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (mref0_0 t) fullShare ((dat0 V c).after 0 t)
    ∗ owns (c : Thread nD τ) (mref0_1 t) fullShare ((dat0 V c).after 1 t)
    ∗ owns (c : Thread nD τ) (mref0_2 t) fullShare ((dat0 V c).after 2 t))

set_option maxHeartbeats 800000 in
/-- The body at any point: the inputs' buffers hold their tiles; at the first point the first run applies, at a later
    point the accumulator's buffer holds what the point before left and the later run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 500 := lt_of_lt_of_eq t.isLt (show cfg0.N = 500 from N_0)
  by_cases h0 : t.val % 500 = 0
  · rw [accAt0_first V c t h0]
    unfold firstAcc0
    iintro ⟨HΦ, Ho, ⟨%d0, H0⟩, ⟨%d1, H1⟩, ⟨%d2, H2⟩⟩
    iapply ((firstRun0 c (grid0.coords t) _ _ _ _ _ _ ((isFirst0_iff t).mpr h0) (tile0 V c 0 t) (tile0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover0 c _ _ _ _ _ _ _ _ _ _)
  · rw [accAt0_later V c t h0]
    simp only [before0_2_later V c t h0]
    unfold laterAcc0
    iintro ⟨HΦ, Ho, ⟨%d0, H0⟩, ⟨%d1, H1⟩, ⟨%d2, H2⟩⟩
    iapply ((laterRun0 c (grid0.coords t) _ _ _ _ _ _ (fun h => h0 ((isFirst0_iff t).mp h)) (tile0 V c 0 t) (tile0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover0 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Pool

end
-- ==== Proof.KPoolBody1.lean ====
/-
  Region 1 of the pooled-embedding program (the pallas_call over table group 1, ten tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([10, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.Kernel.Launch
import proofs.«430057_j62277025792621_1_alg».proof.Proof.Gen.Kernel.Skeleton
import proofs.«430057_j62277025792621_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The counts' staging buffer holds the point's tile of counts when the body starts, for any proof data over `V`
    whose body leaves that tile in place. -/
theorem counts_before1_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The tables' staging buffer holds the point's tile of the tables when the body starts, likewise. -/
theorem tables_before1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## The reset branch -/

/-- The body's branch condition, from the grid coordinate: "this is point 0". -/
abbrev isFirst1 (i : grid1.Coords) : Prop := (Scalar.cmpi .ne (Scalar.extui (Scalar.cmpi .eq (BitVec.ofNat 32 (i 0).val) 0#32)) 0#32) = 1#1
/-- It holds at the first point only. -/
theorem isFirst1_iff : ∀ t : Fin cfg1.N, isFirst1 (grid1.coords t) ↔ t.val % 500 = 0 :=
  (by decide +kernel : ∀ t : Fin grid1.N, isFirst1 (grid1.coords t) ↔ t.val % 500 = 0)

/-! ## The staging memrefs the pipeline hands the body -/

/-- The accumulator's one staging buffer, through which its contents are stated. -/
abbrev accView1 : View sig .tc .vmem S1x3 .f32 := (Memref.whole cc1_stg2_0 : Memref sig .tc .vmem S1x3 .f32).view
abbrev mref1_0 (t : Fin cfg1.N) : Memref sig .tc .vmem S2000x1 .f32 := win1_0.stage (cfg1.slots t 0)
abbrev whole1_0 (t : Fin cfg1.N) : (mref1_0 t).IsWhole := hstage1_0 ((cfg1.slots t 0).cast nbuf1_0)
abbrev mref1_1 (t : Fin cfg1.N) : Memref sig .tc .vmem S10x2000x3 .f32 := win1_1.stage (cfg1.slots t 1)
abbrev whole1_1 (t : Fin cfg1.N) : (mref1_1 t).IsWhole := hstage1_1 ((cfg1.slots t 1).cast nbuf1_1)
abbrev mref1_2 (t : Fin cfg1.N) : Memref sig .tc .vmem S1x3 .f32 := win1_2.stage (cfg1.slots t 2)
abbrev whole1_2 (t : Fin cfg1.N) : (mref1_2 t).IsWhole := hstage1_2 ((cfg1.slots t 2).cast nbuf1_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) (y : S1x3.Idx) :
    ∃ pc ∈ (firstRun1 c i arg1 harg1 arg2 harg2 arg3 harg3 hc0 x0 x1).1, y ∈ pc.1.set :=
  View.cover_of_tiledL (firstRun1 c i arg1 harg1 arg2 harg2 arg3 harg3 hc0 x0 x1).1 S1x3.size (by sl_kernel_rfl) y

/-- The accumulator after the first point: the pieces read back. -/
def firstAcc1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) : Vec F S1x3 .f32 :=
  accView1.read (Elt F) (accView1.writes (Elt F) accView1.junk (firstRun1 c i arg1 harg1 arg2 harg2 arg3 harg3 hc0 x0 x1).1)

/-- A later point's one store writes the whole buffer. -/
theorem laterCover1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) (y : S1x3.Idx) :
    ∃ pc ∈ (laterRun1 c i arg1 harg1 arg2 harg2 arg3 harg3 hc0 x0 x1 acc).1, y ∈ pc.1.set :=
  View.cover_of_tiledL (laterRun1 c i arg1 harg1 arg2 harg2 arg3 harg3 hc0 x0 x1 acc).1 S1x3.size (by sl_kernel_rfl) y

/-- The accumulator after a later point, over what the point before left. -/
def laterAcc1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) : Vec F S1x3 .f32 :=
  accView1.read (Elt F) (accView1.writes (Elt F) accView1.junk (laterRun1 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt1 (c : Dev nD) : (n : ℕ) → n < cfg1.N → Vec F S1x3 .f32
  | 0, hn => firstAcc1 c (grid1.coords ⟨0, hn⟩) (mref1_0 ⟨0, hn⟩) (whole1_0 ⟨0, hn⟩) (mref1_1 ⟨0, hn⟩) (whole1_1 ⟨0, hn⟩) (mref1_2 ⟨0, hn⟩) (whole1_2 ⟨0, hn⟩) ((isFirst1_iff ⟨0, hn⟩).mpr (Nat.zero_mod _)) (tile1 V c 0 ⟨0, hn⟩) (tile1 V c 1 ⟨0, hn⟩)
  | n + 1, hn =>
    if h0 : (n + 1) % 500 = 0 then
      firstAcc1 c (grid1.coords ⟨n + 1, hn⟩) (mref1_0 ⟨n + 1, hn⟩) (whole1_0 ⟨n + 1, hn⟩) (mref1_1 ⟨n + 1, hn⟩) (whole1_1 ⟨n + 1, hn⟩) (mref1_2 ⟨n + 1, hn⟩) (whole1_2 ⟨n + 1, hn⟩) ((isFirst1_iff ⟨n + 1, hn⟩).mpr h0) (tile1 V c 0 ⟨n + 1, hn⟩) (tile1 V c 1 ⟨n + 1, hn⟩)
    else
      laterAcc1 c (grid1.coords ⟨n + 1, hn⟩) (mref1_0 ⟨n + 1, hn⟩) (whole1_0 ⟨n + 1, hn⟩) (mref1_1 ⟨n + 1, hn⟩) (whole1_1 ⟨n + 1, hn⟩) (mref1_2 ⟨n + 1, hn⟩) (whole1_2 ⟨n + 1, hn⟩) (fun h => h0 ((isFirst1_iff ⟨n + 1, hn⟩).mp h)) (tile1 V c 0 ⟨n + 1, hn⟩) (tile1 V c 1 ⟨n + 1, hn⟩) (accAt1 c n (Nat.lt_of_succ_lt hn))

/-- `accAt1` at the first point. -/
theorem accAt1_first (c : Dev nD) (t : Fin cfg1.N) (h0 : t.val % 500 = 0) :
    accAt1 V c t.val t.isLt = firstAcc1 c (grid1.coords t) (mref1_0 t) (whole1_0 t) (mref1_1 t) (whole1_1 t) (mref1_2 t) (whole1_2 t) ((isFirst1_iff t).mpr h0) (tile1 V c 0 t) (tile1 V c 1 t) := by
  obtain ⟨n, hn⟩ := t
  cases n with
  | zero => exact rfl
  | succ n => exact (dif_pos h0).trans rfl

/-- `accAt1` at a later point: over what the point before left. -/
theorem accAt1_later (c : Dev nD) (t : Fin cfg1.N) (h0 : ¬t.val % 500 = 0) :
    accAt1 V c t.val t.isLt = laterAcc1 c (grid1.coords t) (mref1_0 t) (whole1_0 t) (mref1_1 t) (whole1_1 t) (mref1_2 t) (whole1_2 t) (fun h => h0 ((isFirst1_iff t).mp h)) (tile1 V c 0 t) (tile1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t` each
    input's buffer at its tile and the accumulator's at `accAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => (accAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = (accAt1 V c t.val t.isLt) := by dsimp only [dat1]

theorem before1_0 (c : Dev nD) (t : Fin cfg1.N) (d) : (dat1 V c).before 0 t d = tile1 V c 0 t :=
  counts_before1_of V (dat1 V c) (A_eq1 V c 0) (after1_0 V c) t d
theorem before1_1 (c : Dev nD) (t : Fin cfg1.N) (d) : (dat1 V c).before 1 t d = tile1 V c 1 t :=
  tables_before1_of V (dat1 V c) (A_eq1 V c 1) (after1_1 V c) t d
/-- At a later point the accumulator's staging buffer holds what the body left at the point before: the point is not
    the first, and the buffer is written back only after the last point. -/
theorem before1_2_later (c : Dev nD) (t : Fin cfg1.N) (h0 : ¬t.val % 500 = 0) (d) :
    (dat1 V c).before 2 t d = (accAt1 V c (t.val - 1) (Nat.lt_of_le_of_lt (Nat.sub_le _ _) t.isLt)) := by
  have hN : t.val < 500 := lt_of_lt_of_eq t.isLt (show cfg1.N = 500 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mref1_0 t) fullShare ((dat1 V c).before 0 t d))
    ∗ (∃ d, owns (c : Thread nD τ) (mref1_1 t) fullShare ((dat1 V c).before 1 t d))
    ∗ (∃ d, owns (c : Thread nD τ) (mref1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (mref1_0 t) fullShare ((dat1 V c).after 0 t)
    ∗ owns (c : Thread nD τ) (mref1_1 t) fullShare ((dat1 V c).after 1 t)
    ∗ owns (c : Thread nD τ) (mref1_2 t) fullShare ((dat1 V c).after 2 t))

set_option maxHeartbeats 800000 in
/-- The body at any point: the inputs' buffers hold their tiles; at the first point the first run applies, at a later
    point the accumulator's buffer holds what the point before left and the later run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 500 := lt_of_lt_of_eq t.isLt (show cfg1.N = 500 from N_1)
  by_cases h0 : t.val % 500 = 0
  · rw [accAt1_first V c t h0]
    unfold firstAcc1
    iintro ⟨HΦ, Ho, ⟨%d0, H0⟩, ⟨%d1, H1⟩, ⟨%d2, H2⟩⟩
    iapply ((firstRun1 c (grid1.coords t) _ _ _ _ _ _ ((isFirst1_iff t).mpr h0) (tile1 V c 0 t) (tile1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover1 c _ _ _ _ _ _ _ _ _ _)
  · rw [accAt1_later V c t h0]
    simp only [before1_2_later V c t h0]
    unfold laterAcc1
    iintro ⟨HΦ, Ho, ⟨%d0, H0⟩, ⟨%d1, H1⟩, ⟨%d2, H2⟩⟩
    iapply ((laterRun1 c (grid1.coords t) _ _ _ _ _ _ (fun h => h0 ((isFirst1_iff t).mp h)) (tile1 V c 0 t) (tile1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover1 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Pool

end
-- ==== Proof.KPoolBody2.lean ====
/-
  Region 2 of the pooled-embedding program (the pallas_call over table group 2, six tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([6, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.Kernel.Launch
import proofs.«430057_j62277025792621_1_alg».proof.Proof.Gen.Kernel.Skeleton
import proofs.«430057_j62277025792621_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The counts' staging buffer holds the point's tile of counts when the body starts, for any proof data over `V`
    whose body leaves that tile in place. -/
theorem counts_before2_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The tables' staging buffer holds the point's tile of the tables when the body starts, likewise. -/
theorem tables_before2_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## The reset branch -/

/-- The body's branch condition, from the grid coordinate: "this is point 0". -/
abbrev isFirst2 (i : grid2.Coords) : Prop := (Scalar.cmpi .ne (Scalar.extui (Scalar.cmpi .eq (BitVec.ofNat 32 (i 0).val) 0#32)) 0#32) = 1#1
/-- It holds at the first point only. -/
theorem isFirst2_iff : ∀ t : Fin cfg2.N, isFirst2 (grid2.coords t) ↔ t.val % 500 = 0 :=
  (by decide +kernel : ∀ t : Fin grid2.N, isFirst2 (grid2.coords t) ↔ t.val % 500 = 0)

/-! ## The staging memrefs the pipeline hands the body -/

/-- The accumulator's one staging buffer, through which its contents are stated. -/
abbrev accView2 : View sig .tc .vmem S1x3 .f32 := (Memref.whole cc2_stg2_0 : Memref sig .tc .vmem S1x3 .f32).view
abbrev mref2_0 (t : Fin cfg2.N) : Memref sig .tc .vmem S2000x1 .f32 := win2_0.stage (cfg2.slots t 0)
abbrev whole2_0 (t : Fin cfg2.N) : (mref2_0 t).IsWhole := hstage2_0 ((cfg2.slots t 0).cast nbuf2_0)
abbrev mref2_1 (t : Fin cfg2.N) : Memref sig .tc .vmem S6x2000x3 .f32 := win2_1.stage (cfg2.slots t 1)
abbrev whole2_1 (t : Fin cfg2.N) : (mref2_1 t).IsWhole := hstage2_1 ((cfg2.slots t 1).cast nbuf2_1)
abbrev mref2_2 (t : Fin cfg2.N) : Memref sig .tc .vmem S1x3 .f32 := win2_2.stage (cfg2.slots t 2)
abbrev whole2_2 (t : Fin cfg2.N) : (mref2_2 t).IsWhole := hstage2_2 ((cfg2.slots t 2).cast nbuf2_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pool_kernel i arg1 harg1 arg2 harg2 arg3 harg3) K } := by
  refine ⟨?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pool_kernel i arg1 harg1 arg2 harg2 arg3 harg3) K } := by
  refine ⟨?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) (y : S1x3.Idx) :
    ∃ pc ∈ (firstRun2 c i arg1 harg1 arg2 harg2 arg3 harg3 hc0 x0 x1).1, y ∈ pc.1.set :=
  View.cover_of_tiledL (firstRun2 c i arg1 harg1 arg2 harg2 arg3 harg3 hc0 x0 x1).1 S1x3.size (by sl_kernel_rfl) y

/-- The accumulator after the first point: the pieces read back. -/
def firstAcc2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) : Vec F S1x3 .f32 :=
  accView2.read (Elt F) (accView2.writes (Elt F) accView2.junk (firstRun2 c i arg1 harg1 arg2 harg2 arg3 harg3 hc0 x0 x1).1)

/-- A later point's one store writes the whole buffer. -/
theorem laterCover2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) (y : S1x3.Idx) :
    ∃ pc ∈ (laterRun2 c i arg1 harg1 arg2 harg2 arg3 harg3 hc0 x0 x1 acc).1, y ∈ pc.1.set :=
  View.cover_of_tiledL (laterRun2 c i arg1 harg1 arg2 harg2 arg3 harg3 hc0 x0 x1 acc).1 S1x3.size (by sl_kernel_rfl) y

/-- The accumulator after a later point, over what the point before left. -/
def laterAcc2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) : Vec F S1x3 .f32 :=
  accView2.read (Elt F) (accView2.writes (Elt F) accView2.junk (laterRun2 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt2 (c : Dev nD) : (n : ℕ) → n < cfg2.N → Vec F S1x3 .f32
  | 0, hn => firstAcc2 c (grid2.coords ⟨0, hn⟩) (mref2_0 ⟨0, hn⟩) (whole2_0 ⟨0, hn⟩) (mref2_1 ⟨0, hn⟩) (whole2_1 ⟨0, hn⟩) (mref2_2 ⟨0, hn⟩) (whole2_2 ⟨0, hn⟩) ((isFirst2_iff ⟨0, hn⟩).mpr (Nat.zero_mod _)) (tile2 V c 0 ⟨0, hn⟩) (tile2 V c 1 ⟨0, hn⟩)
  | n + 1, hn =>
    if h0 : (n + 1) % 500 = 0 then
      firstAcc2 c (grid2.coords ⟨n + 1, hn⟩) (mref2_0 ⟨n + 1, hn⟩) (whole2_0 ⟨n + 1, hn⟩) (mref2_1 ⟨n + 1, hn⟩) (whole2_1 ⟨n + 1, hn⟩) (mref2_2 ⟨n + 1, hn⟩) (whole2_2 ⟨n + 1, hn⟩) ((isFirst2_iff ⟨n + 1, hn⟩).mpr h0) (tile2 V c 0 ⟨n + 1, hn⟩) (tile2 V c 1 ⟨n + 1, hn⟩)
    else
      laterAcc2 c (grid2.coords ⟨n + 1, hn⟩) (mref2_0 ⟨n + 1, hn⟩) (whole2_0 ⟨n + 1, hn⟩) (mref2_1 ⟨n + 1, hn⟩) (whole2_1 ⟨n + 1, hn⟩) (mref2_2 ⟨n + 1, hn⟩) (whole2_2 ⟨n + 1, hn⟩) (fun h => h0 ((isFirst2_iff ⟨n + 1, hn⟩).mp h)) (tile2 V c 0 ⟨n + 1, hn⟩) (tile2 V c 1 ⟨n + 1, hn⟩) (accAt2 c n (Nat.lt_of_succ_lt hn))

/-- `accAt2` at the first point. -/
theorem accAt2_first (c : Dev nD) (t : Fin cfg2.N) (h0 : t.val % 500 = 0) :
    accAt2 V c t.val t.isLt = firstAcc2 c (grid2.coords t) (mref2_0 t) (whole2_0 t) (mref2_1 t) (whole2_1 t) (mref2_2 t) (whole2_2 t) ((isFirst2_iff t).mpr h0) (tile2 V c 0 t) (tile2 V c 1 t) := by
  obtain ⟨n, hn⟩ := t
  cases n with
  | zero => exact rfl
  | succ n => exact (dif_pos h0).trans rfl

/-- `accAt2` at a later point: over what the point before left. -/
theorem accAt2_later (c : Dev nD) (t : Fin cfg2.N) (h0 : ¬t.val % 500 = 0) :
    accAt2 V c t.val t.isLt = laterAcc2 c (grid2.coords t) (mref2_0 t) (whole2_0 t) (mref2_1 t) (whole2_1 t) (mref2_2 t) (whole2_2 t) (fun h => h0 ((isFirst2_iff t).mp h)) (tile2 V c 0 t) (tile2 V c 1 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t` each
    input's buffer at its tile and the accumulator's at `accAt2`; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => (accAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = (accAt2 V c t.val t.isLt) := by dsimp only [dat2]

theorem before2_0 (c : Dev nD) (t : Fin cfg2.N) (d) : (dat2 V c).before 0 t d = tile2 V c 0 t :=
  counts_before2_of V (dat2 V c) (A_eq2 V c 0) (after2_0 V c) t d
theorem before2_1 (c : Dev nD) (t : Fin cfg2.N) (d) : (dat2 V c).before 1 t d = tile2 V c 1 t :=
  tables_before2_of V (dat2 V c) (A_eq2 V c 1) (after2_1 V c) t d
/-- At a later point the accumulator's staging buffer holds what the body left at the point before: the point is not
    the first, and the buffer is written back only after the last point. -/
theorem before2_2_later (c : Dev nD) (t : Fin cfg2.N) (h0 : ¬t.val % 500 = 0) (d) :
    (dat2 V c).before 2 t d = (accAt2 V c (t.val - 1) (Nat.lt_of_le_of_lt (Nat.sub_le _ _) t.isLt)) := by
  have hN : t.val < 500 := lt_of_lt_of_eq t.isLt (show cfg2.N = 500 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (mref2_0 t) fullShare ((dat2 V c).before 0 t d))
    ∗ (∃ d, owns (c : Thread nD τ) (mref2_1 t) fullShare ((dat2 V c).before 1 t d))
    ∗ (∃ d, owns (c : Thread nD τ) (mref2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (mref2_0 t) fullShare ((dat2 V c).after 0 t)
    ∗ owns (c : Thread nD τ) (mref2_1 t) fullShare ((dat2 V c).after 1 t)
    ∗ owns (c : Thread nD τ) (mref2_2 t) fullShare ((dat2 V c).after 2 t))

set_option maxHeartbeats 800000 in
/-- The body at any point: the inputs' buffers hold their tiles; at the first point the first run applies, at a later
    point the accumulator's buffer holds what the point before left and the later run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 500 := lt_of_lt_of_eq t.isLt (show cfg2.N = 500 from N_2)
  by_cases h0 : t.val % 500 = 0
  · rw [accAt2_first V c t h0]
    unfold firstAcc2
    iintro ⟨HΦ, Ho, ⟨%d0, H0⟩, ⟨%d1, H1⟩, ⟨%d2, H2⟩⟩
    iapply ((firstRun2 c (grid2.coords t) _ _ _ _ _ _ ((isFirst2_iff t).mpr h0) (tile2 V c 0 t) (tile2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover2 c _ _ _ _ _ _ _ _ _ _)
  · rw [accAt2_later V c t h0]
    simp only [before2_2_later V c t h0]
    unfold laterAcc2
    iintro ⟨HΦ, Ho, ⟨%d0, H0⟩, ⟨%d1, H1⟩, ⟨%d2, H2⟩⟩
    iapply ((laterRun2 c (grid2.coords t) _ _ _ _ _ _ (fun h => h0 ((isFirst2_iff t).mp h)) (tile2 V c 0 t) (tile2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover2 c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Pool

end
-- ==== Proof.KPoolRun.lean ====
/-
  The whole run of the pooled-embedding program: @main is a stretch of host operations (the occurrence counts), then
  three times a pallas_call followed by host operations (the reshape of its [1, 3] result; after the last one also the
  three broadcasts and the concatenation into [3, 3]). The contents of the TensorCore's unscoped buffers are followed
  from the launch memory through these seven segments as a fold: a host stretch applies its operations, a region
  leaves each of its arrays at what its pipeline's write-backs give and every other buffer as it was. Every weakly fair
  execution terminates with every unscoped buffer at the fold's last value; in particular the four arguments end as
  launched.
-/
import proofs.«430057_j62277025792621_1_alg».proof.Proof.KPoolBody0
import proofs.«430057_j62277025792621_1_alg».proof.Proof.KPoolBody1
import proofs.«430057_j62277025792621_1_alg».proof.Proof.KPoolBody2
import proofs.«430057_j62277025792621_1_alg».proof.Proof.Gen.Kernel.Regions
import Idealize.ShloMosaic.Lib.Pipeline.RegionsLoop
import Idealize.ShloMosaic.Lib.Pipeline.FrameSuffix

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (m : (ℓ : Loc nD τ sig) → Buf (Elt F) ℓ) (ρ : Dev nD → PrngReg) : Dev nD → Valuation τ sig (Elt F) := fun c b => m ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the accumulator's array at its
    one write-back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem arrs_out0 (c : Dev nD) (w : Fin cfg0.W) : (dat0 (V1 m ρ) c).arrAt w cfg0.N = V2 m ρ c (Pipeline.arrRef spec0 w) :=
  (W2_arr m ρ c w).symm
theorem rest_out0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of region 0's result (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the accumulator's array at its
    one write-back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem arrs_out1 (c : Dev nD) (w : Fin cfg1.W) : (dat1 (V3 m ρ) c).arrAt w cfg1.N = V4 m ρ c (Pipeline.arrRef spec1 w) :=
  (W4_arr m ρ c w).symm
theorem rest_out1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the reshape of region 1's result (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the accumulator's array at its
    one write-back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem arrs_out2 (c : Dev nD) (w : Fin cfg2.W) : (dat2 (V5 m ρ) c).arrAt w cfg2.N = V6 m ρ c (Pipeline.arrRef spec2 w) :=
  (W6_arr m ρ c w).symm
theorem rest_out2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the end of @main. -/
abbrev W7 : Dev nD → Valuation τ sig (Elt F) := fun c => StableHlo.after hostOps3 (W6 m ρ c)

/-! ## The arguments end as launched -/

/-- `main_arg0` ends as launched: no host operation writes it, and a region at most reads it through an input window. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-- `main_arg1` ends as launched: no host operation writes it, and a region at most reads it through an input window. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (r := main_arg1) (by decide)
    _ = m ((c : Thread nD τ).loc main_arg1) := rfl

/-- `main_arg2` ends as launched: no host operation writes it, and a region at most reads it through an input window. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: no host operation writes it, and a region at most reads it through an input window. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := (W6_arr m ρ c 1).trans (((dat2 (V5 m ρ) c).arrAt_in 1 rfl _).trans (A_eq2 (V5 m ρ) c 1))
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered with every unscoped buffer at `W1`, left with them at `W2`. Its arrays
    are split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrs_out0 m ρ c) (rest_out0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its arrays
    are split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrs_out1 m ρ c) (rest_out1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `W5`, left with them at `W6`. Its arrays
    are split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (arrs_out2 m ρ c) (rest_out2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    in every final state each unscoped buffer of each core holds the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun c => sep_mono .rfl (by
      show (iprop((∃ r, prngReg c r) ∗ ∃ W, owes (c : Thread nD τ) (0 : CellTallies nD τ sig Unit) W) : sProp 𝕄)
        ⊢ iprop(∃ W, owes (c : Thread nD τ) (0 : CellTallies nD τ sig Unit) W)
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution of @main terminates, nothing faulting, with the four argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.Kernel.Pool

end
-- ==== Proof.PoolBody0.lean ====
/-
  Region 0 of the pooled-embedding program (the pallas_call over table group 0, five tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([5, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.KernelIdeal.Launch
import proofs.«430057_j62277025792621_1_alg».proof.Proof.Gen.KernelIdeal.Skeleton
import proofs.«430057_j62277025792621_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The counts' staging buffer holds the point's tile of counts when the body starts, for any proof data over `V`
    whose body leaves that tile in place. -/
theorem counts_before0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The tables' staging buffer holds the point's tile of the tables when the body starts, likewise. -/
theorem tables_before0_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## The reset branch -/

/-- The body's branch condition, from the grid coordinate: "this is point 0". -/
abbrev isFirst0 (i : grid0.Coords) : Prop := (Scalar.cmpi .ne (Scalar.extui (Scalar.cmpi .eq (BitVec.ofNat 32 (i 0).val) 0#32)) 0#32) = 1#1
/-- It holds at the first point only. -/
theorem isFirst0_iff : ∀ t : Fin cfg0.N, isFirst0 (grid0.coords t) ↔ t.val % 500 = 0 :=
  (by decide +kernel : ∀ t : Fin grid0.N, isFirst0 (grid0.coords t) ↔ t.val % 500 = 0)

/-! ## The staging memrefs the pipeline hands the body -/

/-- The accumulator's one staging buffer, through which its contents are stated. -/
abbrev accView0 : View sig .tc .vmem S1x3 .f32 := (Memref.whole cc0_stg2_0 : Memref sig .tc .vmem S1x3 .f32).view
abbrev mref0_0 (t : Fin cfg0.N) : Memref sig .tc .vmem S2000x1 .f32 := win0_0.stage (cfg0.slots t 0)
abbrev whole0_0 (t : Fin cfg0.N) : (mref0_0 t).IsWhole := hstage0_0 ((cfg0.slots t 0).cast nbuf0_0)
abbrev mref0_1 (t : Fin cfg0.N) : Memref sig .tc .vmem S5x2000x3 .f32 := win0_1.stage (cfg0.slots t 1)
abbrev whole0_1 (t : Fin cfg0.N) : (mref0_1 t).IsWhole := hstage0_1 ((cfg0.slots t 1).cast nbuf0_1)
abbrev mref0_2 (t : Fin cfg0.N) : Memref sig .tc .vmem S1x3 .f32 := win0_2.stage (cfg0.slots t 2)
abbrev whole0_2 (t : Fin cfg0.N) : (mref0_2 t).IsWhole := hstage0_2 ((cfg0.slots t 2).cast nbuf0_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pool_kernel i arg1 harg1 arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pool_kernel i arg1 harg1 arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) (y : S1x3.Idx) :
    ∃ pc ∈ (firstRun0 c i arg1 harg1 arg2 harg2 arg3 harg3 hc0 x0 x1).1, y ∈ pc.1.set :=
  View.cover_of_tiledL (firstRun0 c i arg1 harg1 arg2 harg2 arg3 harg3 hc0 x0 x1).1 S1x3.size (by sl_kernel_rfl) y

/-- The accumulator after the first point: the pieces read back. -/
def firstAcc0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : isFirst0 i)
    (x0 : Vec F S2000x1 .f32) (x1 : Vec F S5x2000x3 .f32) : Vec F S1x3 .f32 :=
  accView0.read (Elt F) (accView0.writes (Elt F) accView0.junk (firstRun0 c i arg1 harg1 arg2 harg2 arg3 harg3 hc0 x0 x1).1)

/-- A later point's one store writes the whole buffer. -/
theorem laterCover0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) (y : S1x3.Idx) :
    ∃ pc ∈ (laterRun0 c i arg1 harg1 arg2 harg2 arg3 harg3 hc0 x0 x1 acc).1, y ∈ pc.1.set :=
  View.cover_of_tiledL (laterRun0 c i arg1 harg1 arg2 harg2 arg3 harg3 hc0 x0 x1 acc).1 S1x3.size (by sl_kernel_rfl) y

/-- The accumulator after a later point, over what the point before left. -/
def laterAcc0 (c : Dev nD) (i : grid0.Coords) (arg1 : Memref sig .tc .vmem S2000x1 .f32) (harg1 : arg1.IsWhole) (arg2 : Memref sig .tc .vmem S5x2000x3 .f32) (harg2 : arg2.IsWhole) (arg3 : Memref sig .tc .vmem S1x3 .f32) (harg3 : arg3.IsWhole) (hc0 : ¬isFirst0 i)
    (x0 : Vec F S2000x1 .f32) (x1 : Vec F S5x2000x3 .f32) (acc : Vec F S1x3 .f32) : Vec F S1x3 .f32 :=
  accView0.read (Elt F) (accView0.writes (Elt F) accView0.junk (laterRun0 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt0 (c : Dev nD) : (n : ℕ) → n < cfg0.N → Vec F S1x3 .f32
  | 0, hn => firstAcc0 c (grid0.coords ⟨0, hn⟩) (mref0_0 ⟨0, hn⟩) (whole0_0 ⟨0, hn⟩) (mref0_1 ⟨0, hn⟩) (whole0_1 ⟨0, hn⟩) (mref0_2 ⟨0, hn⟩) (whole0_2 ⟨0, hn⟩) ((isFirst0_iff ⟨0, hn⟩).mpr (Nat.zero_mod _)) (tile0 V c 0 ⟨0, hn⟩) (tile0 V c 1 ⟨0, hn⟩)
  | n + 1, hn =>
    if h0 : (n + 1) % 500 = 0 then
      firstAcc0 c (grid0.coords ⟨n + 1, hn⟩) (mref0_0 ⟨n + 1, hn⟩) (whole0_0 ⟨n + 1, hn⟩) (mref0_1 ⟨n + 1, hn⟩) (whole0_1 ⟨n + 1, hn⟩) (mref0_2 ⟨n + 1, hn⟩) (whole0_2 ⟨n + 1, hn⟩) ((isFirst0_iff ⟨n + 1, hn⟩).mpr h0) (tile0 V c 0 ⟨n + 1, hn⟩) (tile0 V c 1 ⟨n + 1, hn⟩)
    else
      laterAcc0 c (grid0.coords ⟨n + 1, hn⟩) (mref0_0 ⟨n + 1, hn⟩) (whole0_0 ⟨n + 1, hn⟩) (mref0_1 ⟨n + 1, hn⟩) (whole0_1 ⟨n + 1, hn⟩) (mref0_2 ⟨n + 1, hn⟩) (whole0_2 ⟨n + 1, hn⟩) (fun h => h0 ((isFirst0_iff ⟨n + 1, hn⟩).mp h)) (tile0 V c 0 ⟨n + 1, hn⟩) (tile0 V c 1 ⟨n + 1, hn⟩) (accAt0 c n (Nat.lt_of_succ_lt hn))

/-- `accAt0` at the first point. -/
theorem accAt0_first (c : Dev nD) (t : Fin cfg0.N) (h0 : t.val % 500 = 0) :
    accAt0 V c t.val t.isLt = firstAcc0 c (grid0.coords t) (mref0_0 t) (whole0_0 t) (mref0_1 t) (whole0_1 t) (mref0_2 t) (whole0_2 t) ((isFirst0_iff t).mpr h0) (tile0 V c 0 t) (tile0 V c 1 t) := by
  obtain ⟨n, hn⟩ := t
  cases n with
  | zero => exact rfl
  | succ n => exact (dif_pos h0).trans rfl

/-- `accAt0` at a later point: over what the point before left. -/
theorem accAt0_later (c : Dev nD) (t : Fin cfg0.N) (h0 : ¬t.val % 500 = 0) :
    accAt0 V c t.val t.isLt = laterAcc0 c (grid0.coords t) (mref0_0 t) (whole0_0 t) (mref0_1 t) (whole0_1 t) (mref0_2 t) (whole0_2 t) (fun h => h0 ((isFirst0_iff t).mp h)) (tile0 V c 0 t) (tile0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t` each
    input's buffer at its tile and the accumulator's at `accAt0`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => (accAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = (accAt0 V c t.val t.isLt) := by dsimp only [dat0]

theorem before0_0 (c : Dev nD) (t : Fin cfg0.N) (d) : (dat0 V c).before 0 t d = tile0 V c 0 t :=
  counts_before0_of V (dat0 V c) (A_eq0 V c 0) (after0_0 V c) t d
theorem before0_1 (c : Dev nD) (t : Fin cfg0.N) (d) : (dat0 V c).before 1 t d = tile0 V c 1 t :=
  tables_before0_of V (dat0 V c) (A_eq0 V c 1) (after0_1 V c) t d
/-- At a later point the accumulator's staging buffer holds what the body left at the point before: the point is not
    the first, and the buffer is written back only after the last point. -/
theorem before0_2_later (c : Dev nD) (t : Fin cfg0.N) (h0 : ¬t.val % 500 = 0) (d) :
    (dat0 V c).before 2 t d = (accAt0 V c (t.val - 1) (Nat.lt_of_le_of_lt (Nat.sub_le _ _) t.isLt)) := by
  have hN : t.val < 500 := lt_of_lt_of_eq t.isLt (show cfg0.N = 500 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mref0_0 t) fullShare ((dat0 V c).before 0 t d))
    ∗ (∃ d, owns (c : Thread nD τ) (mref0_1 t) fullShare ((dat0 V c).before 1 t d))
    ∗ (∃ d, owns (c : Thread nD τ) (mref0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (mref0_0 t) fullShare ((dat0 V c).after 0 t)
    ∗ owns (c : Thread nD τ) (mref0_1 t) fullShare ((dat0 V c).after 1 t)
    ∗ owns (c : Thread nD τ) (mref0_2 t) fullShare ((dat0 V c).after 2 t))

set_option maxHeartbeats 800000 in
/-- The body at any point: the inputs' buffers hold their tiles; at the first point the first run applies, at a later
    point the accumulator's buffer holds what the point before left and the later run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 500 := lt_of_lt_of_eq t.isLt (show cfg0.N = 500 from N_0)
  by_cases h0 : t.val % 500 = 0
  · rw [accAt0_first V c t h0]
    unfold firstAcc0
    iintro ⟨HΦ, Ho, ⟨%d0, H0⟩, ⟨%d1, H1⟩, ⟨%d2, H2⟩⟩
    iapply ((firstRun0 c (grid0.coords t) _ _ _ _ _ _ ((isFirst0_iff t).mpr h0) (tile0 V c 0 t) (tile0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover0 c _ _ _ _ _ _ _ _ _ _)
  · rw [accAt0_later V c t h0]
    simp only [before0_2_later V c t h0]
    unfold laterAcc0
    iintro ⟨HΦ, Ho, ⟨%d0, H0⟩, ⟨%d1, H1⟩, ⟨%d2, H2⟩⟩
    iapply ((laterRun0 c (grid0.coords t) _ _ _ _ _ _ (fun h => h0 ((isFirst0_iff t).mp h)) (tile0 V c 0 t) (tile0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover0 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pool

end
-- ==== Proof.PoolBody1.lean ====
/-
  Region 1 of the pooled-embedding program (the pallas_call over table group 1, ten tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([10, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.KernelIdeal.Launch
import proofs.«430057_j62277025792621_1_alg».proof.Proof.Gen.KernelIdeal.Skeleton
import proofs.«430057_j62277025792621_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The counts' staging buffer holds the point's tile of counts when the body starts, for any proof data over `V`
    whose body leaves that tile in place. -/
theorem counts_before1_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The tables' staging buffer holds the point's tile of the tables when the body starts, likewise. -/
theorem tables_before1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## The reset branch -/

/-- The body's branch condition, from the grid coordinate: "this is point 0". -/
abbrev isFirst1 (i : grid1.Coords) : Prop := (Scalar.cmpi .ne (Scalar.extui (Scalar.cmpi .eq (BitVec.ofNat 32 (i 0).val) 0#32)) 0#32) = 1#1
/-- It holds at the first point only. -/
theorem isFirst1_iff : ∀ t : Fin cfg1.N, isFirst1 (grid1.coords t) ↔ t.val % 500 = 0 :=
  (by decide +kernel : ∀ t : Fin grid1.N, isFirst1 (grid1.coords t) ↔ t.val % 500 = 0)

/-! ## The staging memrefs the pipeline hands the body -/

/-- The accumulator's one staging buffer, through which its contents are stated. -/
abbrev accView1 : View sig .tc .vmem S1x3 .f32 := (Memref.whole cc1_stg2_0 : Memref sig .tc .vmem S1x3 .f32).view
abbrev mref1_0 (t : Fin cfg1.N) : Memref sig .tc .vmem S2000x1 .f32 := win1_0.stage (cfg1.slots t 0)
abbrev whole1_0 (t : Fin cfg1.N) : (mref1_0 t).IsWhole := hstage1_0 ((cfg1.slots t 0).cast nbuf1_0)
abbrev mref1_1 (t : Fin cfg1.N) : Memref sig .tc .vmem S10x2000x3 .f32 := win1_1.stage (cfg1.slots t 1)
abbrev whole1_1 (t : Fin cfg1.N) : (mref1_1 t).IsWhole := hstage1_1 ((cfg1.slots t 1).cast nbuf1_1)
abbrev mref1_2 (t : Fin cfg1.N) : Memref sig .tc .vmem S1x3 .f32 := win1_2.stage (cfg1.slots t 2)
abbrev whole1_2 (t : Fin cfg1.N) : (mref1_2 t).IsWhole := hstage1_2 ((cfg1.slots t 2).cast nbuf1_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) (y : S1x3.Idx) :
    ∃ pc ∈ (firstRun1 c i arg1 harg1 arg2 harg2 arg3 harg3 hc0 x0 x1).1, y ∈ pc.1.set :=
  View.cover_of_tiledL (firstRun1 c i arg1 harg1 arg2 harg2 arg3 harg3 hc0 x0 x1).1 S1x3.size (by sl_kernel_rfl) y

/-- The accumulator after the first point: the pieces read back. -/
def firstAcc1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : isFirst1 i)
    (x0 : Vec F S2000x1 .f32) (x1 : Vec F S10x2000x3 .f32) : Vec F S1x3 .f32 :=
  accView1.read (Elt F) (accView1.writes (Elt F) accView1.junk (firstRun1 c i arg1 harg1 arg2 harg2 arg3 harg3 hc0 x0 x1).1)

/-- A later point's one store writes the whole buffer. -/
theorem laterCover1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) (y : S1x3.Idx) :
    ∃ pc ∈ (laterRun1 c i arg1 harg1 arg2 harg2 arg3 harg3 hc0 x0 x1 acc).1, y ∈ pc.1.set :=
  View.cover_of_tiledL (laterRun1 c i arg1 harg1 arg2 harg2 arg3 harg3 hc0 x0 x1 acc).1 S1x3.size (by sl_kernel_rfl) y

/-- The accumulator after a later point, over what the point before left. -/
def laterAcc1 (c : Dev nD) (i : grid1.Coords) (arg1 : Memref sig .tc .vmem S2000x1 .f32) (harg1 : arg1.IsWhole) (arg2 : Memref sig .tc .vmem S10x2000x3 .f32) (harg2 : arg2.IsWhole) (arg3 : Memref sig .tc .vmem S1x3 .f32) (harg3 : arg3.IsWhole) (hc0 : ¬isFirst1 i)
    (x0 : Vec F S2000x1 .f32) (x1 : Vec F S10x2000x3 .f32) (acc : Vec F S1x3 .f32) : Vec F S1x3 .f32 :=
  accView1.read (Elt F) (accView1.writes (Elt F) accView1.junk (laterRun1 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt1 (c : Dev nD) : (n : ℕ) → n < cfg1.N → Vec F S1x3 .f32
  | 0, hn => firstAcc1 c (grid1.coords ⟨0, hn⟩) (mref1_0 ⟨0, hn⟩) (whole1_0 ⟨0, hn⟩) (mref1_1 ⟨0, hn⟩) (whole1_1 ⟨0, hn⟩) (mref1_2 ⟨0, hn⟩) (whole1_2 ⟨0, hn⟩) ((isFirst1_iff ⟨0, hn⟩).mpr (Nat.zero_mod _)) (tile1 V c 0 ⟨0, hn⟩) (tile1 V c 1 ⟨0, hn⟩)
  | n + 1, hn =>
    if h0 : (n + 1) % 500 = 0 then
      firstAcc1 c (grid1.coords ⟨n + 1, hn⟩) (mref1_0 ⟨n + 1, hn⟩) (whole1_0 ⟨n + 1, hn⟩) (mref1_1 ⟨n + 1, hn⟩) (whole1_1 ⟨n + 1, hn⟩) (mref1_2 ⟨n + 1, hn⟩) (whole1_2 ⟨n + 1, hn⟩) ((isFirst1_iff ⟨n + 1, hn⟩).mpr h0) (tile1 V c 0 ⟨n + 1, hn⟩) (tile1 V c 1 ⟨n + 1, hn⟩)
    else
      laterAcc1 c (grid1.coords ⟨n + 1, hn⟩) (mref1_0 ⟨n + 1, hn⟩) (whole1_0 ⟨n + 1, hn⟩) (mref1_1 ⟨n + 1, hn⟩) (whole1_1 ⟨n + 1, hn⟩) (mref1_2 ⟨n + 1, hn⟩) (whole1_2 ⟨n + 1, hn⟩) (fun h => h0 ((isFirst1_iff ⟨n + 1, hn⟩).mp h)) (tile1 V c 0 ⟨n + 1, hn⟩) (tile1 V c 1 ⟨n + 1, hn⟩) (accAt1 c n (Nat.lt_of_succ_lt hn))

/-- `accAt1` at the first point. -/
theorem accAt1_first (c : Dev nD) (t : Fin cfg1.N) (h0 : t.val % 500 = 0) :
    accAt1 V c t.val t.isLt = firstAcc1 c (grid1.coords t) (mref1_0 t) (whole1_0 t) (mref1_1 t) (whole1_1 t) (mref1_2 t) (whole1_2 t) ((isFirst1_iff t).mpr h0) (tile1 V c 0 t) (tile1 V c 1 t) := by
  obtain ⟨n, hn⟩ := t
  cases n with
  | zero => exact rfl
  | succ n => exact (dif_pos h0).trans rfl

/-- `accAt1` at a later point: over what the point before left. -/
theorem accAt1_later (c : Dev nD) (t : Fin cfg1.N) (h0 : ¬t.val % 500 = 0) :
    accAt1 V c t.val t.isLt = laterAcc1 c (grid1.coords t) (mref1_0 t) (whole1_0 t) (mref1_1 t) (whole1_1 t) (mref1_2 t) (whole1_2 t) (fun h => h0 ((isFirst1_iff t).mp h)) (tile1 V c 0 t) (tile1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t` each
    input's buffer at its tile and the accumulator's at `accAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => (accAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = (accAt1 V c t.val t.isLt) := by dsimp only [dat1]

theorem before1_0 (c : Dev nD) (t : Fin cfg1.N) (d) : (dat1 V c).before 0 t d = tile1 V c 0 t :=
  counts_before1_of V (dat1 V c) (A_eq1 V c 0) (after1_0 V c) t d
theorem before1_1 (c : Dev nD) (t : Fin cfg1.N) (d) : (dat1 V c).before 1 t d = tile1 V c 1 t :=
  tables_before1_of V (dat1 V c) (A_eq1 V c 1) (after1_1 V c) t d
/-- At a later point the accumulator's staging buffer holds what the body left at the point before: the point is not
    the first, and the buffer is written back only after the last point. -/
theorem before1_2_later (c : Dev nD) (t : Fin cfg1.N) (h0 : ¬t.val % 500 = 0) (d) :
    (dat1 V c).before 2 t d = (accAt1 V c (t.val - 1) (Nat.lt_of_le_of_lt (Nat.sub_le _ _) t.isLt)) := by
  have hN : t.val < 500 := lt_of_lt_of_eq t.isLt (show cfg1.N = 500 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mref1_0 t) fullShare ((dat1 V c).before 0 t d))
    ∗ (∃ d, owns (c : Thread nD τ) (mref1_1 t) fullShare ((dat1 V c).before 1 t d))
    ∗ (∃ d, owns (c : Thread nD τ) (mref1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (mref1_0 t) fullShare ((dat1 V c).after 0 t)
    ∗ owns (c : Thread nD τ) (mref1_1 t) fullShare ((dat1 V c).after 1 t)
    ∗ owns (c : Thread nD τ) (mref1_2 t) fullShare ((dat1 V c).after 2 t))

set_option maxHeartbeats 800000 in
/-- The body at any point: the inputs' buffers hold their tiles; at the first point the first run applies, at a later
    point the accumulator's buffer holds what the point before left and the later run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 500 := lt_of_lt_of_eq t.isLt (show cfg1.N = 500 from N_1)
  by_cases h0 : t.val % 500 = 0
  · rw [accAt1_first V c t h0]
    unfold firstAcc1
    iintro ⟨HΦ, Ho, ⟨%d0, H0⟩, ⟨%d1, H1⟩, ⟨%d2, H2⟩⟩
    iapply ((firstRun1 c (grid1.coords t) _ _ _ _ _ _ ((isFirst1_iff t).mpr h0) (tile1 V c 0 t) (tile1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover1 c _ _ _ _ _ _ _ _ _ _)
  · rw [accAt1_later V c t h0]
    simp only [before1_2_later V c t h0]
    unfold laterAcc1
    iintro ⟨HΦ, Ho, ⟨%d0, H0⟩, ⟨%d1, H1⟩, ⟨%d2, H2⟩⟩
    iapply ((laterRun1 c (grid1.coords t) _ _ _ _ _ _ (fun h => h0 ((isFirst1_iff t).mp h)) (tile1 V c 0 t) (tile1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover1 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pool

end
-- ==== Proof.PoolBody2.lean ====
/-
  Region 2 of the pooled-embedding program (the pallas_call over table group 2, six tables): what one grid point's
  body does to its three staging buffers, and the proof data of its pipeline, at ANY contents `V` of the
  TensorCore's buffers at the region's entry.

  The grid has 500 points, one per tile of 2000 vocabulary rows. Window 0 is the tile of the per-row occurrence
  counts ([2000, 1]), window 1 the tile of the stacked tables ([6, 2000, 3]); window 2 is the [1, 3] accumulator,
  whose block index never moves, so its staging buffer is carried from point to point and written back once, after
  the last point. The body resets the accumulator at point 0 only (the one branch, on the grid coordinate) and at
  every point adds the tile's contribution to it. So there are two control cases: the first point (reset, then
  accumulate) and every later point (accumulate over what the point before left).
-/
import proofs.«430057_j62277025792621_1_alg».proof.Proof.Gen.KernelIdeal.Launch
import proofs.«430057_j62277025792621_1_alg».proof.Proof.Gen.KernelIdeal.Skeleton
import proofs.«430057_j62277025792621_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s tile at grid point `t`, read off its array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The counts' staging buffer holds the point's tile of counts when the body starts, for any proof data over `V`
    whose body leaves that tile in place. -/
theorem counts_before2_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The tables' staging buffer holds the point's tile of the tables when the body starts, likewise. -/
theorem tables_before2_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## The reset branch -/

/-- The body's branch condition, from the grid coordinate: "this is point 0". -/
abbrev isFirst2 (i : grid2.Coords) : Prop := (Scalar.cmpi .ne (Scalar.extui (Scalar.cmpi .eq (BitVec.ofNat 32 (i 0).val) 0#32)) 0#32) = 1#1
/-- It holds at the first point only. -/
theorem isFirst2_iff : ∀ t : Fin cfg2.N, isFirst2 (grid2.coords t) ↔ t.val % 500 = 0 :=
  (by decide +kernel : ∀ t : Fin grid2.N, isFirst2 (grid2.coords t) ↔ t.val % 500 = 0)

/-! ## The staging memrefs the pipeline hands the body -/

/-- The accumulator's one staging buffer, through which its contents are stated. -/
abbrev accView2 : View sig .tc .vmem S1x3 .f32 := (Memref.whole cc2_stg2_0 : Memref sig .tc .vmem S1x3 .f32).view
abbrev mref2_0 (t : Fin cfg2.N) : Memref sig .tc .vmem S2000x1 .f32 := win2_0.stage (cfg2.slots t 0)
abbrev whole2_0 (t : Fin cfg2.N) : (mref2_0 t).IsWhole := hstage2_0 ((cfg2.slots t 0).cast nbuf2_0)
abbrev mref2_1 (t : Fin cfg2.N) : Memref sig .tc .vmem S6x2000x3 .f32 := win2_1.stage (cfg2.slots t 1)
abbrev whole2_1 (t : Fin cfg2.N) : (mref2_1 t).IsWhole := hstage2_1 ((cfg2.slots t 1).cast nbuf2_1)
abbrev mref2_2 (t : Fin cfg2.N) : Memref sig .tc .vmem S1x3 .f32 := win2_2.stage (cfg2.slots t 2)
abbrev whole2_2 (t : Fin cfg2.N) : (mref2_2 t).IsWhole := hstage2_2 ((cfg2.slots t 2).cast nbuf2_2)

/-! ## The body's two runs -/

set_option maxHeartbeats 1000000 in
/-- THE FIRST POINT. On whole staging memrefs, the counts' at `x0`, the tables' at `x1`, the accumulator's at anything,
    the body (branch taken: it stores zeros, then the sum) runs to the end leaving the inputs as they were and the
    accumulator's buffer with the pieces of its two stores written; the pieces are what the run finds. -/
noncomputable def firstRun2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pool_kernel i arg1 harg1 arg2 harg2 arg3 harg3) K } := by
  refine ⟨?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT. The same with the branch not taken and the accumulator's buffer at its running contents `acc`,
    which the body reads before its one store. -/
noncomputable def laterRun2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) :
    { L2 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pool_kernel i arg1 harg1 arg2 harg2 arg3 harg3) K } := by
  refine ⟨?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each run leaves in the accumulator's buffer -/

/-- The first point's two stores each write the whole [1, 3] buffer, so its pieces cover it. -/
theorem firstCover2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) (y : S1x3.Idx) :
    ∃ pc ∈ (firstRun2 c i arg1 harg1 arg2 harg2 arg3 harg3 hc0 x0 x1).1, y ∈ pc.1.set :=
  View.cover_of_tiledL (firstRun2 c i arg1 harg1 arg2 harg2 arg3 harg3 hc0 x0 x1).1 S1x3.size (by sl_kernel_rfl) y

/-- The accumulator after the first point: the pieces read back. -/
def firstAcc2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : isFirst2 i)
    (x0 : Vec F S2000x1 .f32) (x1 : Vec F S6x2000x3 .f32) : Vec F S1x3 .f32 :=
  accView2.read (Elt F) (accView2.writes (Elt F) accView2.junk (firstRun2 c i arg1 harg1 arg2 harg2 arg3 harg3 hc0 x0 x1).1)

/-- A later point's one store writes the whole buffer. -/
theorem laterCover2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) (y : S1x3.Idx) :
    ∃ pc ∈ (laterRun2 c i arg1 harg1 arg2 harg2 arg3 harg3 hc0 x0 x1 acc).1, y ∈ pc.1.set :=
  View.cover_of_tiledL (laterRun2 c i arg1 harg1 arg2 harg2 arg3 harg3 hc0 x0 x1 acc).1 S1x3.size (by sl_kernel_rfl) y

/-- The accumulator after a later point, over what the point before left. -/
def laterAcc2 (c : Dev nD) (i : grid2.Coords) (arg1 : Memref sig .tc .vmem S2000x1 .f32) (harg1 : arg1.IsWhole) (arg2 : Memref sig .tc .vmem S6x2000x3 .f32) (harg2 : arg2.IsWhole) (arg3 : Memref sig .tc .vmem S1x3 .f32) (harg3 : arg3.IsWhole) (hc0 : ¬isFirst2 i)
    (x0 : Vec F S2000x1 .f32) (x1 : Vec F S6x2000x3 .f32) (acc : Vec F S1x3 .f32) : Vec F S1x3 .f32 :=
  accView2.read (Elt F) (accView2.writes (Elt F) accView2.junk (laterRun2 c i arg1 harg1 arg2 harg2 arg3 harg3 hc0 x0 x1 acc).1)

/-! ## The accumulator point by point -/

/-- THE ACCUMULATION: the accumulator's staging buffer after the body at point `n` — the first point's run at point 0,
    a later point's run over what point `n - 1` left otherwise (the buffer is not written back in between). -/
def accAt2 (c : Dev nD) : (n : ℕ) → n < cfg2.N → Vec F S1x3 .f32
  | 0, hn => firstAcc2 c (grid2.coords ⟨0, hn⟩) (mref2_0 ⟨0, hn⟩) (whole2_0 ⟨0, hn⟩) (mref2_1 ⟨0, hn⟩) (whole2_1 ⟨0, hn⟩) (mref2_2 ⟨0, hn⟩) (whole2_2 ⟨0, hn⟩) ((isFirst2_iff ⟨0, hn⟩).mpr (Nat.zero_mod _)) (tile2 V c 0 ⟨0, hn⟩) (tile2 V c 1 ⟨0, hn⟩)
  | n + 1, hn =>
    if h0 : (n + 1) % 500 = 0 then
      firstAcc2 c (grid2.coords ⟨n + 1, hn⟩) (mref2_0 ⟨n + 1, hn⟩) (whole2_0 ⟨n + 1, hn⟩) (mref2_1 ⟨n + 1, hn⟩) (whole2_1 ⟨n + 1, hn⟩) (mref2_2 ⟨n + 1, hn⟩) (whole2_2 ⟨n + 1, hn⟩) ((isFirst2_iff ⟨n + 1, hn⟩).mpr h0) (tile2 V c 0 ⟨n + 1, hn⟩) (tile2 V c 1 ⟨n + 1, hn⟩)
    else
      laterAcc2 c (grid2.coords ⟨n + 1, hn⟩) (mref2_0 ⟨n + 1, hn⟩) (whole2_0 ⟨n + 1, hn⟩) (mref2_1 ⟨n + 1, hn⟩) (whole2_1 ⟨n + 1, hn⟩) (mref2_2 ⟨n + 1, hn⟩) (whole2_2 ⟨n + 1, hn⟩) (fun h => h0 ((isFirst2_iff ⟨n + 1, hn⟩).mp h)) (tile2 V c 0 ⟨n + 1, hn⟩) (tile2 V c 1 ⟨n + 1, hn⟩) (accAt2 c n (Nat.lt_of_succ_lt hn))

/-- `accAt2` at the first point. -/
theorem accAt2_first (c : Dev nD) (t : Fin cfg2.N) (h0 : t.val % 500 = 0) :
    accAt2 V c t.val t.isLt = firstAcc2 c (grid2.coords t) (mref2_0 t) (whole2_0 t) (mref2_1 t) (whole2_1 t) (mref2_2 t) (whole2_2 t) ((isFirst2_iff t).mpr h0) (tile2 V c 0 t) (tile2 V c 1 t) := by
  obtain ⟨n, hn⟩ := t
  cases n with
  | zero => exact rfl
  | succ n => exact (dif_pos h0).trans rfl

/-- `accAt2` at a later point: over what the point before left. -/
theorem accAt2_later (c : Dev nD) (t : Fin cfg2.N) (h0 : ¬t.val % 500 = 0) :
    accAt2 V c t.val t.isLt = laterAcc2 c (grid2.coords t) (mref2_0 t) (whole2_0 t) (mref2_1 t) (whole2_1 t) (mref2_2 t) (whole2_2 t) (fun h => h0 ((isFirst2_iff t).mp h)) (tile2 V c 0 t) (tile2 V c 1 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t` each
    input's buffer at its tile and the accumulator's at `accAt2`; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => (accAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = (accAt2 V c t.val t.isLt) := by dsimp only [dat2]

theorem before2_0 (c : Dev nD) (t : Fin cfg2.N) (d) : (dat2 V c).before 0 t d = tile2 V c 0 t :=
  counts_before2_of V (dat2 V c) (A_eq2 V c 0) (after2_0 V c) t d
theorem before2_1 (c : Dev nD) (t : Fin cfg2.N) (d) : (dat2 V c).before 1 t d = tile2 V c 1 t :=
  tables_before2_of V (dat2 V c) (A_eq2 V c 1) (after2_1 V c) t d
/-- At a later point the accumulator's staging buffer holds what the body left at the point before: the point is not
    the first, and the buffer is written back only after the last point. -/
theorem before2_2_later (c : Dev nD) (t : Fin cfg2.N) (h0 : ¬t.val % 500 = 0) (d) :
    (dat2 V c).before 2 t d = (accAt2 V c (t.val - 1) (Nat.lt_of_le_of_lt (Nat.sub_le _ _) t.isLt)) := by
  have hN : t.val < 500 := lt_of_lt_of_eq t.isLt (show cfg2.N = 500 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (mref2_0 t) fullShare ((dat2 V c).before 0 t d))
    ∗ (∃ d, owns (c : Thread nD τ) (mref2_1 t) fullShare ((dat2 V c).before 1 t d))
    ∗ (∃ d, owns (c : Thread nD τ) (mref2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (mref2_0 t) fullShare ((dat2 V c).after 0 t)
    ∗ owns (c : Thread nD τ) (mref2_1 t) fullShare ((dat2 V c).after 1 t)
    ∗ owns (c : Thread nD τ) (mref2_2 t) fullShare ((dat2 V c).after 2 t))

set_option maxHeartbeats 800000 in
/-- The body at any point: the inputs' buffers hold their tiles; at the first point the first run applies, at a later
    point the accumulator's buffer holds what the point before left and the later run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 500 := lt_of_lt_of_eq t.isLt (show cfg2.N = 500 from N_2)
  by_cases h0 : t.val % 500 = 0
  · rw [accAt2_first V c t h0]
    unfold firstAcc2
    iintro ⟨HΦ, Ho, ⟨%d0, H0⟩, ⟨%d1, H1⟩, ⟨%d2, H2⟩⟩
    iapply ((firstRun2 c (grid2.coords t) _ _ _ _ _ _ ((isFirst2_iff t).mpr h0) (tile2 V c 0 t) (tile2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover2 c _ _ _ _ _ _ _ _ _ _)
  · rw [accAt2_later V c t h0]
    simp only [before2_2_later V c t h0]
    unfold laterAcc2
    iintro ⟨HΦ, Ho, ⟨%d0, H0⟩, ⟨%d1, H1⟩, ⟨%d2, H2⟩⟩
    iapply ((laterRun2 c (grid2.coords t) _ _ _ _ _ _ (fun h => h0 ((isFirst2_iff t).mp h)) (tile2 V c 0 t) (tile2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover2 c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Pool

end
-- ==== Proof.PoolRun.lean ====
/-
  The whole run of the pooled-embedding program: @main is a stretch of host operations (the occurrence counts), then
  three times a pallas_call followed by host operations (the reshape of its [1, 3] result; after the last one also the
  three broadcasts and the concatenation into [3, 3]). The contents of the TensorCore's unscoped buffers are followed
  from the launch memory through these seven segments as a fold: a host stretch applies its operations, a region
  leaves each of its arrays at what its pipeline's write-backs give and every other buffer as it was. Every weakly fair
  execution terminates with every unscoped buffer at the fold's last value; in particular the four arguments end as
  launched.
-/
import proofs.«430057_j62277025792621_1_alg».proof.Proof.PoolBody0
import proofs.«430057_j62277025792621_1_alg».proof.Proof.PoolBody1
import proofs.«430057_j62277025792621_1_alg».proof.Proof.PoolBody2
import proofs.«430057_j62277025792621_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (m : (ℓ : Loc nD τ sig) → Buf (Elt F) ℓ) (ρ : Dev nD → PrngReg) : Dev nD → Valuation τ sig (Elt F) := fun c b => m ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the accumulator's array at its
    one write-back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem arrs_out0 (c : Dev nD) (w : Fin cfg0.W) : (dat0 (V1 m ρ) c).arrAt w cfg0.N = V2 m ρ c (Pipeline.arrRef spec0 w) :=
  (W2_arr m ρ c w).symm
theorem rest_out0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of region 0's result (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the accumulator's array at its
    one write-back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem arrs_out1 (c : Dev nD) (w : Fin cfg1.W) : (dat1 (V3 m ρ) c).arrAt w cfg1.N = V4 m ρ c (Pipeline.arrRef spec1 w) :=
  (W4_arr m ρ c w).symm
theorem rest_out1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the reshape of region 1's result (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the accumulator's array at its
    one write-back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem arrs_out2 (c : Dev nD) (w : Fin cfg2.W) : (dat2 (V5 m ρ) c).arrAt w cfg2.N = V6 m ρ c (Pipeline.arrRef spec2 w) :=
  (W6_arr m ρ c w).symm
theorem rest_out2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the end of @main. -/
abbrev W7 : Dev nD → Valuation τ sig (Elt F) := fun c => StableHlo.after hostOps3 (W6 m ρ c)

/-! ## The arguments end as launched -/

/-- `main_arg0` ends as launched: no host operation writes it, and a region at most reads it through an input window. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-- `main_arg1` ends as launched: no host operation writes it, and a region at most reads it through an input window. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (r := main_arg1) (by decide)
    _ = m ((c : Thread nD τ).loc main_arg1) := rfl

/-- `main_arg2` ends as launched: no host operation writes it, and a region at most reads it through an input window. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: no host operation writes it, and a region at most reads it through an input window. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := (W6_arr m ρ c 1).trans (((dat2 (V5 m ρ) c).arrAt_in 1 rfl _).trans (A_eq2 (V5 m ρ) c 1))
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered with every unscoped buffer at `W1`, left with them at `W2`. Its arrays
    are split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrs_out0 m ρ c) (rest_out0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its arrays
    are split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrs_out1 m ρ c) (rest_out1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at `W5`, left with them at `W6`. Its arrays
    are split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (arrs_out2 m ρ c) (rest_out2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    in every final state each unscoped buffer of each core holds the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun c => sep_mono .rfl (by
      show (iprop((∃ r, prngReg c r) ∗ ∃ W, owes (c : Thread nD τ) (0 : CellTallies nD τ sig Unit) W) : sProp 𝕄)
        ⊢ iprop(∃ W, owes (c : Thread nD τ) (0 : CellTallies nD τ sig Unit) W)
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨Hh, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution of @main terminates, nothing faulting, with the four argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.KernelIdeal.Pool

end
-- ==== Proof.LibScatterSum.lean ====
/-
  THE ACCUMULATING ROW SCATTER READ AT AN INDEX, AND THE EXTENDED-REAL ALGEBRA AROUND IT.

  What `x.at[idx].add(upd)` (a segment sum) of a rank-2 operand `x : [N, C]` at a vector of row indices lowers to: a
  `stablehlo.scatter` with an `add` body, update_window_dims `[1]`, inserted_window_dims `[0]`,
  scatter_dims_to_operand_dims `[0]`, index_vector_dim `1`, over the indices kept as an `[n, 1]` column and updates
  `[n, C]`. Update row `e` lands on operand row `idx[e, 0]`, the start index read as a SIGNED integer and NOT clamped:
  a row index that is negative or at least `N` names no row, and that update row contributes nothing. At the exact
  (extended-real) instance the result at `(j, q)` is therefore `x[j, q]` plus the sum of `upd[e, q]` over the update
  rows `e` whose index is `j`.

  • `rowScatterDims N C n wf` is the record of those dimension numbers, a literal structure so that every list lookup in
    the result index computes; `rowScatter_start0` / `_start1` / `_window0` / `_window1` read the start and the window
    coordinate of update index `(e, q')` on the operand's two axes (`idx[e, 0]` signed and `0`; `0` and `q'`);
    `rowScatter_resultIdx?_eq_some_iff` says update index `(e, q')` lands on `(j, q)` exactly when `idx[e, 0] = j` as
    integers and `q' = q`; `rowScatterAdd_apply` is the read, and `rowHostScatterAdd_apply` the same read of the host's
    `Host.scatterAdd` at the exact instance (which is that sum by definition).
  • `vecScatterDims N n wf`, `vecScatter_resultIdx?_eq_some_iff`, `vecScatterAdd_apply`, `vecHostScatterAdd_apply`: the same for a rank-1 operand
    `[N]` with updates `[n]` (update_window_dims `[]`): the result at `j` is `x[j]` plus the sum of `upd[e]` over the
    `e` with `idx[e, 0] = j`.
  • `sum_mul_coe_of_nonneg`: multiplication by a nonnegative REAL distributes over every finite sum of extended reals,
    infinities of both signs included (for `r = 0` both sides are `0`; for `r > 0` multiplication by `r` keeps `⊤` and
    `⊥` and so commutes with the convention `⊤ + ⊥ = ⊥`); `add_mul_coe_of_nonneg` is the two-term form, and
    `coe_mul_sum_of_nonneg` / `coe_mul_add_of_nonneg'` the same with the real on the left.
  • `zero_add_sum_one`: `0` plus a sum of ones over a finite set is the set's cardinality, a natural number, so neither
    infinity; `rsqrt_natCast_pos`: the reciprocal square root of a positive natural number is a nonnegative real;
    `rsqrt_natCast_or_zero`: so is "the reciprocal square root where the number is positive, else `0`".

  The lemmas are general in `N`, `C`, `n` and the index width `w`; the conditions `wf` on the dimension numbers are
  decided on a program's literal shapes.
-/
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

/-! ## The rank-2 row scatter -/

/-- The dimension numbers of an accumulating row scatter into an [N, C] operand at an [n, 1] column of row indices,
    with updates [n, C]. -/
abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

/-- On the operand's row axis the window of update index (e, q') starts at the signed row index idx[e, 0]. -/
theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]
  -- the start index's one component is read at (e, 0): the update's scatter coordinate e on the scatter indices'
  -- axis 0, the component's number 0 on the index vector's axis 1
  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis, which the scatter indices do not address, the window starts at 0. -/
theorem rowScatter_start1 (idx : IVec ⟨2, ![n, 1]⟩ w) (e : Fin n) (q' : Fin C) :
    (rowScatterDims N C n wf).start (ix2 e q') idx 1 = 0 := by
  rfl

/-- The row axis is an inserted window axis: the window coordinate on it is 0. -/
theorem rowScatter_window0 (e : Fin n) (q' : Fin C) :
    (rowScatterDims N C n wf).window (ix2 e q') 0 = 0 := by
  rfl

/-- The column axis is the one window axis: the window coordinate on it is the update's column q'. -/
theorem rowScatter_window1 (e : Fin n) (q' : Fin C) :
    (rowScatterDims N C n wf).window (ix2 e q') 1 = q'.val := by
  rfl

/-- Update index (e, q') lands on operand index (j, q) exactly when the signed row index idx[e, 0] is j and the
    columns agree. -/
theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h
    -- the update is inside the operand: compare the landing index with (j, q) coordinate by coordinate
    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h
    -- the update is dropped: then its row index is not j, for j is a row of the operand and q' a column
    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- The accumulating row scatter read at (j, q): the operand there plus the sum of the updates' column q over the
    update rows whose signed row index is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1
  -- the update indices landing on (j, q) are the (e, q) with idx[e, 0] = j: re-index the sum by the update row e
  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

/-- The host's accumulating row scatter at the exact instance, at any float format, read at (j, q): by definition it
    is the exact sum above. -/
theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

/-! ## The rank-1 scatter -/

/-- The dimension numbers of an accumulating scatter into an [N] operand at an [n, 1] column of indices, with
    updates [n]. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window of update index e starts at the signed index idx[e, 0]. -/
theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]
  -- the start index's one component is read at (e, 0)
  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate on it is 0. -/
theorem vecScatter_window0 (e : Fin n) : (vecScatterDims N n wf).window (ix1 e) 0 = 0 := by
  rfl

/-- Update index e lands on operand index j exactly when the signed index idx[e, 0] is j. -/
theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h
    -- the update is inside the operand: compare the landing index with j
    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h
    -- the update is dropped: then its index is not j, for j is inside the operand
    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The accumulating scatter read at j: the operand there plus the sum of the updates whose signed index is j. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1
  -- the update indices landing on j are the e with idx[e, 0] = j
  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

/-- The host's accumulating rank-1 scatter at the exact instance, at any float format, read at j. -/
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

/-! ## Multiplication by a nonnegative real distributes over extended-real sums -/

/-- (a + b) · r = a · r + b · r for a real r ≥ 0 and any extended reals a, b. -/
theorem add_mul_coe_of_nonneg {r : ℝ} (hr : 0 ≤ r) (a b : EReal) :
    (a + b) * (r : EReal) = a * (r : EReal) + b * (r : EReal) := by
  exact EReal.right_distrib_of_nonneg_of_ne_top (EReal.coe_nonneg.mpr hr) (EReal.coe_ne_top r) a b

/-- r · (a + b) = r · a + r · b for a real r ≥ 0 and any extended reals a, b. -/
theorem coe_mul_add_of_nonneg' {r : ℝ} (hr : 0 ≤ r) (a b : EReal) :
    (r : EReal) * (a + b) = (r : EReal) * a + (r : EReal) * b := by
  exact EReal.left_distrib_of_nonneg_of_ne_top (EReal.coe_nonneg.mpr hr) (EReal.coe_ne_top r) a b

/-- (∑ f i) · r = ∑ (f i · r) for a real r ≥ 0 and any finite family of extended reals. -/
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih => rw [Finset.sum_insert ha, Finset.sum_insert ha, add_mul_coe_of_nonneg hr, ih]

/-- r · (∑ f i) = ∑ (r · f i) for a real r ≥ 0 and any finite family of extended reals. -/
theorem coe_mul_sum_of_nonneg {ι : Type*} {r : ℝ} (hr : 0 ≤ r) (s : Finset ι) (f : ι → EReal) :
    (r : EReal) * (∑ i ∈ s, f i) = ∑ i ∈ s, (r : EReal) * f i := by
  classical
  induction s using Finset.induction_on with
  | empty => simp
  | insert a s ha ih => rw [Finset.sum_insert ha, Finset.sum_insert ha, coe_mul_add_of_nonneg' hr, ih]

/-! ## Counting sums and their reciprocal square roots -/

/-- 0 plus a sum of ones over a finite set is the set's cardinality. -/
theorem zero_add_sum_one {ι : Type*} (s : Finset ι) :
    (0 : EReal) + ∑ _e ∈ s, (1 : EReal) = ((s.card : ℝ) : EReal) := by
  rw [zero_add, Finset.sum_const, nsmul_one]
  rfl

/-- The reciprocal square root of a positive natural number is a nonnegative real. -/
theorem rsqrt_natCast_pos {k : ℕ} (hk : 0 < k) :
    ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.mpr (Real.sqrt_nonneg _), ?_⟩
  rw [Ideal.rsqrt_coe, if_neg (not_lt.mpr hk'.le), if_neg hk'.ne']

/-- "The reciprocal square root where the natural number is positive, else 0" is a nonnegative real. -/
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · obtain ⟨r, hr, h⟩ := rsqrt_natCast_pos hk
    have hk' : (0 : ℝ) < (k : ℝ) := by exact_mod_cast hk
    exact ⟨r, hr, by rw [if_pos (by exact_mod_cast hk'), h]⟩

end Idealize.ShloMosaic.ScatterSum
end
-- ==== Proof.LibIndexWrap.lean ====
/-
  GENERAL LEMMA. INDEX WORDS: numpy's wrap of a negative index, and the arrays that carry index words to a gather or a
  scatter, read at a position.

  An index into an axis of extent N is read the numpy way: a negative index counts from the end, so the word v becomes
  v + N where v < 0 (signed) and stays v otherwise. jnp prints this as a select over a signed compare with 0 and an add
  of the extent, elementwise (wrapped_apply). For a word whose signed value lies in [-N, N) the wrapped word's signed
  value lies in [0, N): a position on the axis (wrapWord_range; N below 2^31).

  The wrapped words then travel as a column [n, 1] (a gather's or a scatter's start indices: column_apply) or, two
  columns side by side, as the [n, 2] array of index pairs of a pair scatter (pair_fst, pair_snd). A vector laid along
  the second axis of a [B, n] rectangle through a [1, n] row (v[None, :] against a [B, n] array) reads, at (p, e), the
  vector at e (row_bcast_apply).

  Last, a set bit of a signed compare against a constant, decoded to the signed values (sge_decode, slt_decode): what an
  index-range conjunct of a precondition gives at one entry.
-/
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

/-- An index word into an axis whose extent is the word N, negative indices counted from the end. -/
def wrapWord (N v : BitVec 32) : BitVec 32 := if v.slt 0#32 then v + N else v

/-- A word inside numpy's index range [-N, N) wraps to a position in [0, N). -/
theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

/-- The printed wrap, read at a position: the select of the add of the extent where the word is below 0. -/
theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

/-- A vector kept as an [n, 1] column reads, at row e, the vector at e. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

/-- A vector laid along the second axis of a [B, n] rectangle (through a [1, n] row) reads, at (p, e), the vector at e. -/
theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

/-- Two [n, 1] columns side by side: position (e, 0) of the [n, 2] array is the first column's row e. -/
theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

/-- Position (e, 1) of the [n, 2] array is the second column's row e. -/
theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

/-- A set bit of the signed compare "v >= k". -/
theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

/-- A set bit of the signed compare "v < k". -/
theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.PoolHost.lean ====
/-
  The host side of the pooled-embedding program at the exact instance: what the fold of buffer contents holds where the
  value of the result is read.

  Before region 0 the host computes the occurrence counts: zeros, the index words wrapped (a negative word has 1000000
  added) and kept as an [n, 1] column, an accumulating scatter of ones at those indices (an update whose signed index
  falls outside [0, 1000000) is dropped), and the reshape of the [1000000] result to a [1000000, 1] column. So the
  count of row v is 0 plus one for every position whose wrapped word reads v. No later segment writes the counts or a
  table, so every region finds them as they were. After each region its [1, 3] result is reshaped to [3]; after the
  last the three are laid as [1, 3] rows and concatenated into the [3, 3] result.
-/
import proofs.«430057_j62277025792621_1_alg».proof.Proof.PoolRun
import proofs.«430057_j62277025792621_1_alg».proof.Proof.LibScatterSum
import proofs.«430057_j62277025792621_1_alg».proof.Proof.LibIndexWrap
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pool

open Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The index words as launched. -/
abbrev words (c : Dev nD) : S1000000.Idx → BitVec 32 := m ((c : Thread nD τ).loc main_arg0)

/-- The index words wrapped (a negative word has 1000000 added) and kept as an [n, 1] column. -/
private abbrev idxCol (e : S1000000.Idx → BitVec 32) : S1000000x1.Idx → BitVec 32 :=
  broadcastInDim S1000000x1 ![0] bcast_S1000000_S1000000x1_0
    (select (cmpi .slt e (broadcastInDim S1000000 ![] bcast_S_S1000000 (constantI S_ 32 0#32)))
      (addi e (broadcastInDim S1000000 ![] bcast_S_S1000000 (constantI S_ 32 1000000#32))) e)

/-- Row n of the column is the wrapped word at n. -/
private theorem idxCol_apply (e : S1000000.Idx → BitVec 32) (n : Fin 1000000) :
    idxCol e (ix2 n (0 : Fin 1)) = IndexWrap.wrapWord 1000000#32 (e (ix1 n)) :=
  (IndexWrap.column_apply bcast_S1000000_S1000000x1_0 _ n).trans
    (IndexWrap.wrapped_apply bcast_S_S1000000 1000000#32 e (ix1 n))

/-- The counts as the host's operations compute them from the launched index words. -/
private theorem counts_term (c : Dev nD) :
    (V1 m ρ c main_v9 : S1000000x1.Idx → EReal)
      = shapeCast S1000000x1
          (Host.scatterAdd scatter_S1000000_S1000000x1_S1000000_n_0_0_1
            (broadcastInDim S1000000 ![] bcast_S_S1000000 (constant (F := Ideal) S_ .f32 0x00000000#32))
            (idxCol (words m c))
            (broadcastInDim S1000000 ![] bcast_S_S1000000 (constant (F := Ideal) S_ .f32 0x3F800000#32)))
          shapeCasts_S1000000_S1000000x1 := by
  show StableHlo.after hostOps0 (W0 m ρ c) (Proc.devRef .tc main_v9) = _
  simp only [hostOps0]; after_results; rfl

/-- An [a] array cast to an [a, 1] column reads, at (i, u), the array at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The accumulating scatter of the program read at row v: the operand there plus the updates whose signed index is v. -/
private theorem scatter_counts_apply (x : FVec Ideal S1000000 .f32) (idx : IVec S1000000x1 32)
    (upd : FVec Ideal S1000000 .f32) (v : Fin 1000000) :
    Host.scatterAdd scatter_S1000000_S1000000x1_S1000000_n_0_0_1 x idx upd (ix1 v)
      = x (ix1 v) + ∑ e ∈ Finset.univ.filter (fun e : Fin 1000000 => (idx (ix2 e (0 : Fin 1))).toInt = (v.val : ℤ)),
          upd (ix1 e) :=
  ScatterSum.vecHostScatterAdd_apply scatter_S1000000_S1000000x1_S1000000_n_0_0_1_wf x idx upd v

/-- A rank-0 constant broadcast to any shape reads, everywhere, what its pattern denotes. -/
private theorem bcast_const_apply {S : Shape} (h : S_.BroadcastsInDim S ![]) (b : BitVec 32) (i : S.Idx) :
    broadcastInDim S ![] h (constant (F := Ideal) S_ .f32 b) i = Ideal.ofBits .f32 b := rfl

/-- The pattern of 1.0 denotes 1. -/
private theorem ofBits_one_f32 : Ideal.ofBits .f32 0x3F800000#32 = 1 := by
  simp [Ideal.ofBits, Ideal.ieee, -EReal.coe_mul]; norm_num

/-- The counts region 0 finds: row v's count is 0 plus one for every position whose wrapped word reads v. -/
theorem counts_entry (c : Dev nD) (v : Fin 1000000) :
    (V1 m ρ c main_v9 : S1000000x1.Idx → EReal) (ix2 v (0 : Fin 1))
      = 0 + ∑ _n ∈ Finset.univ.filter (fun n : Fin 1000000 =>
          (IndexWrap.wrapWord 1000000#32 (words m c (ix1 n))).toInt = (v.val : ℤ)), (1 : EReal) := by
  refine (congrFun (counts_term m ρ c) (ix2 v (0 : Fin 1))).trans ?_
  refine (shapeCast_a_a1_apply _ shapeCasts_S1000000_S1000000x1 v 0).trans ?_
  refine (scatter_counts_apply _ _ _ v).trans ?_
  rw [bcast_const_apply, Ideal.ofBits_zero_f32]
  refine congrArg (fun s : EReal => 0 + s) ?_
  refine Finset.sum_congr (Finset.filter_congr fun n _ => ?_) fun n _ => ?_
  · rw [idxCol_apply]
  · rw [bcast_const_apply, ofBits_one_f32]

/-- Regions 1 and 2 find the counts as region 0 did. -/
theorem counts_kept3 (c : Dev nD) : V3 m ρ c main_v9 = V1 m ρ c main_v9 := by
  show W3 m ρ c (Proc.devRef .tc main_v9) = W1 m ρ c (Proc.devRef .tc main_v9)
  exact calc W3 m ρ c (Proc.devRef .tc main_v9)
    _ = W2 m ρ c (Proc.devRef .tc main_v9) := StableHlo.after_of_writes_sub hostOps1 _ hostOps1_writes (r := main_v9) (by decide)
    _ = W1 m ρ c (Proc.devRef .tc main_v9) := (W2_arr m ρ c 0).trans (((dat0 (V1 m ρ) c).arrAt_in 0 rfl _).trans (A_eq0 (V1 m ρ) c 0))
theorem counts_kept5 (c : Dev nD) : V5 m ρ c main_v9 = V1 m ρ c main_v9 := by
  show W5 m ρ c (Proc.devRef .tc main_v9) = W1 m ρ c (Proc.devRef .tc main_v9)
  exact calc W5 m ρ c (Proc.devRef .tc main_v9)
    _ = W4 m ρ c (Proc.devRef .tc main_v9) := StableHlo.after_of_writes_sub hostOps2 _ hostOps2_writes (r := main_v9) (by decide)
    _ = W3 m ρ c (Proc.devRef .tc main_v9) := (W4_arr m ρ c 0).trans (((dat1 (V3 m ρ) c).arrAt_in 0 rfl _).trans (A_eq1 (V3 m ρ) c 0))
    _ = W1 m ρ c (Proc.devRef .tc main_v9) := counts_kept3 m ρ c

/-- Each region finds its table group as launched. -/
theorem table_entry1 (c : Dev nD) : V1 m ρ c main_arg1 = m ((c : Thread nD τ).loc main_arg1) := by
  show W1 m ρ c (Proc.devRef .tc main_arg1) = _
  exact calc W1 m ρ c (Proc.devRef .tc main_arg1)
    _ = W0 m ρ c (Proc.devRef .tc main_arg1) := StableHlo.after_of_writes_sub hostOps0 _ hostOps0_writes (r := main_arg1) (by decide)
    _ = m ((c : Thread nD τ).loc main_arg1) := rfl
theorem table_entry3 (c : Dev nD) : V3 m ρ c main_arg2 = m ((c : Thread nD τ).loc main_arg2) := by
  show W3 m ρ c (Proc.devRef .tc main_arg2) = _
  exact calc W3 m ρ c (Proc.devRef .tc main_arg2)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem table_entry5 (c : Dev nD) : V5 m ρ c main_arg3 = m ((c : Thread nD τ).loc main_arg3) := by
  show W5 m ρ c (Proc.devRef .tc main_arg3) = _
  exact calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- Region g's pooled sum as the host keeps it: its [1, 3] result array reshaped to [3]. -/
abbrev pooled0 (c : Dev nD) : S3.Idx → EReal :=
  shapeCast S3 ((dat0 (V1 m ρ) c).arrAt 2 cfg0.N : S1x3.Idx → EReal) shapeCasts_S1x3_S3
abbrev pooled1 (c : Dev nD) : S3.Idx → EReal :=
  shapeCast S3 ((dat1 (V3 m ρ) c).arrAt 2 cfg1.N : S1x3.Idx → EReal) shapeCasts_S1x3_S3
abbrev pooled2 (c : Dev nD) : S3.Idx → EReal :=
  shapeCast S3 ((dat2 (V5 m ρ) c).arrAt 2 cfg2.N : S1x3.Idx → EReal) shapeCasts_S1x3_S3

/-- The [1, 3] → [3] reshape read at column d. -/
theorem row_to_vec_apply (x : S1x3.Idx → EReal) (d : Fin 3) :
    shapeCast S3 x shapeCasts_S1x3_S3 (ix1 d) = x (ix2 (0 : Fin 1) d) :=
  shapeCast_1a_a_apply x shapeCasts_S1x3_S3 d

/-- A three-operand operation's result with each operand's contents at its own reference. -/
private theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- Region 2's [1, 3] result where the last stretch reads it. -/
private theorem v14_at6 (c : Dev nD) :
    (W6 m ρ c (Proc.devRef .tc main_v14) : S1x3.Idx → EReal) = (dat2 (V5 m ρ) c).arrAt 2 cfg2.N :=
  W6_arr m ρ c 2

/-- Region 1's pooled sum where the last stretch reads it. -/
private theorem v13_at6 (c : Dev nD) : (W6 m ρ c (Proc.devRef .tc main_v13) : S3.Idx → EReal) = pooled1 m ρ c :=
  calc (W6 m ρ c (Proc.devRef .tc main_v13) : S3.Idx → EReal)
    _ = W5 m ρ c (Proc.devRef .tc main_v13) := W6_of_ne m ρ c main_v13 (by decide)
    _ = shapeCast S3 (W4 m ρ c (Proc.devRef .tc main_v12) : S1x3.Idx → EReal) shapeCasts_S1x3_S3 := by
      show StableHlo.after hostOps2 (W4 m ρ c) (Proc.devRef .tc main_v13) = _
      simp only [hostOps2]; after_results; rfl
    _ = pooled1 m ρ c := congrArg (fun x : S1x3.Idx → EReal => shapeCast S3 x shapeCasts_S1x3_S3) (W4_arr m ρ c 2)

/-- Region 0's pooled sum where the last stretch reads it. -/
private theorem v11_at6 (c : Dev nD) : (W6 m ρ c (Proc.devRef .tc main_v11) : S3.Idx → EReal) = pooled0 m ρ c :=
  calc (W6 m ρ c (Proc.devRef .tc main_v11) : S3.Idx → EReal)
    _ = W5 m ρ c (Proc.devRef .tc main_v11) := W6_of_ne m ρ c main_v11 (by decide)
    _ = W4 m ρ c (Proc.devRef .tc main_v11) := StableHlo.after_of_writes_sub hostOps2 _ hostOps2_writes (r := main_v11) (by decide)
    _ = W3 m ρ c (Proc.devRef .tc main_v11) := W4_of_ne m ρ c main_v11 (by decide)
    _ = shapeCast S3 (W2 m ρ c (Proc.devRef .tc main_v10) : S1x3.Idx → EReal) shapeCasts_S1x3_S3 := by
      show StableHlo.after hostOps1 (W2 m ρ c) (Proc.devRef .tc main_v11) = _
      simp only [hostOps1]; after_results; rfl
    _ = pooled0 m ρ c := congrArg (fun x : S1x3.Idx → EReal => shapeCast S3 x shapeCasts_S1x3_S3) (W2_arr m ρ c 2)

/-- The last stretch's result over the contents at region 2's exit. -/
private theorem result_at6 (c : Dev nD) :
    (W7 m ρ c (Proc.devRef .tc main_v19) : S3x3.Idx → EReal)
      = concatenate S3x3 0 [⟨S1x3, broadcastInDim S1x3 ![1] bcast_S3_S1x3_1 (W6 m ρ c (Proc.devRef .tc main_v11) : S3.Idx → EReal)⟩,
          ⟨S1x3, broadcastInDim S1x3 ![1] bcast_S3_S1x3_1 (W6 m ρ c (Proc.devRef .tc main_v13) : S3.Idx → EReal)⟩,
          ⟨S1x3, broadcastInDim S1x3 ![1] bcast_S3_S1x3_1
            (shapeCast S3 (W6 m ρ c (Proc.devRef .tc main_v14) : S1x3.Idx → EReal) shapeCasts_S1x3_S3)⟩]
          concatenates_S1x3_S1x3_S1x3_S3x3_d0 := by
  show StableHlo.after hostOps3 (W6 m ρ c) (Proc.devRef .tc main_v19) = _
  simp only [hostOps3, StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide))
  rfl

/-- The result at the end of @main: the three pooled sums laid as rows and concatenated. -/
theorem result_entry (c : Dev nD) :
    (W7 m ρ c (Proc.devRef .tc main_v19) : S3x3.Idx → EReal)
      = concatenate S3x3 0 [⟨S1x3, broadcastInDim S1x3 ![1] bcast_S3_S1x3_1 (pooled0 m ρ c)⟩,
          ⟨S1x3, broadcastInDim S1x3 ![1] bcast_S3_S1x3_1 (pooled1 m ρ c)⟩,
          ⟨S1x3, broadcastInDim S1x3 ![1] bcast_S3_S1x3_1 (pooled2 m ρ c)⟩] concatenates_S1x3_S1x3_S1x3_S3x3_d0 := by
  rw [result_at6, v11_at6, v13_at6, v14_at6]

end Cert.KernelIdeal.Pool

end
-- ==== Proof.PoolSpec.lean ====
/-
  The mathematics of the pooled embedding sum, over plain index types.

  A table group is W : (table j) → (row v) → (column d) → extended real, the lookup is idx : position n → row, and
  cnt v is the number of positions that select row v (as 0 plus a sum of ones, the way an accumulating scatter of ones
  into zeros computes it). The kernel walks the rows in 500 tiles of 2000: tile t contributes
      tileTerm t = Σ_{r < 2000} cnt(2000 t + r) · Σ_j W j (2000 t + r) d,
  the accumulator is reset to 0 at tile 0 and every tile adds its term. The reference gathers and sums:
      0 + Σ_j Σ_n W j (idx n) d.
  They agree when every table entry is a real number: then cnt v · x is x added once per position selecting v (a count
  times a real distributes), the tiles partition the rows, and a sum over positions is the sum over rows of the sums
  over each row's positions.
-/
import Mathlib.Data.EReal.Operations
import Mathlib.Algebra.BigOperators.Fin
import Mathlib.Algebra.BigOperators.Group.Finset.Basic

open scoped BigOperators

namespace Cert.PoolSpec

/-- Row r of tile t is a row of the table. -/
theorem row_lt {t : ℕ} (ht : t < 500) (r : Fin 2000) : 2000 * t + r.val < 1000000 := by
  have := r.isLt; omega

/-- Tile t's contribution to column d. -/
noncomputable def tileTerm {T : ℕ} (cnt : Fin 1000000 → EReal) (W : Fin T → Fin 1000000 → Fin 3 → EReal) (d : Fin 3)
    (t : ℕ) (ht : t < 500) : EReal :=
  ∑ r : Fin 2000, cnt ⟨2000 * t + r.val, row_lt ht r⟩ * ∑ j : Fin T, W j ⟨2000 * t + r.val, row_lt ht r⟩ d

/-- The accumulator's column d after grid point n: reset to 0 and added to at point 0, added to at every later point. -/
noncomputable def accAfter {T : ℕ} (cnt : Fin 1000000 → EReal) (W : Fin T → Fin 1000000 → Fin 3 → EReal) (d : Fin 3) :
    (n : ℕ) → n < 500 → EReal
  | 0, h => 0 + tileTerm cnt W d 0 h
  | n + 1, h => accAfter cnt W d n (Nat.lt_of_succ_lt h) + tileTerm cnt W d (n + 1) h

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row m's real contribution to column d: the number of positions selecting row m times the sum of the tables' entries
    at that row; zero past the end of the table. -/
private noncomputable def rowVal {T : ℕ} (idx : Fin 1000000 → Fin 1000000) (w : Fin T → Fin 1000000 → Fin 3 → ℝ)
    (d : Fin 3) (m : ℕ) : ℝ :=
  if h : m < 1000000 then
    ((Finset.univ.filter (fun n => idx n = ⟨m, h⟩)).card : ℝ) * ∑ j : Fin T, w j ⟨m, h⟩ d
  else 0

/-- With real table entries and cnt the fibre cardinalities, a tile's term is the (real) sum of its rows' contributions. -/
private theorem tileTerm_eq {T : ℕ} (cnt : Fin 1000000 → EReal) (W : Fin T → Fin 1000000 → Fin 3 → EReal)
    (idx : Fin 1000000 → Fin 1000000) (w : Fin T → Fin 1000000 → Fin 3 → ℝ)
    (hw : ∀ j v d, W j v d = (w j v d : EReal))
    (hc : ∀ v, cnt v = (((Finset.univ.filter (fun n => idx n = v)).card : ℝ) : EReal))
    (d : Fin 3) (t : ℕ) (ht : t < 500) :
    tileTerm cnt W d t ht = ((∑ r ∈ Finset.range 2000, rowVal idx w d (2000 * t + r) : ℝ) : EReal) := by
  unfold tileTerm
  rw [Finset.sum_range, coe_sum]
  refine Finset.sum_congr rfl (fun r _ => ?_)
  rw [hc, rowVal, dif_pos (row_lt ht r), EReal.coe_mul, coe_sum]
  congr 1
  exact Finset.sum_congr rfl (fun j _ => hw j _ d)

/-- After grid point n the accumulator is the (real) sum of the contributions of the first 2000 (n + 1) rows. -/
private theorem accAfter_eq {T : ℕ} (cnt : Fin 1000000 → EReal) (W : Fin T → Fin 1000000 → Fin 3 → EReal)
    (idx : Fin 1000000 → Fin 1000000) (w : Fin T → Fin 1000000 → Fin 3 → ℝ)
    (hw : ∀ j v d, W j v d = (w j v d : EReal))
    (hc : ∀ v, cnt v = (((Finset.univ.filter (fun n => idx n = v)).card : ℝ) : EReal))
    (d : Fin 3) (n : ℕ) (h : n < 500) :
    accAfter cnt W d n h = ((∑ m ∈ Finset.range (2000 * (n + 1)), rowVal idx w d m : ℝ) : EReal) := by
  induction n with
  | zero =>
    rw [accAfter, zero_add, tileTerm_eq cnt W idx w hw hc d 0 h]
    simp only [Nat.mul_zero, Nat.zero_add, Nat.mul_one]
  | succ n ih =>
    rw [accAfter, ih (Nat.lt_of_succ_lt h), tileTerm_eq cnt W idx w hw hc d (n + 1) h, ← EReal.coe_add,
      ← Finset.sum_range_add]
    rfl

/-- The rows' contributions add up to the sum over positions of the selected rows' entries: a count times a value is
    the value added once per position of the fibre, and the fibres of idx partition the positions. -/
private theorem sum_rowVal {T : ℕ} (idx : Fin 1000000 → Fin 1000000) (w : Fin T → Fin 1000000 → Fin 3 → ℝ) (d : Fin 3) :
    ∑ m ∈ Finset.range 1000000, rowVal idx w d m = ∑ j : Fin T, ∑ n : Fin 1000000, w j (idx n) d := by
  rw [Finset.sum_range]
  calc ∑ v : Fin 1000000, rowVal idx w d v
      = ∑ v : Fin 1000000, ∑ n ∈ Finset.univ.filter (fun n => idx n = v), ∑ j : Fin T, w j (idx n) d := by
        refine Finset.sum_congr rfl (fun v _ => ?_)
        rw [rowVal, dif_pos v.isLt]
        simp only [Fin.eta]
        rw [← nsmul_eq_mul, ← Finset.sum_const]
        refine Finset.sum_congr rfl (fun n hn => ?_)
        rw [(Finset.mem_filter.mp hn).2]
    _ = ∑ n : Fin 1000000, ∑ j : Fin T, w j (idx n) d := Finset.sum_fiberwise _ _ _
    _ = ∑ j : Fin T, ∑ n : Fin 1000000, w j (idx n) d := Finset.sum_comm

/-- After the last tile the accumulator holds the reference's gathered sum, when the table's entries are real numbers
    and cnt counts the positions selecting each row. -/
theorem accAfter_last {T : ℕ} (cnt : Fin 1000000 → EReal) (W : Fin T → Fin 1000000 → Fin 3 → EReal)
    (idx : Fin 1000000 → Fin 1000000)
    (hW : ∀ j v d, ∃ x : ℝ, W j v d = (x : EReal))
    (hcnt : ∀ v, cnt v = 0 + ∑ _n ∈ Finset.univ.filter (fun n => idx n = v), (1 : EReal)) (d : Fin 3) :
    accAfter cnt W d 499 (by norm_num) = 0 + ∑ j : Fin T, ∑ n : Fin 1000000, W j (idx n) d := by
  choose w hw using hW
  have hc : ∀ v, cnt v = (((Finset.univ.filter (fun n => idx n = v)).card : ℝ) : EReal) := fun v => by
    rw [hcnt v, zero_add, Finset.sum_const, nsmul_one]; rfl
  have hR : (0 : EReal) + ∑ j : Fin T, ∑ n : Fin 1000000, W j (idx n) d
      = ((∑ j : Fin T, ∑ n : Fin 1000000, w j (idx n) d : ℝ) : EReal) := by
    rw [zero_add, coe_sum]
    refine Finset.sum_congr rfl (fun j _ => ?_)
    rw [coe_sum]
    exact Finset.sum_congr rfl (fun n _ => hw j _ d)
  rw [accAfter_eq cnt W idx w hw hc d 499 (by norm_num), hR, ← sum_rowVal idx w d]

end Cert.PoolSpec
-- ==== Proof.PoolValue0.lean ====
/-
  Region 0 of the pooled-embedding program at the exact instance: what the accumulator holds, as numbers.

  The first point's body stores zeros, reads them back and stores the read-back plus the tile's contribution; a later
  point's body stores the carried accumulator plus the tile's contribution. The contribution of a tile to column d is
  the sum over its 2000 rows of (the row's count) times (the sum over the five tables of the row's entry in column d):
  the lane sum over the table axis, the count column broadcast along the three columns, the product, and the lane sum
  over the rows, each read at an index. A row r of tile t is row 2000 t + r of the arrays. So by induction on the point
  the accumulator after point n is the specification's running sum, and since the accumulator's [1, 3] block is its
  whole array and is written back exactly once, after point 499, the array ends holding the running sum after 499.
-/
import proofs.«430057_j62277025792621_1_alg».proof.Proof.PoolBody0
import proofs.«430057_j62277025792621_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.ValueIdx Idealize.SL.Sem
open Idealize.ShloMosaic.Pipeline (Dat)
open scoped BigOperators

section AnyValues
variable {F : FTy → Type} [FloatOps F]
variable (V : (c : Dev nD) → (b : Ref sig .tc) → Buf (Elt F) ((c : Thread nD τ).loc b))

/-- The zero offsets of a rank-2 access, and of a rank-3 access, are the constant-zero offset function. -/
private theorem zeroOffTwo : (![0, 0] : Fin 2 → Nat) = fun _ => 0 := funext fun a => by fin_cases a <;> rfl
private theorem zeroOffThree : (![0, 0, 0] : Fin 3 → Nat) = fun _ => 0 := funext fun a => by fin_cases a <;> rfl

/-! ## What each run's found pieces read back to -/

/-- A LATER POINT's value: its one store covers the buffer, so the buffer reads back as the store's payload, whose three
    loads read the three whole buffers: the carried accumulator plus the tile's contribution. -/
theorem laterAcc0_eq (c : Dev nD) (i : grid0.Coords) (arg1 : Memref sig .tc .vmem S2000x1 .f32) (harg1 : arg1.IsWhole)
    (arg2 : Memref sig .tc .vmem S5x2000x3 .f32) (harg2 : arg2.IsWhole) (arg3 : Memref sig .tc .vmem S1x3 .f32) (harg3 : arg3.IsWhole)
    (hc0 : ¬isFirst0 i) (x0 : Vec F S2000x1 .f32) (x1 : Vec F S5x2000x3 .f32) (acc : Vec F S1x3 .f32) :
    laterAcc0 c i arg1 harg1 arg2 harg2 arg3 harg3 hc0 x0 x1 acc = k0_pay2 x0 x1 acc := by
  unfold laterAcc0
  rw [View.read_writes_eq_canon _ _ _ (laterCover0 c i arg1 harg1 arg2 harg2 arg3 harg3 hc0 x0 x1 acc)]
  unfold laterRun0
  dsimp only
  rw [View.canon_unit_zero zeroOffTwo]
  simp only [View.readAt_eq_ld, harg1.read_unread, harg2.read_unread, harg3.read_unread,
    View.ld_unit_zero (S := S2000x1) zeroOffTwo, View.ld_unit_zero (S := S5x2000x3) zeroOffThree,
    View.ld_unit_zero (S := S1x3) zeroOffTwo]

/-- THE FIRST POINT's value: the later of its two stores covers the buffer, and the accumulator it adds to is the
    read-back of the zeros the earlier store left: the zero block plus the tile's contribution. -/
theorem firstAcc0_eq (c : Dev nD) (i : grid0.Coords) (arg1 : Memref sig .tc .vmem S2000x1 .f32) (harg1 : arg1.IsWhole)
    (arg2 : Memref sig .tc .vmem S5x2000x3 .f32) (harg2 : arg2.IsWhole) (arg3 : Memref sig .tc .vmem S1x3 .f32) (harg3 : arg3.IsWhole)
    (hc0 : isFirst0 i) (x0 : Vec F S2000x1 .f32) (x1 : Vec F S5x2000x3 .f32) :
    firstAcc0 c i arg1 harg1 arg2 harg2 arg3 harg3 hc0 x0 x1 = k0_pay2 x0 x1 (k0_pay1 (F := F)) := by
  unfold firstAcc0
  rw [View.read_writes_eq_canon _ _ _ (firstCover0 c i arg1 harg1 arg2 harg2 arg3 harg3 hc0 x0 x1)]
  unfold firstRun0
  dsimp only
  sl_unfold_words
  rw [View.canon_cons_unit_zero (S := S1x3) zeroOffTwo, View.readCov_unit_zero (S := S1x3) _ zeroOffTwo]
  simp only [View.readAt_eq_ld, harg1.read_unread, harg2.read_unread,
    View.ld_unit_zero (S := S2000x1) zeroOffTwo, View.ld_unit_zero (S := S5x2000x3) zeroOffThree]

/-! ## The accumulator's array after the region -/

/-- The last grid point, the only one after which the accumulator is written back. -/
abbrev lastPt0 : Fin cfg0.N := ⟨499, by rw [show cfg0.N = 500 from N_0]; decide⟩

/-- Block (0, 0) of the [1, 3] array, read through zero offsets, is the array. -/
private theorem wholeBlock (c : Dev nD) (X : Buf (Elt F) ((c : Thread nD τ).loc main_v10)) :
    ((cfg0.win 2).blk lastPt0).view.read (Elt F) X = X := by
  have hz' : (fun a => win0_2.index lastPt0 a * main_v10.ty.shape.size a) = fun _ => 0 :=
    funext fun a => by fin_cases a <;> decide +kernel
  exact Memref.read_access_unit_zero (Elt F) main_v10 hz' (fun a => by rw [congrFun hz' a]; simp) X

/-- So what the write-back after the last point writes, the whole of the staging buffer's contents, is that block of
    the same contents taken as the array's. -/
private theorem wholeCut (c : Dev nD) (X : Vec F S1x3 .f32) :
    (cfg0.win 2).cut (grid0.coords lastPt0) X
      = ((cfg0.win 2).blk lastPt0).view.read (Elt F) (X : Buf (Elt F) ((c : Thread nD τ).loc main_v10)) := by
  rw [wholeBlock c]
  rfl

/-- The one write-back happens after point 499 and writes what the body left then. -/
private theorem writeBack (c : Dev nD) (t : Fin cfg0.N) (hf : (cfg0.win 2).flush t = true) :
    (dat0 V c).flushed 2 t
      = ((cfg0.win 2).blk t).view.read (Elt F)
          (accAt0 V c 499 (by rw [show cfg0.N = 500 from N_0]; decide) : Buf (Elt F) ((c : Thread nD τ).loc main_v10)) := by
  have hN : cfg0.N = 500 := N_0
  have hlast : t.val = 499 := by have := (flush0_2 t).mp hf; have := t.isLt; omega
  obtain rfl : t = lastPt0 := Fin.ext hlast
  show (cfg0.win 2).cut (grid0.coords lastPt0) ((dat0 V c).after 2 lastPt0) = _
  rw [after0_2]
  exact wholeCut c (accAt0 V c 499 (by rw [show cfg0.N = 500 from N_0]; decide))

/-- The accumulator's array after the region: its one write-back, after the last point, writes the whole [1, 3] array. -/
theorem result0_eq (c : Dev nD) :
    (dat0 V c).arrAt 2 cfg0.N
      = (accAt0 V c 499 (by rw [show cfg0.N = 500 from N_0]; decide) : Buf (Elt F) ((c : Thread nD τ).loc main_v10)) :=
  (dat0 V c).arrAt_eq_of_cover 2 _ (writeBack V c) fun i =>
    ⟨lastPt0, (flush0_2 lastPt0).mpr rfl, by
      show i ∈ ((View.whole main_v10).slice (win0_2.rect lastPt0)).set
      rw [View.set_slice_whole, Rect.mem_set_unit]
      intro a
      have hrow : (i 0 : Nat) < 1 := (i 0).isLt
      have hcol : (i 1 : Nat) < 3 := (i 1).isLt
      match a with
      | ⟨0, _⟩ =>
        show win0_2.index lastPt0 0 * win0_2.size 0 ≤ (i 0 : Nat)
          ∧ (i 0 : Nat) < win0_2.index lastPt0 0 * win0_2.size 0 + win0_2.xsize (grid0.coords lastPt0) 0
        rw [show win0_2.index lastPt0 0 * win0_2.size 0 = 0 from by decide +kernel,
          show win0_2.xsize (grid0.coords lastPt0) 0 = 1 from by decide +kernel]; omega
      | ⟨1, _⟩ =>
        show win0_2.index lastPt0 1 * win0_2.size 1 ≤ (i 1 : Nat)
          ∧ (i 1 : Nat) < win0_2.index lastPt0 1 * win0_2.size 1 + win0_2.xsize (grid0.coords lastPt0) 1
        rw [show win0_2.index lastPt0 1 * win0_2.size 1 = 0 from by decide +kernel,
          show win0_2.xsize (grid0.coords lastPt0) 1 = 3 from by decide +kernel]; omega⟩

end AnyValues

variable (V : (c : Dev nD) → (b : Ref sig .tc) → Buf (Elt Ideal) ((c : Thread nD τ).loc b))

/-- The counts' array and the group's table as the region finds them, as plain functions of an index. -/
abbrev counts0 (c : Dev nD) : S1000000x1.Idx → EReal := V c main_v9
abbrev table0 (c : Dev nD) : S5x1000000x3.Idx → EReal := V c main_arg1

/-! ## The payloads at an index, over the extended reals -/

/-- The lane sum over the five tables, at row r and column d. -/
private theorem tableSum (x1 : Vec Ideal S5x2000x3 .f32) (r : Fin 2000) (d : Fin 3) :
    multiReduction (F := Ideal) .add [0] S2000x3 x1 0x00000000#32 reduces_S5x2000x3_S2000x3 (.inl rfl) rfl (ix2 r d)
      = ∑ j : Fin 5, x1 (ix3 j r d) := by
  refine (Ideal.multiReduction_add_single x1 0x00000000#32 reduces_S5x2000x3_S2000x3 (.inl rfl) rfl (ix2 r d)).trans ?_
  refine Finset.sum_congr rfl fun j _ => congrArg x1 ?_
  funext a
  match a with
  | ⟨0, _⟩ => rfl
  | ⟨1, _⟩ => rfl
  | ⟨2, _⟩ => rfl

/-- The lane sum over the 2000 rows, at column d. -/
private theorem rowSum (y : Vec Ideal S2000x3 .f32) (d : Fin 3) :
    multiReduction (F := Ideal) .add [0] S3 y 0x00000000#32 reduces_S2000x3_S3 (.inl rfl) rfl (ix1 d)
      = ∑ r : Fin 2000, y (ix2 r d) := by
  refine (Ideal.multiReduction_add_single y 0x00000000#32 reduces_S2000x3_S3 (.inl rfl) rfl (ix1 d)).trans ?_
  refine Finset.sum_congr rfl fun r _ => congrArg y ?_
  funext a
  match a with
  | ⟨0, _⟩ => rfl
  | ⟨1, _⟩ => rfl

/-- The cast that adds the leading unit axis, read at (0, d). -/
private theorem castRow {α : Type} (v : S3.Idx → α) (d : Fin 3) :
    shapeCast S1x3 v shapeCasts_S3_S1x3 (ix2 (0 : Fin 1) d) = v (ix1 d) := by
  refine (shapeCast_addUnit_apply ![3] v shapeCasts_S3_S1x3 (ix2 (0 : Fin 1) d)).trans ?_
  refine congrArg v ?_
  funext a
  match a with
  | ⟨0, _⟩ => rfl

/-- The counts' column broadcast along the three columns, read at (r, d). -/
private theorem bcastCol {α : Type} (v : S2000x1.Idx → α) (r : Fin 2000) (d : Fin 3) :
    broadcastTo S2000x3 v broadcasts_S2000x1_S2000x3 (ix2 r d) = v (ix2 r (0 : Fin 1)) := by
  refine broadcastTo_apply v broadcasts_S2000x1_S2000x3 (ix2 r d) (ix2 r (0 : Fin 1)) fun a => ?_
  match a with
  | ⟨0, _⟩ => rfl
  | ⟨1, _⟩ => rfl

/-- The update's payload at column d: the accumulator's entry plus, over the tile's rows, the row's count times the sum
    over the five tables of the row's entry in column d. -/
theorem pay0_apply (x0 : Vec Ideal S2000x1 .f32) (x1 : Vec Ideal S5x2000x3 .f32) (acc : Vec Ideal S1x3 .f32) (d : Fin 3) :
    k0_pay2 x0 x1 acc (ix2 (0 : Fin 1) d)
      = acc (ix2 (0 : Fin 1) d) + ∑ r : Fin 2000, x0 (ix2 r (0 : Fin 1)) * ∑ j : Fin 5, x1 (ix3 j r d) := by
  unfold k0_pay2
  dsimp only
  rw [shapeCast_self, shapeCast_self]
  refine (addf_apply _ _ _).trans ?_
  refine congrArg (acc (ix2 (0 : Fin 1) d) + ·) ?_
  refine (castRow _ d).trans ?_
  refine (rowSum _ d).trans ?_
  refine Finset.sum_congr rfl fun r _ => ?_
  refine (mulf_apply _ _ _).trans ?_
  exact congrArg₂ (· * ·) (bcastCol x0 r d) (tableSum x1 r d)

/-- The reset's payload is zero everywhere. -/
theorem pay0_zero (d : Fin 3) : (k0_pay1 (F := Ideal)) (ix2 (0 : Fin 1) d) = 0 := by
  unfold k0_pay1
  exact Ideal.ofBits_zero_f32

/-! ## The tiles are rows of the arrays -/

/-- The point's tile of counts and its tile of the tables, at their literal shapes. -/
abbrev tile0_cnt (c : Dev nD) (t : Fin cfg0.N) : Vec Ideal S2000x1 .f32 := tile0 V c 0 t
abbrev tile0_tab (c : Dev nD) (t : Fin cfg0.N) : Vec Ideal S5x2000x3 .f32 := tile0 V c 1 t

/-- Row r of tile t of the counts is row 2000 t + r of the counts' array. -/
theorem tile0_counts (c : Dev nD) (t : Fin cfg0.N) (r : Fin 2000) (h : 2000 * t.val + r.val < 1000000) :
    tile0_cnt V c t (ix2 r (0 : Fin 1)) = counts0 V c (ix2 ⟨2000 * t.val + r.val, h⟩ (0 : Fin 1)) := by
  have hi : win0_0.index t 0 = t.val ∧ win0_0.index t 1 = 0 :=
    (by decide +kernel : ∀ t : Fin grid0.N, win0_0.index t 0 = t.val ∧ win0_0.index t 1 = 0) t
  unfold tile0_cnt tile0
  rw [View.read_apply]
  show V c main_v9 _ = V c main_v9 _
  congr 1
  funext a
  apply Fin.ext
  match a with
  | ⟨0, _⟩ => show win0_0.index t 0 * 2000 + 1 * r.val = 2000 * t.val + r.val; rw [hi.1]; omega
  | ⟨1, _⟩ => show win0_0.index t 1 * 1 + 1 * 0 = 0; rw [hi.2]

/-- Row r of tile t of table j is row 2000 t + r of table j. -/
theorem tile0_table (c : Dev nD) (t : Fin cfg0.N) (j : Fin 5) (r : Fin 2000) (d : Fin 3) (h : 2000 * t.val + r.val < 1000000) :
    tile0_tab V c t (ix3 j r d) = table0 V c (ix3 j ⟨2000 * t.val + r.val, h⟩ d) := by
  have hi : win0_1.index t 0 = 0 ∧ win0_1.index t 1 = t.val ∧ win0_1.index t 2 = 0 :=
    (by decide +kernel : ∀ t : Fin grid0.N, win0_1.index t 0 = 0 ∧ win0_1.index t 1 = t.val ∧ win0_1.index t 2 = 0) t
  unfold tile0_tab tile0
  rw [View.read_apply]
  show V c main_arg1 _ = V c main_arg1 _
  congr 1
  funext a
  apply Fin.ext
  match a with
  | ⟨0, _⟩ => show win0_1.index t 0 * win0_1.size 0 + 1 * j.val = j.val; rw [hi.1]; omega
  | ⟨1, _⟩ => show win0_1.index t 1 * 2000 + 1 * r.val = 2000 * t.val + r.val; rw [hi.2.1]; omega
  | ⟨2, _⟩ => show win0_1.index t 2 * 3 + 1 * d.val = d.val; rw [hi.2.2]; omega

/-- One tile's contribution, read off the tiles, is the specification's term of the arrays. -/
theorem tile0_term (c : Dev nD) (t : Fin cfg0.N) (ht : t.val < 500) (d : Fin 3) :
    ∑ r : Fin 2000, tile0_cnt V c t (ix2 r (0 : Fin 1)) * ∑ j : Fin 5, tile0_tab V c t (ix3 j r d)
      = Cert.PoolSpec.tileTerm (fun v => counts0 V c (ix2 v (0 : Fin 1))) (fun j v d' => table0 V c (ix3 j v d')) d t.val ht := by
  unfold Cert.PoolSpec.tileTerm
  refine Finset.sum_congr rfl fun r _ => ?_
  refine congrArg₂ (· * ·) (tile0_counts V c t r (Cert.PoolSpec.row_lt ht r)) ?_
  exact Finset.sum_congr rfl fun j _ => tile0_table V c t j r d (Cert.PoolSpec.row_lt ht r)

/-! ## The accumulator point by point -/

/-- At the first point the accumulator's column d is zero plus the tile's term. -/
theorem accAt0_base (c : Dev nD) (t : Fin cfg0.N) (hfirst : t.val % 500 = 0) (ht : t.val < 500) (d : Fin 3) :
    accAt0 (F := Ideal) V c t.val t.isLt (ix2 (0 : Fin 1) d)
      = 0 + Cert.PoolSpec.tileTerm (fun v => counts0 V c (ix2 v (0 : Fin 1))) (fun j v d' => table0 V c (ix3 j v d')) d t.val ht := by
  rw [accAt0_first V c t hfirst]
  refine (congrFun (firstAcc0_eq (F := Ideal) c (grid0.coords t) (mref0_0 t) (whole0_0 t) (mref0_1 t) (whole0_1 t) (mref0_2 t)
    (whole0_2 t) ((isFirst0_iff t).mpr hfirst) (tile0_cnt V c t) (tile0_tab V c t)) (ix2 (0 : Fin 1) d)).trans ?_
  refine (pay0_apply (tile0_cnt V c t) (tile0_tab V c t) (k0_pay1 (F := Ideal)) d).trans ?_
  rw [pay0_zero d, tile0_term V c t ht d]

/-- At a later point it is what the point before left plus the tile's term. -/
theorem accAt0_step (c : Dev nD) (t : Fin cfg0.N) (hlater : ¬t.val % 500 = 0) (ht : t.val < 500) (d : Fin 3) :
    accAt0 (F := Ideal) V c t.val t.isLt (ix2 (0 : Fin 1) d)
      = accAt0 (F := Ideal) V c (t.val - 1) (Nat.lt_of_le_of_lt (Nat.sub_le _ _) t.isLt) (ix2 (0 : Fin 1) d)
        + Cert.PoolSpec.tileTerm (fun v => counts0 V c (ix2 v (0 : Fin 1))) (fun j v d' => table0 V c (ix3 j v d')) d t.val ht := by
  rw [accAt0_later V c t hlater]
  refine (congrFun (laterAcc0_eq (F := Ideal) c (grid0.coords t) (mref0_0 t) (whole0_0 t) (mref0_1 t) (whole0_1 t) (mref0_2 t)
    (whole0_2 t) (fun h => hlater ((isFirst0_iff t).mp h)) (tile0_cnt V c t) (tile0_tab V c t)
    (accAt0 (F := Ideal) V c (t.val - 1) (Nat.lt_of_le_of_lt (Nat.sub_le _ _) t.isLt))) (ix2 (0 : Fin 1) d)).trans ?_
  refine (pay0_apply (tile0_cnt V c t) (tile0_tab V c t)
    (accAt0 (F := Ideal) V c (t.val - 1) (Nat.lt_of_le_of_lt (Nat.sub_le _ _) t.isLt)) d).trans ?_
  rw [tile0_term V c t ht d]

/-- The accumulator's column d after point n is the specification's running sum over the first n + 1 tiles. -/
theorem accAt0_eq (c : Dev nD) (n : ℕ) (hn : n < cfg0.N) (hn' : n < 500) (d : Fin 3) :
    accAt0 (F := Ideal) V c n hn (ix2 (0 : Fin 1) d)
      = Cert.PoolSpec.accAfter (fun v => counts0 V c (ix2 v (0 : Fin 1))) (fun j v d' => table0 V c (ix3 j v d')) d n hn' := by
  induction n with
  | zero =>
    rw [Cert.PoolSpec.accAfter]
    exact accAt0_base V c ⟨0, hn⟩ (Nat.zero_mod _) hn' d
  | succ n ih =>
    rw [Cert.PoolSpec.accAfter, ← ih (Nat.lt_of_succ_lt hn) (Nat.lt_of_succ_lt hn')]
    exact accAt0_step V c ⟨n + 1, hn⟩ (by show ¬(n + 1) % 500 = 0; omega) hn' d

end Cert.KernelIdeal.Pool

end
-- ==== Proof.PoolValue1.lean ====
/-
  Region 1 of the pooled-embedding program at the exact instance: what the accumulator holds, as numbers.

  The first point's body stores zeros, reads them back and stores the read-back plus the tile's contribution; a later
  point's body stores the carried accumulator plus the tile's contribution. The contribution of a tile to column d is
  the sum over its 2000 rows of (the row's count) times (the sum over the ten tables of the row's entry in column d):
  the lane sum over the table axis, the count column broadcast along the three columns, the product, and the lane sum
  over the rows, each read at an index. A row r of tile t is row 2000 t + r of the arrays. So by induction on the point
  the accumulator after point n is the specification's running sum, and since the accumulator's [1, 3] block is its
  whole array and is written back exactly once, after point 499, the array ends holding the running sum after 499.
-/
import proofs.«430057_j62277025792621_1_alg».proof.Proof.PoolBody1
import proofs.«430057_j62277025792621_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.ValueIdx Idealize.SL.Sem
open Idealize.ShloMosaic.Pipeline (Dat)
open scoped BigOperators

section AnyValues
variable {F : FTy → Type} [FloatOps F]
variable (V : (c : Dev nD) → (b : Ref sig .tc) → Buf (Elt F) ((c : Thread nD τ).loc b))

/-- The zero offsets of a rank-2 access, and of a rank-3 access, are the constant-zero offset function. -/
private theorem zeroOffTwo : (![0, 0] : Fin 2 → Nat) = fun _ => 0 := funext fun a => by fin_cases a <;> rfl
private theorem zeroOffThree : (![0, 0, 0] : Fin 3 → Nat) = fun _ => 0 := funext fun a => by fin_cases a <;> rfl

/-! ## What each run's found pieces read back to -/

/-- A LATER POINT's value: its one store covers the buffer, so the buffer reads back as the store's payload, whose three
    loads read the three whole buffers: the carried accumulator plus the tile's contribution. -/
theorem laterAcc1_eq (c : Dev nD) (i : grid1.Coords) (arg1 : Memref sig .tc .vmem S2000x1 .f32) (harg1 : arg1.IsWhole)
    (arg2 : Memref sig .tc .vmem S10x2000x3 .f32) (harg2 : arg2.IsWhole) (arg3 : Memref sig .tc .vmem S1x3 .f32) (harg3 : arg3.IsWhole)
    (hc0 : ¬isFirst1 i) (x0 : Vec F S2000x1 .f32) (x1 : Vec F S10x2000x3 .f32) (acc : Vec F S1x3 .f32) :
    laterAcc1 c i arg1 harg1 arg2 harg2 arg3 harg3 hc0 x0 x1 acc = k1_pay2 x0 x1 acc := by
  unfold laterAcc1
  rw [View.read_writes_eq_canon _ _ _ (laterCover1 c i arg1 harg1 arg2 harg2 arg3 harg3 hc0 x0 x1 acc)]
  unfold laterRun1
  dsimp only
  rw [View.canon_unit_zero zeroOffTwo]
  simp only [View.readAt_eq_ld, harg1.read_unread, harg2.read_unread, harg3.read_unread,
    View.ld_unit_zero (S := S2000x1) zeroOffTwo, View.ld_unit_zero (S := S10x2000x3) zeroOffThree,
    View.ld_unit_zero (S := S1x3) zeroOffTwo]

/-- THE FIRST POINT's value: the later of its two stores covers the buffer, and the accumulator it adds to is the
    read-back of the zeros the earlier store left: the zero block plus the tile's contribution. -/
theorem firstAcc1_eq (c : Dev nD) (i : grid1.Coords) (arg1 : Memref sig .tc .vmem S2000x1 .f32) (harg1 : arg1.IsWhole)
    (arg2 : Memref sig .tc .vmem S10x2000x3 .f32) (harg2 : arg2.IsWhole) (arg3 : Memref sig .tc .vmem S1x3 .f32) (harg3 : arg3.IsWhole)
    (hc0 : isFirst1 i) (x0 : Vec F S2000x1 .f32) (x1 : Vec F S10x2000x3 .f32) :
    firstAcc1 c i arg1 harg1 arg2 harg2 arg3 harg3 hc0 x0 x1 = k1_pay2 x0 x1 (k1_pay1 (F := F)) := by
  unfold firstAcc1
  rw [View.read_writes_eq_canon _ _ _ (firstCover1 c i arg1 harg1 arg2 harg2 arg3 harg3 hc0 x0 x1)]
  unfold firstRun1
  dsimp only
  sl_unfold_words
  rw [View.canon_cons_unit_zero (S := S1x3) zeroOffTwo, View.readCov_unit_zero (S := S1x3) _ zeroOffTwo]
  simp only [View.readAt_eq_ld, harg1.read_unread, harg2.read_unread,
    View.ld_unit_zero (S := S2000x1) zeroOffTwo, View.ld_unit_zero (S := S10x2000x3) zeroOffThree]

/-! ## The accumulator's array after the region -/

/-- The last grid point, the only one after which the accumulator is written back. -/
abbrev lastPt1 : Fin cfg1.N := ⟨499, by rw [show cfg1.N = 500 from N_1]; decide⟩

/-- Block (0, 0) of the [1, 3] array, read through zero offsets, is the array. -/
private theorem wholeBlock (c : Dev nD) (X : Buf (Elt F) ((c : Thread nD τ).loc main_v12)) :
    ((cfg1.win 2).blk lastPt1).view.read (Elt F) X = X := by
  have hz' : (fun a => win1_2.index lastPt1 a * main_v12.ty.shape.size a) = fun _ => 0 :=
    funext fun a => by fin_cases a <;> decide +kernel
  exact Memref.read_access_unit_zero (Elt F) main_v12 hz' (fun a => by rw [congrFun hz' a]; simp) X

/-- So what the write-back after the last point writes, the whole of the staging buffer's contents, is that block of
    the same contents taken as the array's. -/
private theorem wholeCut (c : Dev nD) (X : Vec F S1x3 .f32) :
    (cfg1.win 2).cut (grid1.coords lastPt1) X
      = ((cfg1.win 2).blk lastPt1).view.read (Elt F) (X : Buf (Elt F) ((c : Thread nD τ).loc main_v12)) := by
  rw [wholeBlock c]
  rfl

/-- The one write-back happens after point 499 and writes what the body left then. -/
private theorem writeBack (c : Dev nD) (t : Fin cfg1.N) (hf : (cfg1.win 2).flush t = true) :
    (dat1 V c).flushed 2 t
      = ((cfg1.win 2).blk t).view.read (Elt F)
          (accAt1 V c 499 (by rw [show cfg1.N = 500 from N_1]; decide) : Buf (Elt F) ((c : Thread nD τ).loc main_v12)) := by
  have hN : cfg1.N = 500 := N_1
  have hlast : t.val = 499 := by have := (flush1_2 t).mp hf; have := t.isLt; omega
  obtain rfl : t = lastPt1 := Fin.ext hlast
  show (cfg1.win 2).cut (grid1.coords lastPt1) ((dat1 V c).after 2 lastPt1) = _
  rw [after1_2]
  exact wholeCut c (accAt1 V c 499 (by rw [show cfg1.N = 500 from N_1]; decide))

/-- The accumulator's array after the region: its one write-back, after the last point, writes the whole [1, 3] array. -/
theorem result1_eq (c : Dev nD) :
    (dat1 V c).arrAt 2 cfg1.N
      = (accAt1 V c 499 (by rw [show cfg1.N = 500 from N_1]; decide) : Buf (Elt F) ((c : Thread nD τ).loc main_v12)) :=
  (dat1 V c).arrAt_eq_of_cover 2 _ (writeBack V c) fun i =>
    ⟨lastPt1, (flush1_2 lastPt1).mpr rfl, by
      show i ∈ ((View.whole main_v12).slice (win1_2.rect lastPt1)).set
      rw [View.set_slice_whole, Rect.mem_set_unit]
      intro a
      have hrow : (i 0 : Nat) < 1 := (i 0).isLt
      have hcol : (i 1 : Nat) < 3 := (i 1).isLt
      match a with
      | ⟨0, _⟩ =>
        show win1_2.index lastPt1 0 * win1_2.size 0 ≤ (i 0 : Nat)
          ∧ (i 0 : Nat) < win1_2.index lastPt1 0 * win1_2.size 0 + win1_2.xsize (grid1.coords lastPt1) 0
        rw [show win1_2.index lastPt1 0 * win1_2.size 0 = 0 from by decide +kernel,
          show win1_2.xsize (grid1.coords lastPt1) 0 = 1 from by decide +kernel]; omega
      | ⟨1, _⟩ =>
        show win1_2.index lastPt1 1 * win1_2.size 1 ≤ (i 1 : Nat)
          ∧ (i 1 : Nat) < win1_2.index lastPt1 1 * win1_2.size 1 + win1_2.xsize (grid1.coords lastPt1) 1
        rw [show win1_2.index lastPt1 1 * win1_2.size 1 = 0 from by decide +kernel,
          show win1_2.xsize (grid1.coords lastPt1) 1 = 3 from by decide +kernel]; omega⟩

end AnyValues

variable (V : (c : Dev nD) → (b : Ref sig .tc) → Buf (Elt Ideal) ((c : Thread nD τ).loc b))

/-- The counts' array and the group's table as the region finds them, as plain functions of an index. -/
abbrev counts1 (c : Dev nD) : S1000000x1.Idx → EReal := V c main_v9
abbrev table1 (c : Dev nD) : S10x1000000x3.Idx → EReal := V c main_arg2

/-! ## The payloads at an index, over the extended reals -/

/-- The lane sum over the ten tables, at row r and column d. -/
private theorem tableSum (x1 : Vec Ideal S10x2000x3 .f32) (r : Fin 2000) (d : Fin 3) :
    multiReduction (F := Ideal) .add [0] S2000x3 x1 0x00000000#32 reduces_S10x2000x3_S2000x3 (.inl rfl) rfl (ix2 r d)
      = ∑ j : Fin 10, x1 (ix3 j r d) := by
  refine (Ideal.multiReduction_add_single x1 0x00000000#32 reduces_S10x2000x3_S2000x3 (.inl rfl) rfl (ix2 r d)).trans ?_
  refine Finset.sum_congr rfl fun j _ => congrArg x1 ?_
  funext a
  match a with
  | ⟨0, _⟩ => rfl
  | ⟨1, _⟩ => rfl
  | ⟨2, _⟩ => rfl

/-- The lane sum over the 2000 rows, at column d. -/
private theorem rowSum (y : Vec Ideal S2000x3 .f32) (d : Fin 3) :
    multiReduction (F := Ideal) .add [0] S3 y 0x00000000#32 reduces_S2000x3_S3 (.inl rfl) rfl (ix1 d)
      = ∑ r : Fin 2000, y (ix2 r d) := by
  refine (Ideal.multiReduction_add_single y 0x00000000#32 reduces_S2000x3_S3 (.inl rfl) rfl (ix1 d)).trans ?_
  refine Finset.sum_congr rfl fun r _ => congrArg y ?_
  funext a
  match a with
  | ⟨0, _⟩ => rfl
  | ⟨1, _⟩ => rfl

/-- The cast that adds the leading unit axis, read at (0, d). -/
private theorem castRow {α : Type} (v : S3.Idx → α) (d : Fin 3) :
    shapeCast S1x3 v shapeCasts_S3_S1x3 (ix2 (0 : Fin 1) d) = v (ix1 d) := by
  refine (shapeCast_addUnit_apply ![3] v shapeCasts_S3_S1x3 (ix2 (0 : Fin 1) d)).trans ?_
  refine congrArg v ?_
  funext a
  match a with
  | ⟨0, _⟩ => rfl

/-- The counts' column broadcast along the three columns, read at (r, d). -/
private theorem bcastCol {α : Type} (v : S2000x1.Idx → α) (r : Fin 2000) (d : Fin 3) :
    broadcastTo S2000x3 v broadcasts_S2000x1_S2000x3 (ix2 r d) = v (ix2 r (0 : Fin 1)) := by
  refine broadcastTo_apply v broadcasts_S2000x1_S2000x3 (ix2 r d) (ix2 r (0 : Fin 1)) fun a => ?_
  match a with
  | ⟨0, _⟩ => rfl
  | ⟨1, _⟩ => rfl

/-- The update's payload at column d: the accumulator's entry plus, over the tile's rows, the row's count times the sum
    over the ten tables of the row's entry in column d. -/
theorem pay1_apply (x0 : Vec Ideal S2000x1 .f32) (x1 : Vec Ideal S10x2000x3 .f32) (acc : Vec Ideal S1x3 .f32) (d : Fin 3) :
    k1_pay2 x0 x1 acc (ix2 (0 : Fin 1) d)
      = acc (ix2 (0 : Fin 1) d) + ∑ r : Fin 2000, x0 (ix2 r (0 : Fin 1)) * ∑ j : Fin 10, x1 (ix3 j r d) := by
  unfold k1_pay2
  dsimp only
  rw [shapeCast_self, shapeCast_self]
  refine (addf_apply _ _ _).trans ?_
  refine congrArg (acc (ix2 (0 : Fin 1) d) + ·) ?_
  refine (castRow _ d).trans ?_
  refine (rowSum _ d).trans ?_
  refine Finset.sum_congr rfl fun r _ => ?_
  refine (mulf_apply _ _ _).trans ?_
  exact congrArg₂ (· * ·) (bcastCol x0 r d) (tableSum x1 r d)

/-- The reset's payload is zero everywhere. -/
theorem pay1_zero (d : Fin 3) : (k1_pay1 (F := Ideal)) (ix2 (0 : Fin 1) d) = 0 := by
  unfold k1_pay1
  exact Ideal.ofBits_zero_f32

/-! ## The tiles are rows of the arrays -/

/-- The point's tile of counts and its tile of the tables, at their literal shapes. -/
abbrev tile1_cnt (c : Dev nD) (t : Fin cfg1.N) : Vec Ideal S2000x1 .f32 := tile1 V c 0 t
abbrev tile1_tab (c : Dev nD) (t : Fin cfg1.N) : Vec Ideal S10x2000x3 .f32 := tile1 V c 1 t

/-- Row r of tile t of the counts is row 2000 t + r of the counts' array. -/
theorem tile1_counts (c : Dev nD) (t : Fin cfg1.N) (r : Fin 2000) (h : 2000 * t.val + r.val < 1000000) :
    tile1_cnt V c t (ix2 r (0 : Fin 1)) = counts1 V c (ix2 ⟨2000 * t.val + r.val, h⟩ (0 : Fin 1)) := by
  have hi : win1_0.index t 0 = t.val ∧ win1_0.index t 1 = 0 :=
    (by decide +kernel : ∀ t : Fin grid1.N, win1_0.index t 0 = t.val ∧ win1_0.index t 1 = 0) t
  unfold tile1_cnt tile1
  rw [View.read_apply]
  show V c main_v9 _ = V c main_v9 _
  congr 1
  funext a
  apply Fin.ext
  match a with
  | ⟨0, _⟩ => show win1_0.index t 0 * 2000 + 1 * r.val = 2000 * t.val + r.val; rw [hi.1]; omega
  | ⟨1, _⟩ => show win1_0.index t 1 * 1 + 1 * 0 = 0; rw [hi.2]

/-- Row r of tile t of table j is row 2000 t + r of table j. -/
theorem tile1_table (c : Dev nD) (t : Fin cfg1.N) (j : Fin 10) (r : Fin 2000) (d : Fin 3) (h : 2000 * t.val + r.val < 1000000) :
    tile1_tab V c t (ix3 j r d) = table1 V c (ix3 j ⟨2000 * t.val + r.val, h⟩ d) := by
  have hi : win1_1.index t 0 = 0 ∧ win1_1.index t 1 = t.val ∧ win1_1.index t 2 = 0 :=
    (by decide +kernel : ∀ t : Fin grid1.N, win1_1.index t 0 = 0 ∧ win1_1.index t 1 = t.val ∧ win1_1.index t 2 = 0) t
  unfold tile1_tab tile1
  rw [View.read_apply]
  show V c main_arg2 _ = V c main_arg2 _
  congr 1
  funext a
  apply Fin.ext
  match a with
  | ⟨0, _⟩ => show win1_1.index t 0 * win1_1.size 0 + 1 * j.val = j.val; rw [hi.1]; omega
  | ⟨1, _⟩ => show win1_1.index t 1 * 2000 + 1 * r.val = 2000 * t.val + r.val; rw [hi.2.1]; omega
  | ⟨2, _⟩ => show win1_1.index t 2 * 3 + 1 * d.val = d.val; rw [hi.2.2]; omega

/-- One tile's contribution, read off the tiles, is the specification's term of the arrays. -/
theorem tile1_term (c : Dev nD) (t : Fin cfg1.N) (ht : t.val < 500) (d : Fin 3) :
    ∑ r : Fin 2000, tile1_cnt V c t (ix2 r (0 : Fin 1)) * ∑ j : Fin 10, tile1_tab V c t (ix3 j r d)
      = Cert.PoolSpec.tileTerm (fun v => counts1 V c (ix2 v (0 : Fin 1))) (fun j v d' => table1 V c (ix3 j v d')) d t.val ht := by
  unfold Cert.PoolSpec.tileTerm
  refine Finset.sum_congr rfl fun r _ => ?_
  refine congrArg₂ (· * ·) (tile1_counts V c t r (Cert.PoolSpec.row_lt ht r)) ?_
  exact Finset.sum_congr rfl fun j _ => tile1_table V c t j r d (Cert.PoolSpec.row_lt ht r)

/-! ## The accumulator point by point -/

/-- At the first point the accumulator's column d is zero plus the tile's term. -/
theorem accAt1_base (c : Dev nD) (t : Fin cfg1.N) (hfirst : t.val % 500 = 0) (ht : t.val < 500) (d : Fin 3) :
    accAt1 (F := Ideal) V c t.val t.isLt (ix2 (0 : Fin 1) d)
      = 0 + Cert.PoolSpec.tileTerm (fun v => counts1 V c (ix2 v (0 : Fin 1))) (fun j v d' => table1 V c (ix3 j v d')) d t.val ht := by
  rw [accAt1_first V c t hfirst]
  refine (congrFun (firstAcc1_eq (F := Ideal) c (grid1.coords t) (mref1_0 t) (whole1_0 t) (mref1_1 t) (whole1_1 t) (mref1_2 t)
    (whole1_2 t) ((isFirst1_iff t).mpr hfirst) (tile1_cnt V c t) (tile1_tab V c t)) (ix2 (0 : Fin 1) d)).trans ?_
  refine (pay1_apply (tile1_cnt V c t) (tile1_tab V c t) (k1_pay1 (F := Ideal)) d).trans ?_
  rw [pay1_zero d, tile1_term V c t ht d]

/-- At a later point it is what the point before left plus the tile's term. -/
theorem accAt1_step (c : Dev nD) (t : Fin cfg1.N) (hlater : ¬t.val % 500 = 0) (ht : t.val < 500) (d : Fin 3) :
    accAt1 (F := Ideal) V c t.val t.isLt (ix2 (0 : Fin 1) d)
      = accAt1 (F := Ideal) V c (t.val - 1) (Nat.lt_of_le_of_lt (Nat.sub_le _ _) t.isLt) (ix2 (0 : Fin 1) d)
        + Cert.PoolSpec.tileTerm (fun v => counts1 V c (ix2 v (0 : Fin 1))) (fun j v d' => table1 V c (ix3 j v d')) d t.val ht := by
  rw [accAt1_later V c t hlater]
  refine (congrFun (laterAcc1_eq (F := Ideal) c (grid1.coords t) (mref1_0 t) (whole1_0 t) (mref1_1 t) (whole1_1 t) (mref1_2 t)
    (whole1_2 t) (fun h => hlater ((isFirst1_iff t).mp h)) (tile1_cnt V c t) (tile1_tab V c t)
    (accAt1 (F := Ideal) V c (t.val - 1) (Nat.lt_of_le_of_lt (Nat.sub_le _ _) t.isLt))) (ix2 (0 : Fin 1) d)).trans ?_
  refine (pay1_apply (tile1_cnt V c t) (tile1_tab V c t)
    (accAt1 (F := Ideal) V c (t.val - 1) (Nat.lt_of_le_of_lt (Nat.sub_le _ _) t.isLt)) d).trans ?_
  rw [tile1_term V c t ht d]

/-- The accumulator's column d after point n is the specification's running sum over the first n + 1 tiles. -/
theorem accAt1_eq (c : Dev nD) (n : ℕ) (hn : n < cfg1.N) (hn' : n < 500) (d : Fin 3) :
    accAt1 (F := Ideal) V c n hn (ix2 (0 : Fin 1) d)
      = Cert.PoolSpec.accAfter (fun v => counts1 V c (ix2 v (0 : Fin 1))) (fun j v d' => table1 V c (ix3 j v d')) d n hn' := by
  induction n with
  | zero =>
    rw [Cert.PoolSpec.accAfter]
    exact accAt1_base V c ⟨0, hn⟩ (Nat.zero_mod _) hn' d
  | succ n ih =>
    rw [Cert.PoolSpec.accAfter, ← ih (Nat.lt_of_succ_lt hn) (Nat.lt_of_succ_lt hn')]
    exact accAt1_step V c ⟨n + 1, hn⟩ (by show ¬(n + 1) % 500 = 0; omega) hn' d

end Cert.KernelIdeal.Pool

end
-- ==== Proof.PoolValue2.lean ====
/-
  Region 2 of the pooled-embedding program at the exact instance: what the accumulator holds, as numbers.

  The first point's body stores zeros, reads them back and stores the read-back plus the tile's contribution; a later
  point's body stores the carried accumulator plus the tile's contribution. The contribution of a tile to column d is
  the sum over its 2000 rows of (the row's count) times (the sum over the six tables of the row's entry in column d):
  the lane sum over the table axis, the count column broadcast along the three columns, the product, and the lane sum
  over the rows, each read at an index. A row r of tile t is row 2000 t + r of the arrays. So by induction on the point
  the accumulator after point n is the specification's running sum, and since the accumulator's [1, 3] block is its
  whole array and is written back exactly once, after point 499, the array ends holding the running sum after 499.
-/
import proofs.«430057_j62277025792621_1_alg».proof.Proof.PoolBody2
import proofs.«430057_j62277025792621_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.ValueIdx Idealize.SL.Sem
open Idealize.ShloMosaic.Pipeline (Dat)
open scoped BigOperators

section AnyValues
variable {F : FTy → Type} [FloatOps F]
variable (V : (c : Dev nD) → (b : Ref sig .tc) → Buf (Elt F) ((c : Thread nD τ).loc b))

/-- The zero offsets of a rank-2 access, and of a rank-3 access, are the constant-zero offset function. -/
private theorem zeroOffTwo : (![0, 0] : Fin 2 → Nat) = fun _ => 0 := funext fun a => by fin_cases a <;> rfl
private theorem zeroOffThree : (![0, 0, 0] : Fin 3 → Nat) = fun _ => 0 := funext fun a => by fin_cases a <;> rfl

/-! ## What each run's found pieces read back to -/

/-- A LATER POINT's value: its one store covers the buffer, so the buffer reads back as the store's payload, whose three
    loads read the three whole buffers: the carried accumulator plus the tile's contribution. -/
theorem laterAcc2_eq (c : Dev nD) (i : grid2.Coords) (arg1 : Memref sig .tc .vmem S2000x1 .f32) (harg1 : arg1.IsWhole)
    (arg2 : Memref sig .tc .vmem S6x2000x3 .f32) (harg2 : arg2.IsWhole) (arg3 : Memref sig .tc .vmem S1x3 .f32) (harg3 : arg3.IsWhole)
    (hc0 : ¬isFirst2 i) (x0 : Vec F S2000x1 .f32) (x1 : Vec F S6x2000x3 .f32) (acc : Vec F S1x3 .f32) :
    laterAcc2 c i arg1 harg1 arg2 harg2 arg3 harg3 hc0 x0 x1 acc = k2_pay2 x0 x1 acc := by
  unfold laterAcc2
  rw [View.read_writes_eq_canon _ _ _ (laterCover2 c i arg1 harg1 arg2 harg2 arg3 harg3 hc0 x0 x1 acc)]
  unfold laterRun2
  dsimp only
  rw [View.canon_unit_zero zeroOffTwo]
  simp only [View.readAt_eq_ld, harg1.read_unread, harg2.read_unread, harg3.read_unread,
    View.ld_unit_zero (S := S2000x1) zeroOffTwo, View.ld_unit_zero (S := S6x2000x3) zeroOffThree,
    View.ld_unit_zero (S := S1x3) zeroOffTwo]

/-- THE FIRST POINT's value: the later of its two stores covers the buffer, and the accumulator it adds to is the
    read-back of the zeros the earlier store left: the zero block plus the tile's contribution. -/
theorem firstAcc2_eq (c : Dev nD) (i : grid2.Coords) (arg1 : Memref sig .tc .vmem S2000x1 .f32) (harg1 : arg1.IsWhole)
    (arg2 : Memref sig .tc .vmem S6x2000x3 .f32) (harg2 : arg2.IsWhole) (arg3 : Memref sig .tc .vmem S1x3 .f32) (harg3 : arg3.IsWhole)
    (hc0 : isFirst2 i) (x0 : Vec F S2000x1 .f32) (x1 : Vec F S6x2000x3 .f32) :
    firstAcc2 c i arg1 harg1 arg2 harg2 arg3 harg3 hc0 x0 x1 = k2_pay2 x0 x1 (k2_pay1 (F := F)) := by
  unfold firstAcc2
  rw [View.read_writes_eq_canon _ _ _ (firstCover2 c i arg1 harg1 arg2 harg2 arg3 harg3 hc0 x0 x1)]
  unfold firstRun2
  dsimp only
  sl_unfold_words
  rw [View.canon_cons_unit_zero (S := S1x3) zeroOffTwo, View.readCov_unit_zero (S := S1x3) _ zeroOffTwo]
  simp only [View.readAt_eq_ld, harg1.read_unread, harg2.read_unread,
    View.ld_unit_zero (S := S2000x1) zeroOffTwo, View.ld_unit_zero (S := S6x2000x3) zeroOffThree]

/-! ## The accumulator's array after the region -/

/-- The last grid point, the only one after which the accumulator is written back. -/
abbrev lastPt2 : Fin cfg2.N := ⟨499, by rw [show cfg2.N = 500 from N_2]; decide⟩

/-- Block (0, 0) of the [1, 3] array, read through zero offsets, is the array. -/
private theorem wholeBlock (c : Dev nD) (X : Buf (Elt F) ((c : Thread nD τ).loc main_v14)) :
    ((cfg2.win 2).blk lastPt2).view.read (Elt F) X = X := by
  have hz' : (fun a => win2_2.index lastPt2 a * main_v14.ty.shape.size a) = fun _ => 0 :=
    funext fun a => by fin_cases a <;> decide +kernel
  exact Memref.read_access_unit_zero (Elt F) main_v14 hz' (fun a => by rw [congrFun hz' a]; simp) X

/-- So what the write-back after the last point writes, the whole of the staging buffer's contents, is that block of
    the same contents taken as the array's. -/
private theorem wholeCut (c : Dev nD) (X : Vec F S1x3 .f32) :
    (cfg2.win 2).cut (grid2.coords lastPt2) X
      = ((cfg2.win 2).blk lastPt2).view.read (Elt F) (X : Buf (Elt F) ((c : Thread nD τ).loc main_v14)) := by
  rw [wholeBlock c]
  rfl

/-- The one write-back happens after point 499 and writes what the body left then. -/
private theorem writeBack (c : Dev nD) (t : Fin cfg2.N) (hf : (cfg2.win 2).flush t = true) :
    (dat2 V c).flushed 2 t
      = ((cfg2.win 2).blk t).view.read (Elt F)
          (accAt2 V c 499 (by rw [show cfg2.N = 500 from N_2]; decide) : Buf (Elt F) ((c : Thread nD τ).loc main_v14)) := by
  have hN : cfg2.N = 500 := N_2
  have hlast : t.val = 499 := by have := (flush2_2 t).mp hf; have := t.isLt; omega
  obtain rfl : t = lastPt2 := Fin.ext hlast
  show (cfg2.win 2).cut (grid2.coords lastPt2) ((dat2 V c).after 2 lastPt2) = _
  rw [after2_2]
  exact wholeCut c (accAt2 V c 499 (by rw [show cfg2.N = 500 from N_2]; decide))

/-- The accumulator's array after the region: its one write-back, after the last point, writes the whole [1, 3] array. -/
theorem result2_eq (c : Dev nD) :
    (dat2 V c).arrAt 2 cfg2.N
      = (accAt2 V c 499 (by rw [show cfg2.N = 500 from N_2]; decide) : Buf (Elt F) ((c : Thread nD τ).loc main_v14)) :=
  (dat2 V c).arrAt_eq_of_cover 2 _ (writeBack V c) fun i =>
    ⟨lastPt2, (flush2_2 lastPt2).mpr rfl, by
      show i ∈ ((View.whole main_v14).slice (win2_2.rect lastPt2)).set
      rw [View.set_slice_whole, Rect.mem_set_unit]
      intro a
      have hrow : (i 0 : Nat) < 1 := (i 0).isLt
      have hcol : (i 1 : Nat) < 3 := (i 1).isLt
      match a with
      | ⟨0, _⟩ =>
        show win2_2.index lastPt2 0 * win2_2.size 0 ≤ (i 0 : Nat)
          ∧ (i 0 : Nat) < win2_2.index lastPt2 0 * win2_2.size 0 + win2_2.xsize (grid2.coords lastPt2) 0
        rw [show win2_2.index lastPt2 0 * win2_2.size 0 = 0 from by decide +kernel,
          show win2_2.xsize (grid2.coords lastPt2) 0 = 1 from by decide +kernel]; omega
      | ⟨1, _⟩ =>
        show win2_2.index lastPt2 1 * win2_2.size 1 ≤ (i 1 : Nat)
          ∧ (i 1 : Nat) < win2_2.index lastPt2 1 * win2_2.size 1 + win2_2.xsize (grid2.coords lastPt2) 1
        rw [show win2_2.index lastPt2 1 * win2_2.size 1 = 0 from by decide +kernel,
          show win2_2.xsize (grid2.coords lastPt2) 1 = 3 from by decide +kernel]; omega⟩

end AnyValues

variable (V : (c : Dev nD) → (b : Ref sig .tc) → Buf (Elt Ideal) ((c : Thread nD τ).loc b))

/-- The counts' array and the group's table as the region finds them, as plain functions of an index. -/
abbrev counts2 (c : Dev nD) : S1000000x1.Idx → EReal := V c main_v9
abbrev table2 (c : Dev nD) : S6x1000000x3.Idx → EReal := V c main_arg3

/-! ## The payloads at an index, over the extended reals -/

/-- The lane sum over the six tables, at row r and column d. -/
private theorem tableSum (x1 : Vec Ideal S6x2000x3 .f32) (r : Fin 2000) (d : Fin 3) :
    multiReduction (F := Ideal) .add [0] S2000x3 x1 0x00000000#32 reduces_S6x2000x3_S2000x3 (.inl rfl) rfl (ix2 r d)
      = ∑ j : Fin 6, x1 (ix3 j r d) := by
  refine (Ideal.multiReduction_add_single x1 0x00000000#32 reduces_S6x2000x3_S2000x3 (.inl rfl) rfl (ix2 r d)).trans ?_
  refine Finset.sum_congr rfl fun j _ => congrArg x1 ?_
  funext a
  match a with
  | ⟨0, _⟩ => rfl
  | ⟨1, _⟩ => rfl
  | ⟨2, _⟩ => rfl

/-- The lane sum over the 2000 rows, at column d. -/
private theorem rowSum (y : Vec Ideal S2000x3 .f32) (d : Fin 3) :
    multiReduction (F := Ideal) .add [0] S3 y 0x00000000#32 reduces_S2000x3_S3 (.inl rfl) rfl (ix1 d)
      = ∑ r : Fin 2000, y (ix2 r d) := by
  refine (Ideal.multiReduction_add_single y 0x00000000#32 reduces_S2000x3_S3 (.inl rfl) rfl (ix1 d)).trans ?_
  refine Finset.sum_congr rfl fun r _ => congrArg y ?_
  funext a
  match a with
  | ⟨0, _⟩ => rfl
  | ⟨1, _⟩ => rfl

/-- The cast that adds the leading unit axis, read at (0, d). -/
private theorem castRow {α : Type} (v : S3.Idx → α) (d : Fin 3) :
    shapeCast S1x3 v shapeCasts_S3_S1x3 (ix2 (0 : Fin 1) d) = v (ix1 d) := by
  refine (shapeCast_addUnit_apply ![3] v shapeCasts_S3_S1x3 (ix2 (0 : Fin 1) d)).trans ?_
  refine congrArg v ?_
  funext a
  match a with
  | ⟨0, _⟩ => rfl

/-- The counts' column broadcast along the three columns, read at (r, d). -/
private theorem bcastCol {α : Type} (v : S2000x1.Idx → α) (r : Fin 2000) (d : Fin 3) :
    broadcastTo S2000x3 v broadcasts_S2000x1_S2000x3 (ix2 r d) = v (ix2 r (0 : Fin 1)) := by
  refine broadcastTo_apply v broadcasts_S2000x1_S2000x3 (ix2 r d) (ix2 r (0 : Fin 1)) fun a => ?_
  match a with
  | ⟨0, _⟩ => rfl
  | ⟨1, _⟩ => rfl

/-- The update's payload at column d: the accumulator's entry plus, over the tile's rows, the row's count times the sum
    over the six tables of the row's entry in column d. -/
theorem pay2_apply (x0 : Vec Ideal S2000x1 .f32) (x1 : Vec Ideal S6x2000x3 .f32) (acc : Vec Ideal S1x3 .f32) (d : Fin 3) :
    k2_pay2 x0 x1 acc (ix2 (0 : Fin 1) d)
      = acc (ix2 (0 : Fin 1) d) + ∑ r : Fin 2000, x0 (ix2 r (0 : Fin 1)) * ∑ j : Fin 6, x1 (ix3 j r d) := by
  unfold k2_pay2
  dsimp only
  rw [shapeCast_self, shapeCast_self]
  refine (addf_apply _ _ _).trans ?_
  refine congrArg (acc (ix2 (0 : Fin 1) d) + ·) ?_
  refine (castRow _ d).trans ?_
  refine (rowSum _ d).trans ?_
  refine Finset.sum_congr rfl fun r _ => ?_
  refine (mulf_apply _ _ _).trans ?_
  exact congrArg₂ (· * ·) (bcastCol x0 r d) (tableSum x1 r d)

/-- The reset's payload is zero everywhere. -/
theorem pay2_zero (d : Fin 3) : (k2_pay1 (F := Ideal)) (ix2 (0 : Fin 1) d) = 0 := by
  unfold k2_pay1
  exact Ideal.ofBits_zero_f32

/-! ## The tiles are rows of the arrays -/

/-- The point's tile of counts and its tile of the tables, at their literal shapes. -/
abbrev tile2_cnt (c : Dev nD) (t : Fin cfg2.N) : Vec Ideal S2000x1 .f32 := tile2 V c 0 t
abbrev tile2_tab (c : Dev nD) (t : Fin cfg2.N) : Vec Ideal S6x2000x3 .f32 := tile2 V c 1 t

/-- Row r of tile t of the counts is row 2000 t + r of the counts' array. -/
theorem tile2_counts (c : Dev nD) (t : Fin cfg2.N) (r : Fin 2000) (h : 2000 * t.val + r.val < 1000000) :
    tile2_cnt V c t (ix2 r (0 : Fin 1)) = counts2 V c (ix2 ⟨2000 * t.val + r.val, h⟩ (0 : Fin 1)) := by
  have hi : win2_0.index t 0 = t.val ∧ win2_0.index t 1 = 0 :=
    (by decide +kernel : ∀ t : Fin grid2.N, win2_0.index t 0 = t.val ∧ win2_0.index t 1 = 0) t
  unfold tile2_cnt tile2
  rw [View.read_apply]
  show V c main_v9 _ = V c main_v9 _
  congr 1
  funext a
  apply Fin.ext
  match a with
  | ⟨0, _⟩ => show win2_0.index t 0 * 2000 + 1 * r.val = 2000 * t.val + r.val; rw [hi.1]; omega
  | ⟨1, _⟩ => show win2_0.index t 1 * 1 + 1 * 0 = 0; rw [hi.2]

/-- Row r of tile t of table j is row 2000 t + r of table j. -/
theorem tile2_table (c : Dev nD) (t : Fin cfg2.N) (j : Fin 6) (r : Fin 2000) (d : Fin 3) (h : 2000 * t.val + r.val < 1000000) :
    tile2_tab V c t (ix3 j r d) = table2 V c (ix3 j ⟨2000 * t.val + r.val, h⟩ d) := by
  have hi : win2_1.index t 0 = 0 ∧ win2_1.index t 1 = t.val ∧ win2_1.index t 2 = 0 :=
    (by decide +kernel : ∀ t : Fin grid2.N, win2_1.index t 0 = 0 ∧ win2_1.index t 1 = t.val ∧ win2_1.index t 2 = 0) t
  unfold tile2_tab tile2
  rw [View.read_apply]
  show V c main_arg3 _ = V c main_arg3 _
  congr 1
  funext a
  apply Fin.ext
  match a with
  | ⟨0, _⟩ => show win2_1.index t 0 * win2_1.size 0 + 1 * j.val = j.val; rw [hi.1]; omega
  | ⟨1, _⟩ => show win2_1.index t 1 * 2000 + 1 * r.val = 2000 * t.val + r.val; rw [hi.2.1]; omega
  | ⟨2, _⟩ => show win2_1.index t 2 * 3 + 1 * d.val = d.val; rw [hi.2.2]; omega

/-- One tile's contribution, read off the tiles, is the specification's term of the arrays. -/
theorem tile2_term (c : Dev nD) (t : Fin cfg2.N) (ht : t.val < 500) (d : Fin 3) :
    ∑ r : Fin 2000, tile2_cnt V c t (ix2 r (0 : Fin 1)) * ∑ j : Fin 6, tile2_tab V c t (ix3 j r d)
      = Cert.PoolSpec.tileTerm (fun v => counts2 V c (ix2 v (0 : Fin 1))) (fun j v d' => table2 V c (ix3 j v d')) d t.val ht := by
  unfold Cert.PoolSpec.tileTerm
  refine Finset.sum_congr rfl fun r _ => ?_
  refine congrArg₂ (· * ·) (tile2_counts V c t r (Cert.PoolSpec.row_lt ht r)) ?_
  exact Finset.sum_congr rfl fun j _ => tile2_table V c t j r d (Cert.PoolSpec.row_lt ht r)

/-! ## The accumulator point by point -/

/-- At the first point the accumulator's column d is zero plus the tile's term. -/
theorem accAt2_base (c : Dev nD) (t : Fin cfg2.N) (hfirst : t.val % 500 = 0) (ht : t.val < 500) (d : Fin 3) :
    accAt2 (F := Ideal) V c t.val t.isLt (ix2 (0 : Fin 1) d)
      = 0 + Cert.PoolSpec.tileTerm (fun v => counts2 V c (ix2 v (0 : Fin 1))) (fun j v d' => table2 V c (ix3 j v d')) d t.val ht := by
  rw [accAt2_first V c t hfirst]
  refine (congrFun (firstAcc2_eq (F := Ideal) c (grid2.coords t) (mref2_0 t) (whole2_0 t) (mref2_1 t) (whole2_1 t) (mref2_2 t)
    (whole2_2 t) ((isFirst2_iff t).mpr hfirst) (tile2_cnt V c t) (tile2_tab V c t)) (ix2 (0 : Fin 1) d)).trans ?_
  refine (pay2_apply (tile2_cnt V c t) (tile2_tab V c t) (k2_pay1 (F := Ideal)) d).trans ?_
  rw [pay2_zero d, tile2_term V c t ht d]

/-- At a later point it is what the point before left plus the tile's term. -/
theorem accAt2_step (c : Dev nD) (t : Fin cfg2.N) (hlater : ¬t.val % 500 = 0) (ht : t.val < 500) (d : Fin 3) :
    accAt2 (F := Ideal) V c t.val t.isLt (ix2 (0 : Fin 1) d)
      = accAt2 (F := Ideal) V c (t.val - 1) (Nat.lt_of_le_of_lt (Nat.sub_le _ _) t.isLt) (ix2 (0 : Fin 1) d)
        + Cert.PoolSpec.tileTerm (fun v => counts2 V c (ix2 v (0 : Fin 1))) (fun j v d' => table2 V c (ix3 j v d')) d t.val ht := by
  rw [accAt2_later V c t hlater]
  refine (congrFun (laterAcc2_eq (F := Ideal) c (grid2.coords t) (mref2_0 t) (whole2_0 t) (mref2_1 t) (whole2_1 t) (mref2_2 t)
    (whole2_2 t) (fun h => hlater ((isFirst2_iff t).mp h)) (tile2_cnt V c t) (tile2_tab V c t)
    (accAt2 (F := Ideal) V c (t.val - 1) (Nat.lt_of_le_of_lt (Nat.sub_le _ _) t.isLt))) (ix2 (0 : Fin 1) d)).trans ?_
  refine (pay2_apply (tile2_cnt V c t) (tile2_tab V c t)
    (accAt2 (F := Ideal) V c (t.val - 1) (Nat.lt_of_le_of_lt (Nat.sub_le _ _) t.isLt)) d).trans ?_
  rw [tile2_term V c t ht d]

/-- The accumulator's column d after point n is the specification's running sum over the first n + 1 tiles. -/
theorem accAt2_eq (c : Dev nD) (n : ℕ) (hn : n < cfg2.N) (hn' : n < 500) (d : Fin 3) :
    accAt2 (F := Ideal) V c n hn (ix2 (0 : Fin 1) d)
      = Cert.PoolSpec.accAfter (fun v => counts2 V c (ix2 v (0 : Fin 1))) (fun j v d' => table2 V c (ix3 j v d')) d n hn' := by
  induction n with
  | zero =>
    rw [Cert.PoolSpec.accAfter]
    exact accAt2_base V c ⟨0, hn⟩ (Nat.zero_mod _) hn' d
  | succ n ih =>
    rw [Cert.PoolSpec.accAfter, ← ih (Nat.lt_of_succ_lt hn) (Nat.lt_of_succ_lt hn')]
    exact accAt2_step V c ⟨n + 1, hn⟩ (by show ¬(n + 1) % 500 = 0; omega) hn' d

end Cert.KernelIdeal.Pool

end
-- ==== Proof.PoolIndex.lean ====
/-
  Which table row an index word selects. Both programs first apply numpy's wrap to the raw 32-bit index (a negative
  word has the extent 1000000 added); the reference's gather then reads the wrapped word signed and CLAMPS it into the
  table, while the kernel program's scatter-add of ones reads it signed and DROPS it when it is outside. On numpy's
  valid index range [-1000000, 1000000) the wrapped word is a row number, and the two agree.
-/
import proofs.«430057_j62277025792621_1_alg».proof.Proof.LibIndexWrap

namespace Cert.PoolIndex

open Idealize.ShloMosaic

/-- The row an index word selects: the wrapped word, read signed and clamped into [0, 999999]. -/
def rowOf (e : BitVec 32) : Fin 1000000 :=
  ⟨min (IndexWrap.wrapWord 1000000#32 e).toInt.toNat 999999, by omega⟩

/-- A word in numpy's range wraps to a signed value that is a row number. -/
theorem wrap_range (e : BitVec 32) (h : -1000000 ≤ e.toInt ∧ e.toInt < 1000000) :
    0 ≤ (IndexWrap.wrapWord 1000000#32 e).toInt ∧ (IndexWrap.wrapWord 1000000#32 e).toInt < 1000000 := by
  have := IndexWrap.wrapWord_range 1000000#32 e (by decide) (by
    have e1 : ((1000000#32 : BitVec 32).toNat : ℤ) = 1000000 := by decide
    rw [e1]; exact h)
  have e1 : ((1000000#32 : BitVec 32).toNat : ℤ) = 1000000 := by decide
  rw [e1] at this; exact this

/-- For a word in numpy's range, "the wrapped word's signed value is v" says "the word selects row v". -/
theorem wrap_eq_iff_rowOf (e : BitVec 32) (h : -1000000 ≤ e.toInt ∧ e.toInt < 1000000) (v : Fin 1000000) :
    (IndexWrap.wrapWord 1000000#32 e).toInt = (v.val : ℤ) ↔ rowOf e = v := by
  have hr := wrap_range e h
  unfold rowOf
  constructor
  · intro hv; apply Fin.ext; show min _ 999999 = v.val; have := v.isLt; omega
  · intro hv; have := congrArg Fin.val hv; simp only at this; have := v.isLt; omega

end Cert.PoolIndex
-- ==== Proof.LibMidGather.lean ====
/-
  THE GATHER ALONG THE MIDDLE AXIS OF A RANK-3 TABLE, AND THE SUM OVER THE FIRST TWO AXES, READ AT AN INDEX.

  What x[:, idx, :] of a rank-3 table x : [T, N, D] at a vector of indices along the middle axis lowers to: a
  stablehlo.gather with offset_dims [0, 2], collapsed_slice_dims [1], start_index_map [1], index_vector_dim 1 and
  slice_sizes [T, 1, D], over the indices kept as an [n, 1] column. Its result is [T, n, D], and the element at
  (j, q, d) is the table's at (j, row, d), where row is the start index idx[q, 0] read as a SIGNED integer and CLAMPED
  into [0, N − 1] (the slice is one whole [T, 1, D] sheet, so the clamp is to the last sheet): a negative index reads
  sheet 0, one past the end reads sheet N − 1.

  What the sum of a [T, n, D] array over its first two axes into [D] is at the exact (extended-real) instance: the
  initial value plus the double sum, over the first and then the second coordinate, of the array at (j, q, d).

  • midDims T N D n wf is the record of the gather's dimension numbers, a literal structure so that every list lookup
    in the operand index computes; midGather_apply is the read.
  • hostReduceAdd_01_apply is the read of the two-axis sum: the source indices that drop to (d) are exactly the
    (j, q, d), so the filtered sum is re-indexed over the pairs (j, q) and the pair sum split.

  The lemmas are general in T, N, D, n, the index width w (and the gather's in the element type); the conditions on
  the dimension numbers and on the reduced shape are decided on a program's literal shapes.
-/
import Idealize.ShloMosaic.PureOps.Ideal
import Idealize.ShloMosaic.Lib.ValueIdx
import Mathlib.Data.EReal.Operations
import Mathlib.Algebra.BigOperators.Group.Finset.Basic
noncomputable section
namespace Idealize.ShloMosaic.MidGather
open Idealize.ShloMosaic Idealize.ShloMosaic.ValueIdx
open scoped BigOperators

/-! ## The gather along the middle axis -/

/-- The dimension numbers of a gather of whole [T, 1, D] sheets out of a [T, N, D] table at an [n, 1] column of
    middle-axis indices. -/
abbrev midDims (T N D n : Nat)
    (wf : GatherDims.WF ⟨3, ![T, N, D]⟩ ⟨2, ![n, 1]⟩ ⟨3, ![T, n, D]⟩ [0, 2] [1] [] [1] [] 1 ![T, 1, D]) :
    GatherDims ⟨3, ![T, N, D]⟩ ⟨2, ![n, 1]⟩ ⟨3, ![T, n, D]⟩ where
  offsetDims := [0, 2]
  collapsedSliceDims := [1]
  operandBatchingDims := []
  startIndicesBatchingDims := []
  startIndexMap := [1]
  indexVectorDim := 1
  sliceSizes := ![T, 1, D]
  wf := wf

/-- The middle-axis gather read at (j, q, d): the table at (j, row, d), row the clamped signed start index of
    entry q. -/
theorem midGather_apply {α : Type} {T N D n w : Nat} (hN : 0 < N)
    (wf : GatherDims.WF ⟨3, ![T, N, D]⟩ ⟨2, ![n, 1]⟩ ⟨3, ![T, n, D]⟩ [0, 2] [1] [] [1] [] 1 ![T, 1, D])
    (x : (⟨3, ![T, N, D]⟩ : Shape).Idx → α) (idx : IVec ⟨2, ![n, 1]⟩ w) (j : Fin T) (q : Fin n) (d : Fin D) :
    Host.gather (midDims T N D n wf) x idx (ix3 j q d)
      = x (ix3 j (⟨min (idx (ix2 q (0 : Fin 1))).toInt.toNat (N - 1), by omega⟩ : Fin N) d) := by
  -- the gather reads the operand at its operand index: compare the two indices axis by axis, as naturals
  unfold Host.gather
  congr 1
  funext a
  refine Fin.ext ?_
  match a with
  | ⟨0, _⟩ =>
    -- AXIS 0, an offset axis: the start index map does not name it, so the start is 0; there is no batching
    -- coordinate; it is the first of the operand's two kept axes, read by the result's first offset axis, whose
    -- coordinate is j
    show (midDims T N D n wf).start (ix3 j q d) idx 0 + (midDims T N D n wf).batchCoord (ix3 j q d) 0
        + (midDims T N D n wf).offCoord (ix3 j q d) 0 = j.val
    have hk : (0 : Fin 3) ∈ (midDims T N D n wf).sKept :=
      (GatherDims.mem_sKept _ _).mpr ⟨by show (0 : Fin 3) ∉ [(1 : Fin 3)]; decide, List.not_mem_nil⟩
    rw [GatherDims.batchCoord_eq_zero _ _ _ List.not_mem_nil]
    unfold GatherDims.start GatherDims.offCoord
    rw [dif_neg (show (0 : Fin 3) ∉ (midDims T N D n wf).startIndexMap by
      show (0 : Fin 3) ∉ [(1 : Fin 3)]; decide), dif_pos hk]
    simp only [Nat.zero_add]
    rfl
  | ⟨1, _⟩ =>
    -- AXIS 1, collapsed and start-indexed: no batching coordinate (no batching axes), no offset coordinate (a
    -- collapsed axis is not a kept one), so the operand coordinate is the clamped start alone
    show (midDims T N D n wf).start (ix3 j q d) idx 1 + (midDims T N D n wf).batchCoord (ix3 j q d) 1
        + (midDims T N D n wf).offCoord (ix3 j q d) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims T N D n wf).startIndexMap from List.mem_singleton.mpr rfl)]
    -- the start index's one component is read at (q, 0): the result's batch coordinate q on the start indices'
    -- axis 0, the component's number 0 on the index vector's axis 1
    have hsi : (midDims T N D n wf).siIdx (ix3 j q d) ⟨List.idxOf (1 : Fin 3) (midDims T N D n wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    -- the clamp's upper end: the axis's extent N less the slice size 1
    rfl
  | ⟨2, _⟩ =>
    -- AXIS 2, an offset axis: start 0, no batching coordinate; it is the second of the operand's two kept axes, read
    -- by the result's second offset axis, whose coordinate is d
    show (midDims T N D n wf).start (ix3 j q d) idx 2 + (midDims T N D n wf).batchCoord (ix3 j q d) 2
        + (midDims T N D n wf).offCoord (ix3 j q d) 2 = d.val
    have hk : (2 : Fin 3) ∈ (midDims T N D n wf).sKept :=
      (GatherDims.mem_sKept _ _).mpr ⟨by show (2 : Fin 3) ∉ [(1 : Fin 3)]; decide, List.not_mem_nil⟩
    rw [GatherDims.batchCoord_eq_zero _ _ _ List.not_mem_nil]
    unfold GatherDims.start GatherDims.offCoord
    rw [dif_neg (show (2 : Fin 3) ∉ (midDims T N D n wf).startIndexMap by
      show (2 : Fin 3) ∉ [(1 : Fin 3)]; decide), dif_pos hk]
    simp only [Nat.zero_add]
    rfl

/-! ## The sum over the first two axes -/

/-- A source index (of a [T, n, D] array) drops, under the sum over axes 0 and 1, to its last coordinate. -/
theorem drop01_val {T n D : Nat} (h : (⟨3, ![T, n, D]⟩ : Shape).ReducesTo [0, 1] ⟨1, ![D]⟩)
    (i : (⟨3, ![T, n, D]⟩ : Shape).Idx) : (h.drop i 0).val = (i 2).val := rfl

/-- So it drops to (d) exactly when its last coordinate is d. -/
theorem drop01_eq_iff {T n D : Nat} (h : (⟨3, ![T, n, D]⟩ : Shape).ReducesTo [0, 1] ⟨1, ![D]⟩)
    (i : (⟨3, ![T, n, D]⟩ : Shape).Idx) (d : Fin D) : h.drop i = ix1 d ↔ i 2 = d := by
  constructor
  · intro hi
    have := congrArg (fun f => (f 0).val) hi
    exact Fin.ext ((drop01_val h i).symm.trans this)
  · intro hi
    funext b
    match b with
    | ⟨0, _⟩ => exact Fin.ext ((drop01_val h i).trans (congrArg Fin.val hi))

/-- The host's sum of a [T, n, D] array over its first two axes, at the exact instance, read at (d): the initial value
    plus the double sum over (j, q) of the array at (j, q, d). -/
theorem hostReduceAdd_01_apply {T n D : Nat} (h : (⟨3, ![T, n, D]⟩ : Shape).ReducesTo [0, 1] ⟨1, ![D]⟩)
    (x : (⟨3, ![T, n, D]⟩ : Shape).Idx → EReal) (init : EReal) (d : Fin D) :
    Ideal.hostReduceAdd h x init (ix1 d) = init + ∑ j : Fin T, ∑ q : Fin n, x (ix3 j q d) := by
  unfold Ideal.hostReduceAdd
  congr 1
  -- the double sum is the sum over the pairs (j, q); the source indices that drop to (d) are the (j, q, d)
  rw [← Finset.sum_product' (Finset.univ : Finset (Fin T)) (Finset.univ : Finset (Fin n)) (fun j q => x (ix3 j q d))]
  refine Finset.sum_nbij' (fun i => ((i 0 : Fin T), (i 1 : Fin n))) (fun p => ix3 p.1 p.2 d) ?_ ?_ ?_ ?_ ?_
  · intro i _
    exact Finset.mem_product.mpr ⟨Finset.mem_univ _, Finset.mem_univ _⟩
  · intro p _
    exact Finset.mem_filter.mpr ⟨Finset.mem_univ _, (drop01_eq_iff h _ d).mpr rfl⟩
  · intro i hi
    have h2 : i 2 = d := (drop01_eq_iff h i d).mp (Finset.mem_filter.mp hi).2
    subst h2
    exact (eq_ix3 i).symm
  · intro p _; rfl
  · intro i hi
    have h2 : i 2 = d := (drop01_eq_iff h i d).mp (Finset.mem_filter.mp hi).2
    subst h2
    exact congrArg x (eq_ix3 i)

end Idealize.ShloMosaic.MidGather
end
-- ==== Proof.RefPool.lean ====
/-
  The reference program's three pooled sums, read at a column. For table group g the reference wraps the index words,
  keeps them as an [n, 1] column, gathers the rows W[:, idx, :] (a gather along the middle axis of the [T, V, 3] table,
  the start index read signed and clamped into the table) and sums the gathered [T, n, 3] array over its first two
  axes from 0: column d of the result is 0 + Σ_j Σ_n W[j, row(e n), d].
-/
import proofs.«430057_j62277025792621_1_alg».proof.Proof.Gen.ReferenceIdeal.Read
import proofs.«430057_j62277025792621_1_alg».proof.Proof.PoolIndex
import proofs.«430057_j62277025792621_1_alg».proof.Proof.LibMidGather
import Idealize.ShloMosaic.PureOps.Ideal.Laws

noncomputable section

namespace Cert.RefPool

open Idealize.ShloMosaic Idealize.ShloMosaic.ValueIdx Idealize.ShloMosaic.MidGather
open Cert.ReferenceIdeal Cert.ReferenceIdeal.Read Cert.PoolIndex
open scoped BigOperators

variable [Cert.ReferenceIdeal.Facts]

/-! ## The three index columns

Each group wraps the same index vector afresh (a select of "word + 1000000" where the word is negative) and keeps
the wrapped words as an [n, 1] column: row q of the column is the wrapped word of entry q. -/

/-- Group 0's index column at row q: the wrapped index word of entry q. -/
theorem col0_apply (e : IVec S1000000 32) (q : Fin 1000000) :
    val_main_v5 (F := Ideal) e (ix2 q (0 : Fin 1)) = IndexWrap.wrapWord 1000000#32 (e (ix1 q)) := by
  unfold val_main_v5
  rw [IndexWrap.column_apply]
  unfold val_main_v4 val_main_v1 val_main_v3 val_main_v0 val_main_v2 val_main_c val_main_c_0
  exact IndexWrap.wrapped_apply _ _ _ _

/-- Group 1's index column at row q. -/
theorem col1_apply (e : IVec S1000000 32) (q : Fin 1000000) :
    val_main_v13 (F := Ideal) e (ix2 q (0 : Fin 1)) = IndexWrap.wrapWord 1000000#32 (e (ix1 q)) := by
  unfold val_main_v13
  rw [IndexWrap.column_apply]
  unfold val_main_v12 val_main_v9 val_main_v11 val_main_v8 val_main_v10 val_main_c_1 val_main_c_2
  exact IndexWrap.wrapped_apply _ _ _ _

/-- Group 2's index column at row q. -/
theorem col2_apply (e : IVec S1000000 32) (q : Fin 1000000) :
    val_main_v21 (F := Ideal) e (ix2 q (0 : Fin 1)) = IndexWrap.wrapWord 1000000#32 (e (ix1 q)) := by
  unfold val_main_v21
  rw [IndexWrap.column_apply]
  unfold val_main_v20 val_main_v17 val_main_v19 val_main_v16 val_main_v18 val_main_c_4 val_main_c_5
  exact IndexWrap.wrapped_apply _ _ _ _

/-! ## The three pooled sums

The sum over the first two axes from the initial value 0 is 0 plus the double sum over (j, q); under it the gathered
array at (j, q, d) is the table at (j, row, d), row the column's word at q read signed and clamped to [0, 999999]:
the row the wrapped word selects. -/

/-- Group 0 (five tables): column d of the reference's pooled sum. -/
theorem pool0 (e : IVec S1000000 32) (W : FVec Ideal S5x1000000x3 .f32) (d : Fin 3) :
    val_main_v7 (F := Ideal) e W (ix1 d) = 0 + ∑ j : Fin 5, ∑ n : Fin 1000000, W (ix3 j (rowOf (e (ix1 n))) d) := by
  unfold val_main_v7 Host.reduceAdd
  rw [Ideal.hostReduceAdd_def]
  refine (hostReduceAdd_01_apply (T := 5) (n := 1000000) (D := 3) _ _ _ d).trans ?_
  -- the initial value: the f32 word 0 is the number 0
  rw [val_main_cst_apply]
  show Ideal.ofBits .f32 0x00000000#32 + _ = _
  rw [Ideal.ofBits_zero_f32]
  refine congrArg (fun s : EReal => 0 + s) ?_
  refine Finset.sum_congr rfl fun j _ => Finset.sum_congr rfl fun q _ => ?_
  -- the gathered array at (j, q, d)
  unfold val_main_v6
  have hd : gather_S5x1000000x3_S1000000x1_S5x1000000x3_02_1_n_n_1_1_513
      = midDims 5 1000000 3 1000000 Facts₀.gather_S5x1000000x3_S1000000x1_S5x1000000x3_02_1_n_n_1_1_513_wf := rfl
  rw [hd, midGather_apply (by decide)]
  -- the clamped signed start index is the row the wrapped word selects
  refine congrArg (fun r => W (ix3 j r d)) (Fin.ext ?_)
  show min _ (1000000 - 1) = (rowOf (e (ix1 q))).val
  rw [col0_apply]
  rfl

/-- Group 1 (ten tables). -/
theorem pool1 (e : IVec S1000000 32) (W : FVec Ideal S10x1000000x3 .f32) (d : Fin 3) :
    val_main_v15 (F := Ideal) e W (ix1 d) = 0 + ∑ j : Fin 10, ∑ n : Fin 1000000, W (ix3 j (rowOf (e (ix1 n))) d) := by
  unfold val_main_v15 Host.reduceAdd
  rw [Ideal.hostReduceAdd_def]
  refine (hostReduceAdd_01_apply (T := 10) (n := 1000000) (D := 3) _ _ _ d).trans ?_
  rw [val_main_cst_3_apply]
  show Ideal.ofBits .f32 0x00000000#32 + _ = _
  rw [Ideal.ofBits_zero_f32]
  refine congrArg (fun s : EReal => 0 + s) ?_
  refine Finset.sum_congr rfl fun j _ => Finset.sum_congr rfl fun q _ => ?_
  unfold val_main_v14
  have hd : gather_S10x1000000x3_S1000000x1_S10x1000000x3_02_1_n_n_1_1_1013
      = midDims 10 1000000 3 1000000 Facts₀.gather_S10x1000000x3_S1000000x1_S10x1000000x3_02_1_n_n_1_1_1013_wf := rfl
  rw [hd, midGather_apply (by decide)]
  refine congrArg (fun r => W (ix3 j r d)) (Fin.ext ?_)
  show min _ (1000000 - 1) = (rowOf (e (ix1 q))).val
  rw [col1_apply]
  rfl

/-- Group 2 (six tables). -/
theorem pool2 (e : IVec S1000000 32) (W : FVec Ideal S6x1000000x3 .f32) (d : Fin 3) :
    val_main_v23 (F := Ideal) e W (ix1 d) = 0 + ∑ j : Fin 6, ∑ n : Fin 1000000, W (ix3 j (rowOf (e (ix1 n))) d) := by
  unfold val_main_v23 Host.reduceAdd
  rw [Ideal.hostReduceAdd_def]
  refine (hostReduceAdd_01_apply (T := 6) (n := 1000000) (D := 3) _ _ _ d).trans ?_
  rw [val_main_cst_6_apply]
  show Ideal.ofBits .f32 0x00000000#32 + _ = _
  rw [Ideal.ofBits_zero_f32]
  refine congrArg (fun s : EReal => 0 + s) ?_
  refine Finset.sum_congr rfl fun j _ => Finset.sum_congr rfl fun q _ => ?_
  unfold val_main_v22
  have hd : gather_S6x1000000x3_S1000000x1_S6x1000000x3_02_1_n_n_1_1_613
      = midDims 6 1000000 3 1000000 Facts₀.gather_S6x1000000x3_S1000000x1_S6x1000000x3_02_1_n_n_1_1_613_wf := rfl
  rw [hd, midGather_apply (by decide)]
  refine congrArg (fun r => W (ix3 j r d)) (Fin.ext ?_)
  show min _ (1000000 - 1) = (rowOf (e (ix1 q))).val
  rw [col2_apply]
  rfl

end Cert.RefPool

end
-- ==== Proof.PreDecode.lean ====
/-
  What the precondition says of the inputs. The printed predicate is the conjunction of "every entry of table group g
  has absolute value below +infinity" for the three groups and "every index word e satisfies -1000000 <= e < 1000000
  as a signed number"; each is a reduction by "and" of a pointwise compare. Read at the exact instance, an entry whose
  absolute value is below +infinity is a real number.
-/
import proofs.«430057_j62277025792621_1_alg».proof.Pre_finite_inputs
import proofs.«430057_j62277025792621_1_alg».proof.Proof.LibIndexWrap
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The scalar shape has one index. -/
private instance : Subsingleton S_.Idx := ⟨fun _ _ => funext fun d => d.elim0⟩

/-- The f32 pattern 0x7F800000 (sign 0, exponent all ones, fraction 0) denotes +infinity. -/
private theorem ofBits_inf : Ideal.ofBits .f32 0x7F800000#32 = (⊤ : EReal) := by
  simp [Ideal.ofBits, Ideal.ieee]

/-- An extended real whose absolute value max x (-x) lies below +infinity is neither infinity: it is a real number. -/
private theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One table group: if the "and" over all entries of "|W| < +infinity" is 1, every entry of W is a real number. -/
private theorem finite_of_all {S : Shape} {axes : List (Fin S.rank)}
    (hb : S_.BroadcastsInDim S (![] : Fin 0 → Fin S.rank)) (hr : S.ReducesTo axes S_) (h0 : 0 < S_.numel)
    (W : FVec Ideal S .f32)
    (h : Host.reduce IntOp.andi (cmpf .olt (Host.absf W) (broadcastInDim S ![] hb (constant S_ .f32 0x7F800000#32)))
          (constantI S_ 1 1#1) hr h0 ix0 = 1#1) (i : S.Idx) : ∃ x : ℝ, W i = (x : EReal) := by
  have hi := Host.reduce_andi_all _ _ hr h0 ix0 h i
  have hbc : broadcastInDim S ![] hb (constant (F := Ideal) S_ .f32 0x7F800000#32) i = (⊤ : EReal) := by
    rw [StableHlo.Predicate.bcast_scalar hb h0]; exact ofBits_inf
  have hlt : Ideal.cmp .olt (max (W i) (-(W i))) (⊤ : EReal) = 1#1 := by
    rw [← hbc]; exact hi
  refine real_of_abs_lt_top (W i) ?_
  simpa [Ideal.cmp, StableHlo.Predicate.ofBool_eq_one_iff] using hlt

/-- The index words: if the "and" over all positions of "e >= lo and e < hi" is 1, each word's signed value lies between
    the signed values of lo and hi. -/
private theorem range_of_all (hb : S_.BroadcastsInDim S1000000 (![] : Fin 0 → Fin S1000000.rank))
    (hr : S1000000.ReducesTo [0] S_) (h0 : 0 < S_.numel) (e : IVec S1000000 32) (lo hi : BitVec 32)
    (h : Host.reduce IntOp.andi
          (andi (cmpi .sge e (broadcastInDim S1000000 ![] hb (constantI S_ 32 lo)))
            (cmpi .slt e (broadcastInDim S1000000 ![] hb (constantI S_ 32 hi))))
          (constantI S_ 1 1#1) hr h0 ix0 = 1#1) (n : Fin 1000000) :
    lo.toInt ≤ (e (ix1 n)).toInt ∧ (e (ix1 n)).toInt < hi.toInt := by
  have hi' := Host.reduce_andi_all _ _ hr h0 ix0 h (ix1 n)
  have hand : IntOp.andi (IntOp.cmpi .sge (e (ix1 n)) lo) (IntOp.cmpi .slt (e (ix1 n)) hi) = 1#1 := by
    have e1 : broadcastInDim S1000000 ![] hb (constantI S_ 32 lo) (ix1 n) = lo :=
      StableHlo.Predicate.bcast_scalar hb h0 _ _
    have e2 : broadcastInDim S1000000 ![] hb (constantI S_ 32 hi) (ix1 n) = hi :=
      StableHlo.Predicate.bcast_scalar hb h0 _ _
    rw [← e1, ← e2]; exact hi'
  obtain ⟨h1, h2⟩ := IntOp.andi_eq_one.1 hand
  exact ⟨IndexWrap.sge_decode _ _ h1, IndexWrap.slt_decode _ _ h2⟩

/-- Under the precondition every table entry is a real number and every index word lies in numpy's index range. -/
theorem of_pre (e : IVec S1000000 32) (W0 : FVec Ideal S5x1000000x3 .f32) (W1 : FVec Ideal S10x1000000x3 .f32)
    (W2 : FVec Ideal S6x1000000x3 .f32) (h : fn (F := Ideal) e W0 W1 W2 = fun _ => 1#1) :
    (∀ i, ∃ x : ℝ, W0 i = (x : EReal)) ∧ (∀ i, ∃ x : ℝ, W1 i = (x : EReal)) ∧ (∀ i, ∃ x : ℝ, W2 i = (x : EReal))
      ∧ ∀ n : Fin 1000000, -1000000 ≤ (e (ix1 n)).toInt ∧ (e (ix1 n)).toInt < 1000000 := by
  have h0 := congrFun h ix0
  dsimp only [fn, fn_part1] at h0
  -- the printed conjunction ((g0 and g1) and g2) and range, each a bit, all set
  obtain ⟨h012, hr⟩ := IntOp.andi_eq_one.1 h0
  obtain ⟨h01, h2⟩ := IntOp.andi_eq_one.1 h012
  obtain ⟨hg0, hg1⟩ := IntOp.andi_eq_one.1 h01
  refine ⟨finite_of_all _ _ _ W0 hg0, finite_of_all _ _ _ W1 hg1, finite_of_all _ _ _ W2 h2, fun n => ?_⟩
  have hn := range_of_all _ _ _ e 4293967296#32 1000000#32 hr n
  have elo : (4293967296#32 : BitVec 32).toInt = -1000000 := by decide
  have ehi : (1000000#32 : BitVec 32).toInt = 1000000 := by decide
  rw [elo, ehi] at hn
  exact hn

end Cert.PreDecode

end
-- ==== Proof.PoolBridge.lean ====
/-
  The bridge between the two programs, one table group at a time: under the precondition the kernel program's pooled
  sum of group g, as the host keeps it, is the reference's gathered sum of group g, column by column.
-/
import proofs.«430057_j62277025792621_1_alg».proof.Proof.PoolHost
import proofs.«430057_j62277025792621_1_alg».proof.Proof.PoolValue0
import proofs.«430057_j62277025792621_1_alg».proof.Proof.PoolValue1
import proofs.«430057_j62277025792621_1_alg».proof.Proof.PoolValue2
import proofs.«430057_j62277025792621_1_alg».proof.Proof.RefPool
import proofs.«430057_j62277025792621_1_alg».proof.Proof.PreDecode
import proofs.«430057_j62277025792621_1_alg».proof.Proof.PoolIndex
import proofs.«430057_j62277025792621_1_alg».proof.Proof.PoolSpec
import proofs.«430057_j62277025792621_1_alg».proof.Proof.Gen.Pre_finite_inputs

set_option maxRecDepth 16384

noncomputable section

namespace Cert.PoolBridge

open Idealize.ShloMosaic Idealize.ShloMosaic.TcCoe Idealize.ShloMosaic.ValueIdx Idealize.SL.Sem
open Cert.KernelIdeal Cert.KernelIdeal.Gen Cert.KernelIdeal.Pool Cert.PoolIndex
open scoped BigOperators

variable (m : (ℓ : Loc nD τ sig) → Buf (Elt Ideal) ℓ) (ρ : Dev nD → PrngReg)

/-- Group 0: the kernel program's pooled sum is the reference's. The result array holds the accumulator after the last
    tile, which is the specification's running sum of the counts and the table as the region found them; the counts are
    the occurrence counts of the rows the index words select (the words lie in numpy's range, so a wrapped word's signed
    value is the row), the table is the launched one and its entries are real numbers, so the running sum is the
    reference's gathered sum. -/
theorem pooled0_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    (pooled0 m ρ c : S3.Idx → EReal)
      = Cert.ReferenceIdeal.Read.val_main_v7 (F := Ideal) (m ((c : Thread nD τ).loc main_arg0)) (m ((c : Thread nD τ).loc main_arg1)) := by
  obtain ⟨hW0, hW1, hW2, hrange⟩ := Cert.PreDecode.of_pre _ _ _ _ hpre
  funext i
  obtain ⟨d, rfl⟩ : ∃ d : Fin 3, i = ix1 d := ⟨i 0, eq_ix1 i⟩
  refine (row_to_vec_apply _ d).trans ?_
  rw [result0_eq (V1 m ρ) c, accAt0_eq (V1 m ρ) c 499 _ (by norm_num) d,
    Cert.PoolSpec.accAfter_last _ _ (fun n => rowOf (words m c (ix1 n))) ?hW ?hcnt d, Cert.RefPool.pool0]
  · simp only [table0]
    rw [table_entry1 m ρ c]
  case hW =>
    intro j v d'
    show ∃ x : ℝ, (V1 m ρ c main_arg1 : S5x1000000x3.Idx → EReal) (ix3 j v d') = (x : EReal)
    rw [table_entry1 m ρ c]
    exact hW0 _
  case hcnt =>
    intro v
    show (V1 m ρ c main_v9 : S1000000x1.Idx → EReal) (ix2 v (0 : Fin 1)) = _
    rw [counts_entry m ρ c v]
    refine congrArg (fun s : EReal => 0 + s) ?_
    exact Finset.sum_congr (Finset.filter_congr fun n _ => wrap_eq_iff_rowOf _ (hrange n) v) fun _ _ => rfl

/-- Group 1: the kernel program's pooled sum is the reference's. The result array holds the accumulator after the last
    tile, which is the specification's running sum of the counts and the table as the region found them; the counts are
    the occurrence counts of the rows the index words select (the words lie in numpy's range, so a wrapped word's signed
    value is the row), the table is the launched one and its entries are real numbers, so the running sum is the
    reference's gathered sum. -/
theorem pooled1_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    (pooled1 m ρ c : S3.Idx → EReal)
      = Cert.ReferenceIdeal.Read.val_main_v15 (F := Ideal) (m ((c : Thread nD τ).loc main_arg0)) (m ((c : Thread nD τ).loc main_arg2)) := by
  obtain ⟨hW0, hW1, hW2, hrange⟩ := Cert.PreDecode.of_pre _ _ _ _ hpre
  funext i
  obtain ⟨d, rfl⟩ : ∃ d : Fin 3, i = ix1 d := ⟨i 0, eq_ix1 i⟩
  refine (row_to_vec_apply _ d).trans ?_
  rw [result1_eq (V3 m ρ) c, accAt1_eq (V3 m ρ) c 499 _ (by norm_num) d,
    Cert.PoolSpec.accAfter_last _ _ (fun n => rowOf (words m c (ix1 n))) ?hW ?hcnt d, Cert.RefPool.pool1]
  · simp only [table1]
    rw [table_entry3 m ρ c]
  case hW =>
    intro j v d'
    show ∃ x : ℝ, (V3 m ρ c main_arg2 : S10x1000000x3.Idx → EReal) (ix3 j v d') = (x : EReal)
    rw [table_entry3 m ρ c]
    exact hW1 _
  case hcnt =>
    intro v
    show (V3 m ρ c main_v9 : S1000000x1.Idx → EReal) (ix2 v (0 : Fin 1)) = _
    rw [counts_kept3 m ρ c, counts_entry m ρ c v]
    refine congrArg (fun s : EReal => 0 + s) ?_
    exact Finset.sum_congr (Finset.filter_congr fun n _ => wrap_eq_iff_rowOf _ (hrange n) v) fun _ _ => rfl

/-- Group 2: the kernel program's pooled sum is the reference's. The result array holds the accumulator after the last
    tile, which is the specification's running sum of the counts and the table as the region found them; the counts are
    the occurrence counts of the rows the index words select (the words lie in numpy's range, so a wrapped word's signed
    value is the row), the table is the launched one and its entries are real numbers, so the running sum is the
    reference's gathered sum. -/
theorem pooled2_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    (pooled2 m ρ c : S3.Idx → EReal)
      = Cert.ReferenceIdeal.Read.val_main_v23 (F := Ideal) (m ((c : Thread nD τ).loc main_arg0)) (m ((c : Thread nD τ).loc main_arg3)) := by
  obtain ⟨hW0, hW1, hW2, hrange⟩ := Cert.PreDecode.of_pre _ _ _ _ hpre
  funext i
  obtain ⟨d, rfl⟩ : ∃ d : Fin 3, i = ix1 d := ⟨i 0, eq_ix1 i⟩
  refine (row_to_vec_apply _ d).trans ?_
  rw [result2_eq (V5 m ρ) c, accAt2_eq (V5 m ρ) c 499 _ (by norm_num) d,
    Cert.PoolSpec.accAfter_last _ _ (fun n => rowOf (words m c (ix1 n))) ?hW ?hcnt d, Cert.RefPool.pool2]
  · simp only [table2]
    rw [table_entry5 m ρ c]
  case hW =>
    intro j v d'
    show ∃ x : ℝ, (V5 m ρ c main_arg3 : S6x1000000x3.Idx → EReal) (ix3 j v d') = (x : EReal)
    rw [table_entry5 m ρ c]
    exact hW2 _
  case hcnt =>
    intro v
    show (V5 m ρ c main_v9 : S1000000x1.Idx → EReal) (ix2 v (0 : Fin 1)) = _
    rw [counts_kept5 m ρ c, counts_entry m ρ c v]
    refine congrArg (fun s : EReal => 0 + s) ?_
    exact Finset.sum_congr (Finset.filter_congr fun n _ => wrap_eq_iff_rowOf _ (hrange n) v) fun _ _ => rfl

end Cert.PoolBridge

end
-- ==== Proof.lean ====
/-
  The certificate of the pooled embedding sum. For each of three table groups W_g (5, 10 and 6 stacked tables of
  1000000 rows by 3 columns) and one vector of 1000000 index words, the reference gathers the rows W_g[:, idx, :] and
  sums them over tables and positions; the kernel program first counts, with an accumulating scatter of ones, how often
  each row is selected, then streams each group's tables through a pallas_call in 500 tiles of 2000 rows, adding
  count(row) · Σ_tables W[table, row, :] into a [1, 3] accumulator, and stacks the three results into [3, 3].

  Precondition: every table entry is finite, and every index word lies in numpy's index range [-1000000, 1000000)
  (outside it the reference itself indexes out of range: its gather clamps while the kernel program's scatter drops).

  The three frames: the two kernel programs run through their seven segments with every unscoped buffer followed as a
  fold from the launch memory, and the arguments are read back unchanged; the reference is a straight line of host
  operations. The idealization rewrote nothing. The value claim: the kernel program's result is the stack of the three
  accumulators' final contents, each the specification's running sum over the tiles, which under the precondition is
  the reference's gathered sum (a count times a real entry is the entry added once per selecting position; the tiles
  partition the rows; a sum over positions is the sum over rows of the sums over each row's positions).
-/
import proofs.«430057_j62277025792621_1_alg».proof.Defs
import proofs.«430057_j62277025792621_1_alg».proof.Proof.Gen.Kernel
import proofs.«430057_j62277025792621_1_alg».proof.Proof.Gen.Kernel.Skeleton
import proofs.«430057_j62277025792621_1_alg».proof.Proof.Gen.Kernel.Launch
import proofs.«430057_j62277025792621_1_alg».proof.Proof.Gen.Kernel.Regions
import proofs.«430057_j62277025792621_1_alg».proof.Proof.Gen.Kernel.Points
import proofs.«430057_j62277025792621_1_alg».proof.Proof.Gen.KernelIdeal
import proofs.«430057_j62277025792621_1_alg».proof.Proof.Gen.KernelIdeal.Skeleton
import proofs.«430057_j62277025792621_1_alg».proof.Proof.Gen.KernelIdeal.Launch
import proofs.«430057_j62277025792621_1_alg».proof.Proof.Gen.KernelIdeal.Regions
import proofs.«430057_j62277025792621_1_alg».proof.Proof.Gen.KernelIdeal.Points
import proofs.«430057_j62277025792621_1_alg».proof.Proof.Gen.ReferenceIdeal
import proofs.«430057_j62277025792621_1_alg».proof.Proof.Gen.ReferenceIdeal.Run
import proofs.«430057_j62277025792621_1_alg».proof.Proof.Gen.ReferenceIdeal.Read
import proofs.«430057_j62277025792621_1_alg».proof.Proof.Gen.Pre_finite_inputs
import proofs.«430057_j62277025792621_1_alg».proof.Proof.KPoolRun
import proofs.«430057_j62277025792621_1_alg».proof.Proof.PoolRun
import proofs.«430057_j62277025792621_1_alg».proof.Proof.PoolHost
import proofs.«430057_j62277025792621_1_alg».proof.Proof.PoolBridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Pool.frame (F := Bits) m ρ
theorem frame_kernelIdeal : Cert.frame_KernelIdeal := fun m ρ _ => Cert.KernelIdeal.Pool.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's stacked result of the kernel program's arguments: the kernel program's three
    pooled sums are the reference's (the bridge), and both stack them the same way. -/
theorem algebraic : Cert.algebraic_KernelIdeal_ReferenceIdeal := by
  intro m ρ m' ρ' hpre hagree
  refine ⟨fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩)
      (Cert.KernelIdeal.Pool.run_all (F := Ideal) m ρ)
    · refine (h c _ (Cert.KernelIdeal.Pool.mem_uc Cert.KernelIdeal.main_v19 (by decide))).trans ?_
      refine (Cert.KernelIdeal.Pool.result_entry m ρ c).trans ?_
      rw [Cert.PoolBridge.pooled0_eq m ρ c (hpre c), Cert.PoolBridge.pooled1_eq m ρ c (hpre c),
        Cert.PoolBridge.pooled2_eq m ρ c (hpre c)]
      rfl
    · exact (h c _ (Cert.KernelIdeal.Pool.mem_uc Cert.KernelIdeal.main_arg0 (by decide))).trans (Cert.KernelIdeal.Pool.W7_main_arg0 m ρ c)
    · exact (h c _ (Cert.KernelIdeal.Pool.mem_uc Cert.KernelIdeal.main_arg1 (by decide))).trans (Cert.KernelIdeal.Pool.W7_main_arg1 m ρ c)
    · exact (h c _ (Cert.KernelIdeal.Pool.mem_uc Cert.KernelIdeal.main_arg2 (by decide))).trans (Cert.KernelIdeal.Pool.W7_main_arg2 m ρ c)
    · exact (h c _ (Cert.KernelIdeal.Pool.mem_uc Cert.KernelIdeal.main_arg3 (by decide))).trans (Cert.KernelIdeal.Pool.W7_main_arg3 m ρ c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v27_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
